-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.truncf_extf.Statement Cert.KernelIdeal.S5000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v80_0)) (v2 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v80_0) = v1 c
          ∧ r.2.mem ((c.tc : Thread Cert.KernelIdeal.nD Cert.KernelIdeal.τ).loc Cert.KernelIdeal.main_v80_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x9 : Shape := ⟨2, ![64, 9]⟩
abbrev S9 : Shape := ⟨1, ![9]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S32 .f32) (main_arg21 : FVec F S32x1 .f32) (main_arg22 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg21
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64x9 .f32) (main_arg18 : FVec F S9 .f32) (main_arg19 : FVec F S64x32 .f32) (main_arg20 : FVec F S32 .f32) (main_arg21 : FVec F S32x1 .f32) (main_arg22 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x9 .f32 := Host.absf main_arg17
  let main_cst_28 : FVec F S_ .f32 := constant S_ .f32 0x7F800000#32
  let main_v75 : FVec F S64x9 .f32 := broadcastInDim S64x9 ![] bcast_S_S64x9 main_cst_28
  let main_v76 : IVec S64x9 1 := cmpf .olt main_v74 main_v75
  let main_c_29 : IVec S_ 1 := constantI S_ 1 1#1
  let main_v77 : IVec S_ 1 := (fun x v => Host.reduce IntOp.andi x v reducesTo_S64x9_S_d0_1 h_S_) main_v76 main_c_29
  let main_v78 : IVec S_ 1 := andi main_v73 main_v77
  let main_v79 : FVec F S9 .f32 := Host.absf main_arg18
  let main_cst_30 : FVec F S_ .f32 := constant S_ .f32 0x7F800000#32
  let main_v80 : FVec F S9 .f32 := broadcastInDim S9 ![] bcast_S_S9 main_cst_30
  let main_v81 : IVec S9 1 := cmpf .olt main_v79 main_v80
  let main_c_31 : IVec S_ 1 := constantI S_ 1 1#1
  let main_v82 : IVec S_ 1 := (fun x v => Host.reduce IntOp.andi x v reducesTo_S9_S_d0 h_S_) main_v81 main_c_31
  let main_v83 : IVec S_ 1 := andi main_v78 main_v82
  let main_v84 : FVec F S64x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S32x1 .f32) (main_arg14 : FVec F S1 .f32) (main_arg15 : FVec F S64x64 .f32) (main_arg16 : FVec F S64 .f32) (main_arg17 : FVec F S64x9 .f32) (main_arg18 : FVec F S9 .f32) (main_arg19 : FVec F S64x32 .f32) (main_arg20 : FVec F S32 .f32) (main_arg21 : FVec F S32x1 .f32) (main_arg22 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x32 .f32) (main_arg12 : FVec F S32 .f32) (main_arg13 : FVec F S32x1 .f32) (main_arg14 : FVec F S1 .f32) (main_arg15 : FVec F S64x64 .f32) (main_arg16 : FVec F S64 .f32) (main_arg17 : FVec F S64x9 .f32) (main_arg18 : FVec F S9 .f32) (main_arg19 : FVec F S64x32 .f32) (main_arg20 : FVec F S32 .f32) (main_arg21 : FVec F S32x1 .f32) (main_arg22 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_arg15 : FVec F S64x64 .f32) (main_arg16 : FVec F S64 .f32) (main_arg17 : FVec F S64x9 .f32) (main_arg18 : FVec F S9 .f32) (main_arg19 : FVec F S64x32 .f32) (main_arg20 : FVec F S32 .f32) (main_arg21 : FVec F S32x1 .f32) (main_arg22 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x8 .f32) (main_arg1 : IVec S2x3200000 32) (main_arg2 : IVec S100000 32) (main_arg3 : FVec F S8x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_arg15 : FVec F S64x64 .f32) (main_arg16 : FVec F S64 .f32) (main_arg17 : FVec F S64x9 .f32) (main_arg18 : FVec F S9 .f32) (main_arg19 : FVec F S64x32 .f32) (main_arg20 : FVec F S32 .f32) (main_arg21 : FVec F S32x1 .f32) (main_arg22 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg3
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x9 : Shape := ⟨2, ![64, 9]⟩
abbrev S9 : Shape := ⟨1, ![9]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x8 : Shape := ⟨2, ![5000, 8]⟩
abbrev S5000x64 : Shape := ⟨2, ![5000, 64]⟩
abbrev S3300000x64 : Shape := ⟨2, ![3300000, 64]⟩
abbrev S1x64 : Shape := ⟨2, ![1, 64]⟩
abbrev S1x9 : Shape := ⟨2, ![1, 9]⟩
abbrev S1x32 : Shape := ⟨2, ![1, 32]⟩
abbrev S1x1 : Shape := ⟨2, ![1, 1]⟩
abbrev S100000x9 : Shape := ⟨2, ![100000, 9]⟩
abbrev S256x64 : Shape := ⟨2, ![256, 64]⟩
abbrev S1x256 : Shape := ⟨2, ![1, 256]⟩
abbrev S5000x1 : Shape := ⟨2, ![5000, 1]⟩
abbrev S5000x9 : Shape := ⟨2, ![5000, 9]⟩
abbrev S5000x32 : Shape := ⟨2, ![5000, 32]⟩
abbrev S5000x256 : Shape := ⟨2, ![5000, 256]⟩
abbrev S256 : Shape := ⟨1, ![256]⟩
abbrev S256x1 : Shape := ⟨2, ![256, 1]⟩
abbrev S256x32 : Shape := ⟨2, ![256, 32]⟩

abbrev nBuf : Space → Nat
  | .hbm => 151
  | .vmem => 36
  | .smem => 0
  | _ => 0

abbrev hbmTy0_0 (i : Nat) : BufTy := match i % 128 with
  | 0 => ⟨S100000x8, .f32⟩
  | 1 => ⟨S2x3200000, .i32⟩
  | 2 => ⟨S100000, .i32⟩
  | 3 => ⟨S8x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S64x64, .f32⟩
  | 16 => ⟨S64, .f32⟩
  | 17 => ⟨S64x9, .f32⟩
  | 18 => ⟨S9, .f32⟩
  | 19 => ⟨S64x32, .f32⟩
  | 20 => ⟨S32, .f32⟩
  | 21 => ⟨S32x1, .f32⟩
  | 22 => ⟨S1, .f32⟩
  | 23 => ⟨S1x3200000, .i32⟩
  | 24 => ⟨S3200000, .i32⟩
  | 25 => ⟨S1x3200000, .i32⟩
  | 26 => ⟨S3200000, .i32⟩
  | 27 => ⟨S100000, .i32⟩
  | 28 => ⟨S3300000, .i32⟩
  | 29 => ⟨S3300000, .i32⟩
  | 30 => ⟨S_, .f32⟩
  | 31 => ⟨S3300000, .f32⟩
  | 32 => ⟨S_, .f32⟩
  | 33 => ⟨S100000, .f32⟩
  | 34 => ⟨S3300000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000, .f32⟩
  | 62 => ⟨S3300000, .f32⟩
  | 63 => ⟨S100000x1, .i32⟩
  | 64 => ⟨S100000x64, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x64, .f32⟩
  | 74 => ⟨S3300000x1, .f32⟩
  | 75 => ⟨S3300000x64, .f32⟩
  | 76 => ⟨S3300000x64, .f32⟩
  | 77 => ⟨S_, .f32⟩
  | 78 => ⟨S100000x64, .f32⟩
  | 79 => ⟨S3300000x1, .i32⟩
  | 80 => ⟨S100000x64, .f32⟩
  | 81 => ⟨S1x64, .f32⟩
  | 82 => ⟨S100000x64, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x64, .f32⟩
  | 92 => ⟨S3300000x1, .f32⟩
  | 93 => ⟨S3300000x64, .f32⟩
  | 94 => ⟨S3300000x64, .f32⟩
  | 95 => ⟨S_, .f32⟩
  | 96 => ⟨S100000x64, .f32⟩
  | 97 => ⟨S3300000x1, .i32⟩
  | 98 => ⟨S100000x64, .f32⟩
  | 99 => ⟨S1x64, .f32⟩
  | 100 => ⟨S100000x64, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x64, .f32⟩
  | 110 => ⟨S3300000x1, .f32⟩
  | 111 => ⟨S3300000x64, .f32⟩
  | 112 => ⟨S3300000x64, .f32⟩
  | 113 => ⟨S_, .f32⟩
  | 114 => ⟨S100000x64, .f32⟩
  | 115 => ⟨S3300000x1, .i32⟩
  | 116 => ⟨S100000x64, .f32⟩
  | 117 => ⟨S1x64, .f32⟩
  | 118 => ⟨S1x64, .f32⟩
  | 119 => ⟨S1x9, .f32⟩
  | 120 => ⟨S1x32, .f32⟩
  | 121 => ⟨S1x1, .f32⟩
  | 122 => ⟨S100000x9, .f32⟩
  | 123 => ⟨S100000x1, .f32⟩
  | 124 => ⟨S256x64, .f32⟩
  | 125 => ⟨S1x256, .f32⟩
  | 126 => ⟨S256, .f32⟩
  | 127 => ⟨S_, .f32⟩
  | _ => ⟨S100000x8, .f32⟩

abbrev hbmTy0_1 (i : Nat) : BufTy := match i % 128 with
  | 0 => ⟨S256, .f32⟩
  | 1 => ⟨S256, .f32⟩
  | 2 => ⟨S256x1, .f32⟩
  | 3 => ⟨S256x64, .f32⟩
  | 4 => ⟨S256x64, .f32⟩
  | 5 => ⟨S256x64, .f32⟩
  | 6 => ⟨S1x64, .f32⟩
  | 7 => ⟨S256x64, .f32⟩
  | 8 => ⟨S256x64, .f32⟩
  | 9 => ⟨S_, .f32⟩
  | 10 => ⟨S256x64, .f32⟩
  | 11 => ⟨S256x64, .f32⟩
  | 12 => ⟨S256x32, .f32⟩
  | 13 => ⟨S1x32, .f32⟩
  | 14 => ⟨S256x32, .f32⟩
  | 15 => ⟨S256x32, .f32⟩
  | 16 => ⟨S_, .f32⟩
  | 17 => ⟨S256x32, .f32⟩
  | 18 => ⟨S256x32, .f32⟩
  | 19 => ⟨S256x1, .f32⟩
  | 20 => ⟨S1x1, .f32⟩
  | 21 => ⟨S256x1, .f32⟩
  | 22 => ⟨S256x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S64x64, .f32⟩
  | .local _ .vmem, ⟨23, _⟩ => ⟨S1x64, .f32⟩
  | .local _ .vmem, ⟨24, _⟩ => ⟨S64x9, .f32⟩
  | .local _ .vmem, ⟨25, _⟩ => ⟨S1x9, .f32⟩
  | .local _ .vmem, ⟨26, _⟩ => ⟨S64x32, .f32⟩
  | .local _ .vmem, ⟨27, _⟩ => ⟨S1x32, .f32⟩
  | .local _ .vmem, ⟨28, _⟩ => ⟨S32x1, .f32⟩
  | .local _ .vmem, ⟨29, _⟩ => ⟨S1x1, .f32⟩
  | .local _ .vmem, ⟨30, _⟩ => ⟨S5000x9, .f32⟩
  | .local _ .vmem, ⟨31, _⟩ => ⟨S5000x9, .f32⟩
  | .local _ .vmem, ⟨32, _⟩ => ⟨S5000x1, .f32⟩
  | .local _ .vmem, ⟨33, _⟩ => ⟨S5000x1, .f32⟩
  | .local _ .vmem, ⟨34, _⟩ => ⟨S256x64, .f32⟩
  | .local _ .vmem, ⟨35, _⟩ => ⟨S1x256, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_c : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_c_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_12 : Ref sig .tc := ⟨.hbm, 101, rfl⟩
abbrev main_v62 : Ref sig .tc := ⟨.hbm, 102, rfl⟩
abbrev main_v63 : Ref sig .tc := ⟨.hbm, 103, rfl⟩
abbrev main_c_13 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80_0 : Ref sig .tc := ⟨.hbm, 122, rfl⟩
abbrev main_v80_1 : Ref sig .tc := ⟨.hbm, 123, rfl⟩
abbrev main_v80_2 : Ref sig .tc := ⟨.hbm, 124, rfl⟩
abbrev main_v80_3 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call1_cst : Ref sig .tc := ⟨.hbm, 137, rfl⟩
abbrev main_call1_v0 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call2_cst : Ref sig .tc := ⟨.hbm, 144, rfl⟩
abbrev main_call2_v0 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg10_0 : Ref sig .tc := ⟨.vmem, 29, rfl⟩
abbrev cc3_stg11_0 : Ref sig .tc := ⟨.vmem, 30, rfl⟩
abbrev cc3_stg11_1 : Ref sig .tc := ⟨.vmem, 31, rfl⟩
abbrev cc3_stg12_0 : Ref sig .tc := ⟨.vmem, 32, rfl⟩
abbrev cc3_stg12_1 : Ref sig .tc := ⟨.vmem, 33, rfl⟩
abbrev cc3_stg13_0 : Ref sig .tc := ⟨.vmem, 34, rfl⟩
abbrev cc3_stg14_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem9_0 : DmaSem sig := 28
abbrev cc3_sem10_0 : DmaSem sig := 29
abbrev cc3_sem11_0 : DmaSem sig := 30
abbrev cc3_sem11_1 : DmaSem sig := 31
abbrev cc3_sem12_0 : DmaSem sig := 32
abbrev cc3_sem12_1 : DmaSem sig := 33
abbrev cc3_sem13_0 : DmaSem sig := 34
abbrev cc3_sem14_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x9 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x9 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x9 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S5000x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S256x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S9_S1x9 : S9.ShapeCasts S1x9
  shapeCasts_S32_S1x32 : S32.ShapeCasts S1x32
  shapeCasts_S1_S1x1 : S1.ShapeCasts S1x1
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  inb_S64x9_S64x9_0_0 : ∀ a, (![0, 0] : Fin 2 → Nat) a + S64x9.size a ≤ S64x9.size a
  h_S64x9 : 0 < S64x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S5000x9 : S1x9.Broadcasts S5000x9
  inb_S5000x9_S5000x9_0_0 : ∀ a, (![0, 0] : Fin 2 → Nat) a + S5000x9.size a ≤ S5000x9.size a
  h_S5000x9 : 0 < S5000x9.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  reduces_S5000x256_S256 : S5000x256.Reduces [0] S256
  shapeCasts_S256_S1x256 : S256.ShapeCasts S1x256
  shapeCasts_S256x64_S256x64 : S256x64.ShapeCasts S256x64
  shapeCasts_S1x256_S1x256 : S1x256.ShapeCasts S1x256
  shapeCasts_S1x256_S256 : S1x256.ShapeCasts S256
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x8_S8x64_S5000x64_1_0_0_1_n_n_wf : DotDims.WF S5000x8 S8x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x9_S5000x9_1_0_0_1_n_n_wf : DotDims.WF S5000x64 S64x9 S5000x9 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  dot_S5000x256_S5000x64_S256x64_0_0_1_1_n_n_wf : DotDims.WF S5000x256 S5000x64 S256x64 [0] [0] [1] [1] [] []
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .i32 = 32 ∨ (Rect.block (s := S100000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x9.size a ≤ S64x9.size a
  hwx3_5 : ∀ i : grid3.Coords, EltTy.bits .f32 = 32 ∨ (Rect.block (s := S64x9) S64x9.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x9.size a ≤ S1x9.size a
  hwx3_6 : ∀ i : grid3.Coords, EltTy.bits .f32 = 32 ∨ (Rect.block (s := S1x9) S1x9.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .f32 = 32 ∨ (Rect.block (s := S64x32) S64x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32x1.size a ≤ S32x1.size a
  hwx3_9 : ∀ i : grid3.Coords, EltTy.bits .f32 = 32 ∨ (Rect.block (s := S32x1) S32x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x9.size a ≤ S100000x9.size a
  hwx3_11 : ∀ i : grid3.Coords, EltTy.bits .f32 = 32 ∨ (Rect.block (s := S100000x9) S5000x9.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x1.size a ≤ S100000x1.size a
  hwx3_12 : ∀ i : grid3.Coords, EltTy.bits .f32 = 32 ∨ (Rect.block (s := S100000x1) S5000x1.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S256x64.size a ≤ S256x64.size a
  hwx3_13 : ∀ i : grid3.Coords, EltTy.bits .f32 = 32 ∨ (Rect.block (s := S256x64) S256x64.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x256.size a ≤ S1x256.size a
  hwx3_14 : ∀ i : grid3.Coords, EltTy.bits .f32 = 32 ∨ (Rect.block (s := S1x256) S1x256.size (cc3_transform_14 i) (hinb3_14 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x9_S5000x9_1_0_0_1_n_n : DotDims S5000x64 S64x9 S5000x9 where
  lhsContracting := [1]
  rhsContracting := [0]
  lhsNonContracting := [0]
  rhsNonContracting := [1]
  lhsBatch := []
  rhsBatch := []
  wf := dot_S5000x64_S64x9_S5000x9_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64x9.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S1x9.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg21) S32x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v79) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v80_0) S5000x9.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v80_1) S5000x1.size cc3_transform_12 reads3_12 true false 2 stage3_12 sem3_12
    hrank3 hreads3_12 hinb3_12 nbuf3_12 (Memref.isWhole_whole _) hwx3_12 hstage3_12

abbrev win3_13 : Pipeline.Window sig grid3 :=
  Pipeline.Window.ofSpec (Memref.whole main_v80_2) S256x64.size cc3_transform_13 reads3_13 true true 1 stage3_13 sem3_13
    hrank3 hreads3_13 hinb3_13 nbuf3_13 (Memref.isWhole_whole _) hwx3_13 hstage3_13

abbrev win3_14 : Pipeline.Window sig grid3 :=
  Pipeline.Window.ofSpec (Memref.whole main_v80_3) S1x256.size cc3_transform_14 reads3_14 true true 1 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x9 : Shape := ⟨2, ![64, 9]⟩
abbrev S9 : Shape := ⟨1, ![9]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S1x1 : Shape := ⟨2, ![1, 1]⟩
abbrev S100000x9 : Shape := ⟨2, ![100000, 9]⟩
abbrev S1x9 : Shape := ⟨2, ![1, 9]⟩
abbrev S100000x32 : Shape := ⟨2, ![100000, 32]⟩

abbrev nBuf : Space → Nat
  | .hbm => 257
  | .vmem => 0
  | .smem => 0
  | _ => 0

abbrev hbmTy0_0 (i : Nat) : BufTy := match i % 128 with
  | 0 => ⟨S100000x8, .f32⟩
  | 1 => ⟨S2x3200000, .i32⟩
  | 2 => ⟨S100000, .i32⟩
  | 3 => ⟨S8x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S64x64, .f32⟩
  | 16 => ⟨S64, .f32⟩
  | 17 => ⟨S64x9, .f32⟩
  | 18 => ⟨S9, .f32⟩
  | 19 => ⟨S64x32, .f32⟩
  | 20 => ⟨S32, .f32⟩
  | 21 => ⟨S32x1, .f32⟩
  | 22 => ⟨S1, .f32⟩
  | 23 => ⟨S1x3200000, .i32⟩
  | 24 => ⟨S3200000, .i32⟩
  | 25 => ⟨S1x3200000, .i32⟩
  | 26 => ⟨S3200000, .i32⟩
  | 27 => ⟨S100000x64, .f32⟩
  | 28 => ⟨S100000, .i32⟩
  | 29 => ⟨S3300000, .i32⟩
  | 30 => ⟨S3300000, .i32⟩
  | 31 => ⟨S_, .f32⟩
  | 32 => ⟨S3300000, .f32⟩
  | 33 => ⟨S_, .f32⟩
  | 34 => ⟨S100000, .f32⟩
  | 35 => ⟨S3300000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000x64, .f32⟩
  | 73 => ⟨S3300000x1, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000, .i32⟩
  | 88 => ⟨S3300000, .i32⟩
  | 89 => ⟨S3300000, .i32⟩
  | 90 => ⟨S_, .f32⟩
  | 91 => ⟨S3300000, .f32⟩
  | 92 => ⟨S_, .f32⟩
  | 93 => ⟨S100000, .f32⟩
  | 94 => ⟨S3300000x1, .i32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000, .f32⟩
  | 122 => ⟨S3300000, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x8, .f32⟩

abbrev hbmTy0_1 (i : Nat) : BufTy := match i % 128 with
  | 0 => ⟨S3300000, .i32⟩
  | 1 => ⟨S3300000, .i32⟩
  | 2 => ⟨S3300000x1, .i32⟩
  | 3 => ⟨S3300000x64, .f32⟩
  | 4 => ⟨S3300000x1, .f32⟩
  | 5 => ⟨S3300000x64, .f32⟩
  | 6 => ⟨S3300000x64, .f32⟩
  | 7 => ⟨S_, .f32⟩
  | 8 => ⟨S100000x64, .f32⟩
  | 9 => ⟨S3300000x1, .i32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S100000, .i32⟩
  | 19 => ⟨S3300000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S256x64, .f32⟩
  | 75 => ⟨S100000x1, .i32⟩
  | 76 => ⟨S256x64, .f32⟩
  | 77 => ⟨S_, .f32⟩
  | 78 => ⟨S100000, .f32⟩
  | 79 => ⟨S_, .f32⟩
  | 80 => ⟨S256, .f32⟩
  | 81 => ⟨S100000x1, .i32⟩
  | 82 => ⟨S256, .f32⟩
  | 83 => ⟨S_, .f32⟩
  | 84 => ⟨S256, .f32⟩
  | 85 => ⟨S256, .f32⟩
  | 86 => ⟨S256x1, .f32⟩
  | 87 => ⟨S256x64, .f32⟩
  | 88 => ⟨S256x64, .f32⟩
  | 89 => ⟨S256x64, .f32⟩
  | 90 => ⟨S1x64, .f32⟩
  | 91 => ⟨S256x64, .f32⟩
  | 92 => ⟨S256x64, .f32⟩
  | 93 => ⟨S_, .f32⟩
  | 94 => ⟨S256x64, .f32⟩
  | 95 => ⟨S256x64, .f32⟩
  | 96 => ⟨S256x32, .f32⟩
  | 97 => ⟨S1x32, .f32⟩
  | 98 => ⟨S256x32, .f32⟩
  | 99 => ⟨S256x32, .f32⟩
  | 100 => ⟨S_, .f32⟩
  | 101 => ⟨S256x32, .f32⟩
  | 102 => ⟨S256x32, .f32⟩
  | 103 => ⟨S256x1, .f32⟩
  | 104 => ⟨S1x1, .f32⟩
  | 105 => ⟨S256x1, .f32⟩
  | 106 => ⟨S256x1, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x9, .f32⟩
  | 115 => ⟨S1x9, .f32⟩
  | 116 => ⟨S100000x9, .f32⟩
  | 117 => ⟨S100000x9, .f32⟩
  | 118 => ⟨S100000x32, .f32⟩
  | 119 => ⟨S1x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S100000x1, .f32⟩
  | 126 => ⟨S1x1, .f32⟩
  | 127 => ⟨S100000x1, .f32⟩
  | _ => ⟨S100000x8, .f32⟩

abbrev hbmTy0_2 (i : Nat) : BufTy := match i % 128 with
  | 0 => ⟨S100000x1, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call1_cst : Ref sig .tc := ⟨.hbm, 83, rfl⟩
abbrev main_call1_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_v52 : Ref sig .tc := ⟨.hbm, 91, rfl⟩
abbrev main_cst_10 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_11 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_12 : Ref sig .tc := ⟨.hbm, 100, rfl⟩
abbrev main_call2_v0 : Ref sig .tc := ⟨.hbm, 101, rfl⟩
abbrev main_call2_v1 : Ref sig .tc := ⟨.hbm, 102, rfl⟩
abbrev main_v59 : Ref sig .tc := ⟨.hbm, 103, rfl⟩
abbrev main_c_13 : Ref sig .tc := ⟨.hbm, 104, rfl⟩
abbrev main_v60 : Ref sig .tc := ⟨.hbm, 105, rfl⟩
abbrev main_v61 : Ref sig .tc := ⟨.hbm, 106, rfl⟩
abbrev main_c_14 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_15 : Ref sig .tc := ⟨.hbm, 113, rfl⟩
abbrev main_v67 : Ref sig .tc := ⟨.hbm, 114, rfl⟩
abbrev main_v68 : Ref sig .tc := ⟨.hbm, 115, rfl⟩
abbrev main_c_16 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_17 : Ref sig .tc := ⟨.hbm, 123, rfl⟩
abbrev main_v75 : Ref sig .tc := ⟨.hbm, 124, rfl⟩
abbrev main_v76 : Ref sig .tc := ⟨.hbm, 125, rfl⟩
abbrev main_c_18 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_19 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_call3_cst : Ref sig .tc := ⟨.hbm, 142, rfl⟩
abbrev main_call3_v0 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_20 : Ref sig .tc := ⟨.hbm, 149, rfl⟩
abbrev main_v96 : Ref sig .tc := ⟨.hbm, 150, rfl⟩
abbrev main_cst_21 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_22 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v103 : Ref sig .tc := ⟨.hbm, 162, rfl⟩
abbrev main_c_24 : Ref sig .tc := ⟨.hbm, 163, rfl⟩
abbrev main_v104 : Ref sig .tc := ⟨.hbm, 164, rfl⟩
abbrev main_v105 : Ref sig .tc := ⟨.hbm, 165, rfl⟩
abbrev main_c_25 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_c_26 : Ref sig .tc := ⟨.hbm, 172, rfl⟩
abbrev main_v111 : Ref sig .tc := ⟨.hbm, 173, rfl⟩
abbrev main_v112 : Ref sig .tc := ⟨.hbm, 174, rfl⟩
abbrev main_c_27 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_28 : Ref sig .tc := ⟨.hbm, 182, rfl⟩
abbrev main_v119 : Ref sig .tc := ⟨.hbm, 183, rfl⟩
abbrev main_v120 : Ref sig .tc := ⟨.hbm, 184, rfl⟩
abbrev main_c_29 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_30 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_cst_31 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_cst_32 : Ref sig .tc := ⟨.hbm, 205, rfl⟩
abbrev main_v138 : Ref sig .tc := ⟨.hbm, 206, rfl⟩
abbrev main_cst_33 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_34 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_call5_cst : Ref sig .tc := ⟨.hbm, 221, rfl⟩
abbrev main_call5_v0 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_call6_cst : Ref sig .tc := ⟨.hbm, 228, rfl⟩
abbrev main_call6_v0 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_call7_cst : Ref sig .tc := ⟨.hbm, 239, rfl⟩
abbrev main_call7_v0 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_call8_cst : Ref sig .tc := ⟨.hbm, 250, rfl⟩
abbrev main_call8_v0 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x1_S100000x1_0_1 : S1x1.BroadcastsInDim S100000x1 (![0, 1] : Fin 2 → Fin S100000x1.rank)
  dot_S100000x8_S8x64_S100000x64_1_0_0_1_n_n_wf : DotDims.WF S100000x8 S8x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  dot_S100000x64_S64x9_S100000x9_1_0_0_1_n_n_wf : DotDims.WF S100000x64 S64x9 S100000x9 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf
def dot_S100000x64_S64x9_S100000x9_1_0_0_1_n_n : DotDims S100000x64 S64x9 S100000x9 where
  lhsContracting := [1]
  rhsContracting := [0]
  lhsNonContracting := [0]
  rhsNonContracting := [1]
  lhsBatch := []
  rhsBatch := []
  wf := dot_S100000x64_S64x9_S100000x9_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.PoolMath.lean ====
/- Pooling over graphs on the extended reals: the pooled sums and counts of a node table, and the regrouping of
   the sums a tile-by-tile one-hot product accumulates into sums over the nodes of each graph. -/
import Idealize.ShloMosaic.Lib.ValueIdx

noncomputable section

open scoped BigOperators

namespace Cert.Gnn

open Idealize.ShloMosaic Idealize.ShloMosaic.ValueIdx

/-- Pooled sums: entry (g, j) adds, to zero, the table's column j over the nodes whose graph number is g. -/
def poolSumF (batch : Fin 100000 → BitVec 32) (e : (⟨2, ![100000, 64]⟩ : Shape).Idx → EReal) :
    (⟨2, ![256, 64]⟩ : Shape).Idx → EReal :=
  fun i => (0 : EReal) + ∑ n ∈ Finset.univ.filter (fun n : Fin 100000 => (batch n).toInt = ((i 0).val : ℤ)), e (ix2 n (i 1))

/-- Pooled counts: entry g adds, to zero, a one for every node whose graph number is g. -/
def poolCntF (batch : Fin 100000 → BitVec 32) : Fin 256 → EReal :=
  fun g => (0 : EReal) + ∑ _n ∈ Finset.univ.filter (fun n : Fin 100000 => (batch n).toInt = (g.val : ℤ)), (1 : EReal)

/-- A one-hot entry: one where the node's graph number is g, else zero. -/
def hot (b : BitVec 32) (g : Fin 256) : EReal := if b.toInt = (g.val : ℤ) then 1 else 0

/-- Row r of tile t is node 5000 t + r. -/
def nodeOf (t : Fin 20) (r : Fin 5000) : Fin 100000 := ⟨5000 * t.val + r.val, by have := t.isLt; have := r.isLt; omega⟩

/-- The accumulator after tile n: reset to z before the first tile, each tile's partial added in turn. -/
def tileAcc (z : EReal) (P : Fin 20 → EReal) : (n : ℕ) → n < 20 → EReal
  | 0, h => z + P ⟨0, h⟩
  | n + 1, h => tileAcc z P n (Nat.lt_of_succ_lt h) + P ⟨n + 1, h⟩

/-- The tile partials read as a sequence on the naturals, zero past the last tile. -/
def tileSeq (P : Fin 20 → EReal) (k : ℕ) : EReal := if h : k < 20 then P ⟨k, h⟩ else 0

/-- After tile n the accumulator holds the reset value plus the partials of tiles 0 to n. -/
theorem tileAcc_eq_range (z : EReal) (P : Fin 20 → EReal) :
    ∀ (n : ℕ) (h : n < 20), tileAcc z P n h = z + ∑ k ∈ Finset.range (n + 1), tileSeq P k := by
  intro n
  induction n with
  | zero =>
    intro h
    simp [tileAcc, tileSeq]
  | succ n ih =>
    intro h
    have hn : n < 20 := Nat.lt_of_succ_lt h
    have hlast : tileSeq P (n + 1) = P ⟨n + 1, h⟩ := by simp [tileSeq, h]
    rw [tileAcc, ih hn, Finset.sum_range_succ (tileSeq P) (n + 1), hlast, add_assoc]

theorem tileAcc_last (z : EReal) (P : Fin 20 → EReal) : tileAcc z P 19 (by decide) = z + ∑ t : Fin 20, P t := by
  have hsum : ∑ k ∈ Finset.range (19 + 1), tileSeq P k = ∑ t : Fin 20, P t := by
    rw [← Fin.sum_univ_eq_sum_range (tileSeq P) 20]
    apply Finset.sum_congr rfl
    intro t _
    simp [tileSeq, t.isLt]
  rw [tileAcc_eq_range z P 19 (by decide), hsum]

/-- Tile t, row r ↦ node 5000 t + r is a bijection from the 20 × 5000 grid onto the 100000 nodes: its inverse
    sends n to (n / 5000, n % 5000). -/
def tileEquiv : Fin 20 × Fin 5000 ≃ Fin 100000 where
  toFun p := nodeOf p.1 p.2
  invFun n := (⟨n.val / 5000, by have := n.isLt; omega⟩, ⟨n.val % 5000, by omega⟩)
  left_inv p := by
    obtain ⟨t, r⟩ := p
    have ht := t.isLt
    have hr := r.isLt
    apply Prod.ext
    · apply Fin.ext
      show (5000 * t.val + r.val) / 5000 = t.val
      omega
    · apply Fin.ext
      show (5000 * t.val + r.val) % 5000 = r.val
      omega
  right_inv n := by
    apply Fin.ext
    show 5000 * (n.val / 5000) + n.val % 5000 = n.val
    omega

/-- A sum over tiles of sums over rows is the sum over all nodes. -/
theorem sum_tiles (f : Fin 100000 → EReal) :
    ∑ t : Fin 20, ∑ r : Fin 5000, f (nodeOf t r) = ∑ n : Fin 100000, f n := by
  rw [← Fintype.sum_prod_type' (fun t r => f (nodeOf t r))]
  exact Equiv.sum_comp tileEquiv f

theorem pool_sum_eq (batch : Fin 100000 → BitVec 32) (e : (⟨2, ![100000, 64]⟩ : Shape).Idx → EReal)
    (i : (⟨2, ![256, 64]⟩ : Shape).Idx) :
    (0 : EReal) + ∑ t : Fin 20, ∑ r : Fin 5000, hot (batch (nodeOf t r)) (i 0) * e (ix2 (nodeOf t r) (i 1))
      = poolSumF batch e i := by
  have key : ∀ n : Fin 100000, hot (batch n) (i 0) * e (ix2 n (i 1))
      = if (batch n).toInt = ((i 0).val : ℤ) then e (ix2 n (i 1)) else 0 := by
    intro n
    unfold hot
    split_ifs with hc
    · rw [one_mul]
    · rw [zero_mul]
  rw [sum_tiles (fun n => hot (batch n) (i 0) * e (ix2 n (i 1))), Finset.sum_congr rfl (fun n _ => key n)]
  unfold poolSumF
  rw [Finset.sum_filter]

theorem pool_cnt_eq (batch : Fin 100000 → BitVec 32) (g : Fin 256) :
    (0 : EReal) + ∑ t : Fin 20, ∑ r : Fin 5000, hot (batch (nodeOf t r)) g = poolCntF batch g := by
  rw [sum_tiles (fun n => hot (batch n) g)]
  unfold poolCntF hot
  rw [Finset.sum_filter]

end Cert.Gnn

end
-- ==== Proof.Spec.lean ====
/-
  The network both programs compute, stated once.

  A graph of 100000 nodes and 3200000 directed edges (plus one self-loop per node: 3300000 messages). Three graph
  convolutions follow one another: a node's features are multiplied by a weight matrix, every message carries its
  source node's row scaled by dinv[source] * dinv[destination] (dinv the inverse square root of the destination
  count, zero where the count is not positive), and the messages are summed at their destinations; a bias and, after
  the first two layers, a rectifier follow. Two per-node heads (a hidden layer of rectified units, then an affine map)
  read the final embedding, and a per-graph head reads its segment means over 256 graphs.

  The parts that the two programs spell with the SAME host operations are kept as opaque terms of those operations
  (the message indices, the message weights, one round of message passing, the per-graph head after the pooled sums);
  the parts they spell differently (the dense products, the pooled sums and counts) are stated index by index on the
  extended reals.
-/
import proofs.«405259_j86088324481462_1_alg».proof.KernelIdeal
import proofs.«405259_j86088324481462_1_alg».proof.Proof.LibSageSpec
import proofs.«405259_j86088324481462_1_alg».proof.Proof.PoolMath
import Idealize.ShloMosaic.PureOps.Ideal
import Idealize.ShloMosaic.Lib.ValueIdx

noncomputable section

open scoped BigOperators

namespace Cert.Gnn

open Idealize.ShloMosaic Idealize.ShloMosaic.ValueIdx Idealize.ShloMosaic.SageSpec
open Cert.KernelIdeal

/-! ## The shared host chains, as the operations spell them (any float instance) -/

section Chains
variable {F : FTy → Type} [FloatOps F] [Facts₀]
open Facts₀

/-- Message sources: row 0 of the edge list, then every node once (the self-loops). -/
def srcIdx (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- Message destinations: row 1 of the edge list, then every node once. -/
def dstIdx (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A negative index counts from the end: the index column a gather reads. -/
def wrapCol (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- dinv: the inverse square root of the number of messages arriving at a node, zero where that number is not positive. -/
def dinvOf (d : IVec S3300000 32) : FVec F S100000 .f32 :=
  select
    (cmpf .ogt
      (Host.scatterAdd (F := F) scatter_S100000_S3300000x1_S3300000_n_0_0_1
        (broadcastInDim S100000 ![] bcast_S_S100000 (constant (F := F) S_ .f32 0x00000000#32))
        (broadcastInDim S3300000x1 ![0] bcast_S3300000_S3300000x1_0 d)
        (broadcastInDim S3300000 ![] bcast_S_S3300000 (constant (F := F) S_ .f32 0x3F800000#32)))
      (broadcastInDim S100000 ![] bcast_S_S100000 (constant (F := F) S_ .f32 0x00000000#32)))
    (Host.rsqrt (F := F)
      (Host.scatterAdd (F := F) scatter_S100000_S3300000x1_S3300000_n_0_0_1
        (broadcastInDim S100000 ![] bcast_S_S100000 (constant (F := F) S_ .f32 0x00000000#32))
        (broadcastInDim S3300000x1 ![0] bcast_S3300000_S3300000x1_0 d)
        (broadcastInDim S3300000 ![] bcast_S_S3300000 (constant (F := F) S_ .f32 0x3F800000#32))))
    (broadcastInDim S100000 ![] bcast_S_S100000 (id (constant (F := F) S_ .f32 0x00000000#32)))

/-- A message's weight: dinv at its source times dinv at its destination. -/
def normOf (s d : IVec S3300000 32) : FVec F S3300000 .f32 :=
  mulf (Host.gather gather_S100000_S3300000x1_S3300000_n_0_n_n_0_1_1 (dinvOf (F := F) d) (wrapCol s))
    (Host.gather gather_S100000_S3300000x1_S3300000_n_0_n_n_0_1_1 (dinvOf (F := F) d) (wrapCol d))

/-- One round of message passing over the node table `p`: gather the source rows, scale, sum at the destinations. -/
def aggOf (s d : IVec S3300000 32) (nrm : FVec F S3300000 .f32) (p : FVec F S100000x64 .f32) : FVec F S100000x64 .f32 :=
  Host.scatterAdd (F := F) scatter_S100000x64_S3300000x1_S3300000x64_1_0_0_1
    (broadcastInDim S100000x64 ![] bcast_S_S100000x64 (constant (F := F) S_ .f32 0x00000000#32))
    (broadcastInDim S3300000x1 ![0] bcast_S3300000_S3300000x1_0 d)
    (mulf (Host.gather gather_S100000x64_S3300000x1_S3300000x64_1_0_n_n_0_1_164 p (wrapCol s))
      (broadcastInDim S3300000x64 ![0, 1] bcast_S3300000x1_S3300000x64_0_1
        (broadcastInDim S3300000x1 ![0] bcast_S3300000_S3300000x1_0 nrm)))

/-- The per-graph head after pooling: segment means (sums over counts, the counts at least one), a rectified layer,
    another, and an affine map to one number per graph. -/
def tailOf (sums : FVec F S256x64 .f32) (cnts : FVec F S256 .f32) (Wg : FVec F S64x64 .f32) (bg : FVec F S64 .f32)
    (Wh1 : FVec F S64x32 .f32) (bh1 : FVec F S32 .f32) (Wh2 : FVec F S32x1 .f32) (bh2 : FVec F S1 .f32) : FVec F S256x1 .f32 :=
  addf
    (Host.dotGeneral (F := F) dot_S256x32_S32x1_S256x1_1_0_0_1_n_n none
      (maximumf
        (addf
          (Host.dotGeneral (F := F) dot_S256x64_S64x32_S256x32_1_0_0_1_n_n none
            (maximumf
              (addf
                (Host.dotGeneral (F := F) dot_S256x64_S64x64_S256x64_1_0_0_1_n_n none
                  (Host.divf (F := F) sums
                    (broadcastInDim S256x64 ![0, 1] bcast_S256x1_S256x64_0_1
                      (broadcastInDim S256x1 ![0] bcast_S256_S256x1_0
                        (maximumf cnts (broadcastInDim S256 ![] bcast_S_S256 (constant (F := F) S_ .f32 0x3F800000#32))))))
                  Wg)
                (broadcastInDim S256x64 ![0, 1] bcast_S1x64_S256x64_0_1 (broadcastInDim S1x64 ![1] bcast_S64_S1x64_1 bg)))
              (broadcastInDim S256x64 ![] bcast_S_S256x64 (constant (F := F) S_ .f32 0x00000000#32)))
            Wh1)
          (broadcastInDim S256x32 ![0, 1] bcast_S1x32_S256x32_0_1 (broadcastInDim S1x32 ![1] bcast_S32_S1x32_1 bh1)))
        (broadcastInDim S256x32 ![] bcast_S_S256x32 (constant (F := F) S_ .f32 0x00000000#32)))
      Wh2)
    (broadcastInDim S256x1 ![0, 1] bcast_S1x1_S256x1_0_1 (broadcastInDim S1x1 ![1] bcast_S1_S1x1_1 bh2))

end Chains

/-! ## The dense parts, index by index on the extended reals -/

/-- The input projection: row `i` of the features against column `j` of the first weight matrix. -/
def projF (x : Mat 100000 8) (w : Mat 8 64) : Mat 100000 64 := fun i => rowDot x w (i 0) (i 1)

/-- Bias, rectifier, next layer's product: entry (i, j) is the sum over k of max(a[i,k] + b[k], 0) · W[k,j]. -/
def layerF {n k m : Nat} (a : Mat n k) (b : Fin k → EReal) (w : Mat k m) : Mat n m :=
  fun i => rowDot (fun u => max (a u + b (u 1)) 0) w (i 0) (i 1)

/-- The final embedding: the last aggregation plus its bias. -/
def embF {n k : Nat} (a : Mat n k) (b : Fin k → EReal) : Mat n k := fun u => a u + b (u 1)

/-- A head's hidden layer: rectified affine units. -/
def hidF {n k h : Nat} (e : Mat n k) (wa : Mat k h) (ba : Fin h → EReal) : Mat n h :=
  fun u => max (rowDot e wa (u 0) (u 1) + ba (u 1)) 0

/-- A head: a rectified hidden layer and an affine output layer. -/
def headF {n k h o : Nat} (e : Mat n k) (wa : Mat k h) (ba : Fin h → EReal) (wb : Mat h o) (bb : Fin o → EReal) : Mat n o :=
  fun i => rowDot (hidF e wa ba) wb (i 0) (i 1) + bb (i 1)

/-! ## The whole network -/

section Whole
variable [Facts₀]

/-- A rank-1 array read by its one coordinate. -/
abbrev vec {n : Nat} (b : (⟨1, ![n]⟩ : Shape).Idx → EReal) : Fin n → EReal := fun k => b (ix1 k)

/-- The node embedding after the three convolutions (the last one without rectifier). -/
def embOf (x : Mat 100000 8) (ei : IVec S2x3200000 32) (w1 : Mat 8 64) (b1 : Fin 64 → EReal) (w2 : Mat 64 64)
    (b2 : Fin 64 → EReal) (w3 : Mat 64 64) (b3 : Fin 64 → EReal) : Mat 100000 64 :=
  embF (aggOf (F := Ideal) (srcIdx ei) (dstIdx ei) (normOf (F := Ideal) (srcIdx ei) (dstIdx ei))
    (layerF (aggOf (F := Ideal) (srcIdx ei) (dstIdx ei) (normOf (F := Ideal) (srcIdx ei) (dstIdx ei))
      (layerF (aggOf (F := Ideal) (srcIdx ei) (dstIdx ei) (normOf (F := Ideal) (srcIdx ei) (dstIdx ei)) (projF x w1)) b1 w2))
      b2 w3)) b3

/-- The per-graph result: the head after the pooled sums and counts of the embedding. -/
def heurOf (e : Mat 100000 64) (batch : Fin 100000 → BitVec 32) (wg : FVec Ideal S64x64 .f32) (bg : FVec Ideal S64 .f32)
    (wh1 : FVec Ideal S64x32 .f32) (bh1 : FVec Ideal S32 .f32) (wh2 : FVec Ideal S32x1 .f32) (bh2 : FVec Ideal S1 .f32) :
    FVec Ideal S256x1 .f32 :=
  tailOf (F := Ideal) (poolSumF batch e) (fun i => poolCntF batch (i 0)) wg bg wh1 bh1 wh2 bh2

end Whole

end Cert.Gnn

end
-- ==== Proof.KReg0.lean ====
/- The input projection, region by region: what the first pallas_call leaves in its result array. -/
import proofs.«405259_j86088324481462_1_alg».proof.Proof.Gen.KernelIdeal.Frame
import proofs.«405259_j86088324481462_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Reg0
open Cert.KernelIdeal Cert.KernelIdeal.Gen

/-! ## The product's dimension numbers: rows of the left operand against columns of the right -/

theorem dotL0 (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
theorem dotL1 (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
theorem dotR0 (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
theorem dotR1 (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- One contracted axis of extent 8; the left operand is read at (row, κ), the right at (κ, column). -/
theorem plainDot0 : PlainDot dot_S5000x8_S8x64_S5000x64_1_0_0_1_n_n :=
  ⟨rfl, fun _ => rfl, dotL0, fun i q _ => dotL1 i q, fun i q _ => dotR0 i q, dotR1⟩

/-! ## The body at one grid point, over any two blocks -/

/-- The body's product at (p, q): row p of the first block against column q of the second (a change of float
    format is the identity on the extended reals, and the accumulator starts at zero). -/
theorem pay_at (x0 : Vec Ideal S5000x8 .f32) (x1 : Vec Ideal S8x64 .f32) (j : S5000x64.Idx) :
    k0_pay1 x0 x1 j = rowDot x0 x1 (j 0) (j 1) := by
  unfold k0_pay1
  exact matmul_zero_at plainDot0 none _ _ j

theorem zero2 : (![0, 0] : Fin 2 → Nat) = fun _ => 0 := funext fun a => by fin_cases a <;> rfl

/-- What the body leaves in the result window's buffer, at (p, q). -/
theorem out_at (x0 : Vec Ideal S5000x8 .f32) (x1 : Vec Ideal S8x64 .f32) (j : S5000x64.Idx) :
    out0_2 x0 x1 j = rowDot x0 x1 (j 0) (j 1) := by
  unfold out0_2
  rw [View.canon_unit_zero zero2]
  simp only [View.ld_unit_zero (S := S5000x8) zero2, View.ld_unit_zero (S := S8x64) zero2]
  exact pay_at x0 x1 j

/-- Two row-by-column sums agree when the row and the column read agree entry by entry. -/
theorem rowDot_congr {n n' k m m' : Nat} (x : Mat n k) (w : Mat k m) (x' : Mat n' k) (w' : Mat k m')
    (p : Fin n) (q : Fin m) (p' : Fin n') (q' : Fin m')
    (hx : ∀ κ : Fin k, x (ix2 p κ) = x' (ix2 p' κ)) (hw : ∀ κ : Fin k, w (ix2 κ q) = w' (ix2 κ q')) :
    rowDot x w p q = rowDot x' w' p' q' := by
  unfold rowDot
  exact Finset.sum_congr rfl fun κ _ => by rw [hx, hw]

/-! ## The windows' index maps over the grid -/

/-- The feature window and the result window move down the rows with the grid point; the weight window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-! ## The blocks the body reads, as reads of the entry arrays -/

/-- Row p of the feature window's block at point t is the row of the features that row p of the result window's
    block at t lands on. -/
theorem feat_at (c : Dev nD) (t : Fin cfg0.N) (j : S5000x64.Idx) (κ : Fin 8) :
    iblk0 V c 0 t (ix2 (j 0) κ) = V c main_arg0 (ix2 ((((cfg0.win 2).blk t).view.emb j) 0) κ) := by
  obtain ⟨e0, e1, e2, e3, e4, e5⟩ := idx_facts t
  show V c main_arg0 (((cfg0.win 0).blk t).view.emb (ix2 (j 0) κ)) = _
  refine congrArg (V c main_arg0) ?_
  funext a; apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 8 + 1 * κ.val = κ.val; omega

/-- The weight window's block is the whole weight matrix, at every point; column q of the result window's block is
    column q of the result array. -/
theorem weight_at (c : Dev nD) (t : Fin cfg0.N) (j : S5000x64.Idx) (κ : Fin 8) :
    iblk0 V c 1 t (ix2 κ (j 1)) = V c main_arg3 (ix2 κ ((((cfg0.win 2).blk t).view.emb j) 1)) := by
  obtain ⟨e0, e1, e2, e3, e4, e5⟩ := idx_facts t
  show V c main_arg3 (((cfg0.win 1).blk t).view.emb (ix2 κ (j 1))) = _
  refine congrArg (V c main_arg3) ?_
  funext a; apply Fin.ext
  match a with
  | ⟨0, _⟩ => show win0_1.index t (0 : Fin 2) * 8 + 1 * κ.val = κ.val; omega
  | ⟨1, _⟩ => show win0_1.index t (1 : Fin 2) * 64 + 1 * (j 1).val = win0_2.index t (1 : Fin 2) * 64 + 1 * (j 1).val; omega

/-! ## From the blocks to the array -/

/-- What point t writes back is block t of the projection of the entry arrays. -/
theorem flushed_eq (c : Dev nD) (t : Fin cfg0.N) :
    (dat0 (F := Ideal) V c).flushed 2 t
      = ((cfg0.win 2).blk t).view.read (Elt Ideal) (projF (V c main_arg0) (V c main_arg3)) := by
  show (cfg0.win 2).cut (grid0.coords t) ((dat0 V c).after 2 t) = _
  rw [after0_2]
  funext j
  show out0_2 (iblk0 V c 0 t) (iblk0 V c 1 t) j
    = rowDot (V c main_arg0) (V c main_arg3) ((((cfg0.win 2).blk t).view.emb j) 0) ((((cfg0.win 2).blk t).view.emb j) 1)
  rw [out_at]
  exact rowDot_congr _ _ _ _ _ _ _ _ (feat_at V c t j) (weight_at V c t j)

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row r of the result array is written back by point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The result array of the first call is the features times the first weight matrix, row by column. -/
theorem arr0 (c : Dev nD) : (dat0 (F := Ideal) V c).arrAt 2 cfg0.N = projF (V c main_arg0) (V c main_arg3) :=
  (dat0 (F := Ideal) V c).arrAt_eq_of_cover 2 (projF (V c main_arg0) (V c main_arg3)) (fun t _ => flushed_eq V c t) cover

end Cert.KernelIdeal.Reg0

end
-- ==== Proof.KReg1.lean ====
/- Bias, rectifier and the next layer's product: what the second pallas_call leaves in its result array. -/
import proofs.«405259_j86088324481462_1_alg».proof.Proof.Gen.KernelIdeal.Frame
import proofs.«405259_j86088324481462_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Reg1
open Cert.KernelIdeal Cert.KernelIdeal.Gen
variable (V : (c : Dev nD) → (b : Ref sig .tc) → Buf (Elt Ideal) ((c : Thread nD τ).loc b))

/-- Zero offsets, however they are spelt. -/
theorem hz : (![0, 0] : Fin 2 → Nat) = fun _ => 0 := funext fun a => by fin_cases a <;> rfl

/-! ## The product's dimension numbers: rows by columns -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's product contracts axis 1 of its left operand with axis 0 of its right operand. -/
theorem plain : PlainDot dot_S5000x64_S64x64_S5000x64_1_0_0_1_n_n where
  rank := rfl
  size := fun _ => rfl
  l0 := lhs_0
  l1 := fun i q _ => lhs_1 i q
  r0 := fun i q _ => rhs_0 i q
  r1 := rhs_1

/-! ## The body's arithmetic at an index -/

/-- The body's result at row `p`, column `q` of its block: the rectified sum of the row block and the bias row,
    against column `q` of the weights. -/
theorem pay_at (x0 : Vec Ideal S5000x64 .f32) (x1 : Vec Ideal S1x64 .f32) (x2 : Vec Ideal S64x64 .f32) (p : Fin 5000) (q : Fin 64) :
    k1_pay1 x0 x1 x2 (ix2 p q) = ∑ k : Fin 64, max (x0 (ix2 p k) + x1 (ix2 (0 : Fin 1) k)) 0 * x2 (ix2 k q) := by
  unfold k1_pay1
  refine (matmul_zero_at plain none _ _ (ix2 p q)).trans ?_
  show rowDot (n := 5000) (k := 64) (m := 64) (fun u => max (shapeCast S5000x64 x0 shapeCasts_S5000x64_S5000x64 u + broadcastTo S5000x64 (shapeCast S1x64 x1 shapeCasts_S1x64_S1x64) broadcasts_S1x64_S5000x64 u) (Ideal.ofBits .f32 0x00000000#32)) (fun u => x2 u) p q = _
  rw [shapeCast_self, shapeCast_self, Ideal.ofBits_zero_f32]
  unfold rowDot
  refine Finset.sum_congr rfl fun k _ => ?_
  beta_reduce
  rw [broadcastTo_1b_ab_apply]

/-! ## One point of the grid: rows `5000 t … 5000 t + 4999` of the layer -/

/-- If a row block holds row `r` of `a` at its row `p`, and the bias row and the weights are read whole, the body's
    result at `(p, q)` is the layer at `(r, q)`. -/
theorem layer_rows (a : Mat 100000 64) (b : Mat 1 64) (w : Mat 64 64)
    (x0 : Vec Ideal S5000x64 .f32) (x1 : Vec Ideal S1x64 .f32) (x2 : Vec Ideal S64x64 .f32)
    (p : Fin 5000) (q : Fin 64) (r : Fin 100000)
    (h0 : ∀ k : Fin 64, x0 (ix2 p k) = a (ix2 r k)) (h1 : ∀ u, x1 u = b u) (h2 : ∀ u, x2 u = w u) :
    k1_pay1 x0 x1 x2 (ix2 p q) = layerF a (fun k => b (ix2 (0 : Fin 1) k)) w (ix2 r q) := by
  rw [pay_at]
  show _ = ∑ k : Fin 64, max (a (ix2 r k) + b (ix2 (0 : Fin 1) k)) 0 * w (ix2 k q)
  refine Finset.sum_congr rfl fun k _ => ?_
  rw [h0, h1, h2]

/-! ## The windows' index maps over the grid -/

/-- Decided over the twenty points: the row block and the result move with the point, the bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N (t : Fin cfg1.N) : t.val < 20 := lt_of_lt_of_eq t.isLt (N_1 : cfg1.N = 20)

/-! ## The input blocks as parts of their arrays -/

/-- Row `p` of the row block at point `t` is row `5000 t + p` of the array. -/
theorem blk0_at (c : Dev nD) (t : Fin cfg1.N) (p : Fin 5000) (k : Fin 64) (r : Fin 100000) (hr : r.val = t.val * 5000 + p.val) :
    (iblk1 V c 0 t : Vec Ideal S5000x64 .f32) (ix2 p k) = (V c main_v44 : Mat 100000 64) (ix2 r k) := by
  obtain ⟨e0, e1, -⟩ := idx_facts t
  show V c main_v44 (((cfg1.win 0).blk t).view.emb (ix2 p k)) = V c main_v44 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The bias row's block is the whole row. -/
theorem blk1_at (c : Dev nD) (t : Fin cfg1.N) (u : S1x64.Idx) :
    (iblk1 V c 1 t : Vec Ideal S1x64 .f32) u = (V c main_v45 : Mat 1 64) u := by
  obtain ⟨-, -, e0, e1, -⟩ := idx_facts t
  show V c main_v45 (((cfg1.win 1).blk t).view.emb u) = V c main_v45 u
  refine congrArg _ (funext fun a => Fin.ext ?_)
  match a with
  | ⟨0, _⟩ => show win1_1.index t (0 : Fin 2) * 1 + 1 * (u 0).val = (u 0).val; omega
  | ⟨1, _⟩ => show win1_1.index t (1 : Fin 2) * 64 + 1 * (u 1).val = (u 1).val; omega

/-- The weights' block is the whole matrix. -/
theorem blk2_at (c : Dev nD) (t : Fin cfg1.N) (u : S64x64.Idx) :
    (iblk1 V c 2 t : Vec Ideal S64x64 .f32) u = (V c main_arg5 : Mat 64 64) u := by
  obtain ⟨-, -, -, -, e0, e1, -⟩ := idx_facts t
  show V c main_arg5 (((cfg1.win 2).blk t).view.emb u) = V c main_arg5 u
  refine congrArg _ (funext fun a => Fin.ext ?_)
  match a with
  | ⟨0, _⟩ => show win1_2.index t (0 : Fin 2) * 64 + 1 * (u 0).val = (u 0).val; omega
  | ⟨1, _⟩ => show win1_2.index t (1 : Fin 2) * 64 + 1 * (u 1).val = (u 1).val; omega

/-! ## What a point writes back, and the whole array -/

/-- Point `t` writes back rows `5000 t … 5000 t + 4999` of the layer. -/
theorem flushed_eq (c : Dev nD) (t : Fin cfg1.N) :
    (dat1 (F := Ideal) V c).flushed 3 t
      = ((cfg1.win 3).blk t).view.read (Elt Ideal) (layerF (V c main_v44) (fun k => V c main_v45 (ix2 (0 : Fin 1) k)) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  obtain ⟨-, -, -, -, -, -, e0, e1⟩ := idx_facts t
  have ht := lt_N t
  funext j
  obtain ⟨p, q, rfl⟩ : ∃ (p : Fin 5000) (q : Fin 64), j = ix2 p q := ⟨j 0, j 1, eq_ix2 j⟩
  have hemb : ((cfg1.win 3).blk t).view.emb (ix2 p q) = ix2 (⟨t.val * 5000 + p.val, by have := p.isLt; omega⟩ : Fin 100000) q :=
    funext fun a => Fin.ext (by
      match a with
      | ⟨0, _⟩ => show win1_3.index t (0 : Fin 2) * 5000 + 1 * p.val = t.val * 5000 + p.val; omega
      | ⟨1, _⟩ => show win1_3.index t (1 : Fin 2) * 64 + 1 * q.val = q.val; omega)
  show k1_pay1 (iblk1 V c 0 t) (iblk1 V c 1 t) (iblk1 V c 2 t) (ix2 p q)
    = layerF (V c main_v44) (fun k => V c main_v45 (ix2 (0 : Fin 1) k)) (V c main_arg5) (((cfg1.win 3).blk t).view.emb (ix2 p q))
  rw [hemb]
  exact layer_rows (V c main_v44) (V c main_v45) (V c main_arg5) (iblk1 V c 0 t) (iblk1 V c 1 t) (iblk1 V c 2 t) p q _
    (fun k => blk0_at V c t p k _ rfl) (blk1_at V c t) (blk2_at V c t)

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v46).slice (win1_3.rect t)).set ↔ _
  rw [View.set_slice_whole, Rect.mem_set_unit]
  exact Iff.rfl

/-- Row `r` is written back by point `r / 5000`: the twenty row blocks tile the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the region: the layer of the three arrays the region finds. -/
theorem arr1 (c : Dev nD) : (dat1 (F := Ideal) V c).arrAt 3 cfg1.N
    = layerF (V c main_v44) (fun k => V c main_v45 (ix2 (0 : Fin 1) k)) (V c main_arg5) :=
  (dat1 (F := Ideal) V c).arrAt_eq_of_cover 3 _ (fun t _ => flushed_eq V c t) cover

end Cert.KernelIdeal.Reg1

end
-- ==== Proof.KReg2.lean ====
/- Bias, rectifier and the next layer's product: what the third pallas_call leaves in its result array. -/
import proofs.«405259_j86088324481462_1_alg».proof.Proof.Gen.KernelIdeal.Frame
import proofs.«405259_j86088324481462_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Reg2
open Cert.KernelIdeal Cert.KernelIdeal.Gen
variable (V : (c : Dev nD) → (b : Ref sig .tc) → Buf (Elt Ideal) ((c : Thread nD τ).loc b))

/-- Zero offsets, however they are spelt. -/
theorem hz : (![0, 0] : Fin 2 → Nat) = fun _ => 0 := funext fun a => by fin_cases a <;> rfl

/-! ## The product's dimension numbers: rows by columns -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's product contracts axis 1 of its left operand with axis 0 of its right operand. -/
theorem plain : PlainDot dot_S5000x64_S64x64_S5000x64_1_0_0_1_n_n where
  rank := rfl
  size := fun _ => rfl
  l0 := lhs_0
  l1 := fun i q _ => lhs_1 i q
  r0 := fun i q _ => rhs_0 i q
  r1 := rhs_1

/-! ## The body's arithmetic at an index -/

/-- The body's result at row `p`, column `q` of its block: the rectified sum of the row block and the bias row,
    against column `q` of the weights. -/
theorem pay_at (x0 : Vec Ideal S5000x64 .f32) (x1 : Vec Ideal S1x64 .f32) (x2 : Vec Ideal S64x64 .f32) (p : Fin 5000) (q : Fin 64) :
    k2_pay1 x0 x1 x2 (ix2 p q) = ∑ k : Fin 64, max (x0 (ix2 p k) + x1 (ix2 (0 : Fin 1) k)) 0 * x2 (ix2 k q) := by
  unfold k2_pay1
  refine (matmul_zero_at plain none _ _ (ix2 p q)).trans ?_
  show rowDot (n := 5000) (k := 64) (m := 64) (fun u => max (shapeCast S5000x64 x0 shapeCasts_S5000x64_S5000x64 u + broadcastTo S5000x64 (shapeCast S1x64 x1 shapeCasts_S1x64_S1x64) broadcasts_S1x64_S5000x64 u) (Ideal.ofBits .f32 0x00000000#32)) (fun u => x2 u) p q = _
  rw [shapeCast_self, shapeCast_self, Ideal.ofBits_zero_f32]
  unfold rowDot
  refine Finset.sum_congr rfl fun k _ => ?_
  beta_reduce
  rw [broadcastTo_1b_ab_apply]

/-! ## One point of the grid: rows `5000 t … 5000 t + 4999` of the layer -/

/-- If a row block holds row `r` of `a` at its row `p`, and the bias row and the weights are read whole, the body's
    result at `(p, q)` is the layer at `(r, q)`. -/
theorem layer_rows (a : Mat 100000 64) (b : Mat 1 64) (w : Mat 64 64)
    (x0 : Vec Ideal S5000x64 .f32) (x1 : Vec Ideal S1x64 .f32) (x2 : Vec Ideal S64x64 .f32)
    (p : Fin 5000) (q : Fin 64) (r : Fin 100000)
    (h0 : ∀ k : Fin 64, x0 (ix2 p k) = a (ix2 r k)) (h1 : ∀ u, x1 u = b u) (h2 : ∀ u, x2 u = w u) :
    k2_pay1 x0 x1 x2 (ix2 p q) = layerF a (fun k => b (ix2 (0 : Fin 1) k)) w (ix2 r q) := by
  rw [pay_at]
  show _ = ∑ k : Fin 64, max (a (ix2 r k) + b (ix2 (0 : Fin 1) k)) 0 * w (ix2 k q)
  refine Finset.sum_congr rfl fun k _ => ?_
  rw [h0, h1, h2]

/-! ## The windows' index maps over the grid -/

/-- Decided over the twenty points: the row block and the result move with the point, the bias row and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 20 := lt_of_lt_of_eq t.isLt (N_2 : cfg2.N = 20)

/-! ## The input blocks as parts of their arrays -/

/-- Row `p` of the row block at point `t` is row `5000 t + p` of the array. -/
theorem blk0_at (c : Dev nD) (t : Fin cfg2.N) (p : Fin 5000) (k : Fin 64) (r : Fin 100000) (hr : r.val = t.val * 5000 + p.val) :
    (iblk2 V c 0 t : Vec Ideal S5000x64 .f32) (ix2 p k) = (V c main_v59 : Mat 100000 64) (ix2 r k) := by
  obtain ⟨e0, e1, -⟩ := idx_facts t
  show V c main_v59 (((cfg2.win 0).blk t).view.emb (ix2 p k)) = V c main_v59 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The bias row's block is the whole row. -/
theorem blk1_at (c : Dev nD) (t : Fin cfg2.N) (u : S1x64.Idx) :
    (iblk2 V c 1 t : Vec Ideal S1x64 .f32) u = (V c main_v60 : Mat 1 64) u := by
  obtain ⟨-, -, e0, e1, -⟩ := idx_facts t
  show V c main_v60 (((cfg2.win 1).blk t).view.emb u) = V c main_v60 u
  refine congrArg _ (funext fun a => Fin.ext ?_)
  match a with
  | ⟨0, _⟩ => show win2_1.index t (0 : Fin 2) * 1 + 1 * (u 0).val = (u 0).val; omega
  | ⟨1, _⟩ => show win2_1.index t (1 : Fin 2) * 64 + 1 * (u 1).val = (u 1).val; omega

/-- The weights' block is the whole matrix. -/
theorem blk2_at (c : Dev nD) (t : Fin cfg2.N) (u : S64x64.Idx) :
    (iblk2 V c 2 t : Vec Ideal S64x64 .f32) u = (V c main_arg7 : Mat 64 64) u := by
  obtain ⟨-, -, -, -, e0, e1, -⟩ := idx_facts t
  show V c main_arg7 (((cfg2.win 2).blk t).view.emb u) = V c main_arg7 u
  refine congrArg _ (funext fun a => Fin.ext ?_)
  match a with
  | ⟨0, _⟩ => show win2_2.index t (0 : Fin 2) * 64 + 1 * (u 0).val = (u 0).val; omega
  | ⟨1, _⟩ => show win2_2.index t (1 : Fin 2) * 64 + 1 * (u 1).val = (u 1).val; omega

/-! ## What a point writes back, and the whole array -/

/-- Point `t` writes back rows `5000 t … 5000 t + 4999` of the layer. -/
theorem flushed_eq (c : Dev nD) (t : Fin cfg2.N) :
    (dat2 (F := Ideal) V c).flushed 3 t
      = ((cfg2.win 3).blk t).view.read (Elt Ideal) (layerF (V c main_v59) (fun k => V c main_v60 (ix2 (0 : Fin 1) k)) (V c main_arg7)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x64) hz]
  obtain ⟨-, -, -, -, -, -, e0, e1⟩ := idx_facts t
  have ht := lt_N t
  funext j
  obtain ⟨p, q, rfl⟩ : ∃ (p : Fin 5000) (q : Fin 64), j = ix2 p q := ⟨j 0, j 1, eq_ix2 j⟩
  have hemb : ((cfg2.win 3).blk t).view.emb (ix2 p q) = ix2 (⟨t.val * 5000 + p.val, by have := p.isLt; omega⟩ : Fin 100000) q :=
    funext fun a => Fin.ext (by
      match a with
      | ⟨0, _⟩ => show win2_3.index t (0 : Fin 2) * 5000 + 1 * p.val = t.val * 5000 + p.val; omega
      | ⟨1, _⟩ => show win2_3.index t (1 : Fin 2) * 64 + 1 * q.val = q.val; omega)
  show k2_pay1 (iblk2 V c 0 t) (iblk2 V c 1 t) (iblk2 V c 2 t) (ix2 p q)
    = layerF (V c main_v59) (fun k => V c main_v60 (ix2 (0 : Fin 1) k)) (V c main_arg7) (((cfg2.win 3).blk t).view.emb (ix2 p q))
  rw [hemb]
  exact layer_rows (V c main_v59) (V c main_v60) (V c main_arg7) (iblk2 V c 0 t) (iblk2 V c 1 t) (iblk2 V c 2 t) p q _
    (fun k => blk0_at V c t p k _ rfl) (blk1_at V c t) (blk2_at V c t)

/-- An index of the array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v61).slice (win2_3.rect t)).set ↔ _
  rw [View.set_slice_whole, Rect.mem_set_unit]
  exact Iff.rfl

/-- Row `r` is written back by point `r / 5000`: the twenty row blocks tile the array. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the region: the layer of the three arrays the region finds. -/
theorem arr2 (c : Dev nD) : (dat2 (F := Ideal) V c).arrAt 3 cfg2.N
    = layerF (V c main_v59) (fun k => V c main_v60 (ix2 (0 : Fin 1) k)) (V c main_arg7) :=
  (dat2 (F := Ideal) V c).arrAt_eq_of_cover 3 _ (fun t _ => flushed_eq V c t) cover

end Cert.KernelIdeal.Reg2

end
-- ==== Proof.KReg3Heads.lean ====
/- The two per-node heads of the last pallas_call. -/
import proofs.«405259_j86088324481462_1_alg».proof.Proof.Gen.KernelIdeal.Frame
import proofs.«405259_j86088324481462_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Reg3Heads
open Cert.KernelIdeal Cert.KernelIdeal.Gen

section Pieces
variable {F : FTy → Type} [FloatOps F]

/-- A pair of zero offsets, however spelt. -/
theorem hz : (![0, 0] : Fin 2 → Nat) = fun _ => 0 := funext fun a => by fin_cases a <;> rfl

/-- At the first grid point the body leaves, in the first head's staging buffer, its one covering store's payload of the
    loaded blocks. -/
theorem piece_A_11 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x9 .f32) (harg6 : arg6.IsWhole) (arg7 : Memref sig .tc .vmem S1x9 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S5000x9 .f32) (harg12 : arg12.IsWhole) (arg13 : Memref sig .tc .vmem S5000x1 .f32) (harg13 : arg13.IsWhole) (arg14 : Memref sig .tc .vmem S256x64 .f32) (harg14 : arg14.IsWhole) (arg15 : Memref sig .tc .vmem S1x256 .f32) (harg15 : arg15.IsWhole) (hc0 : cond3_0 i) (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) :
    out3_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k3_pay8 x0 x1 x3 x4 x5 x6 := by
  unfold out3_A_11
  rw [View.read_writes_eq_canon _ _ _ (cover3_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun3_A
  dsimp only
  sl_unfold_words
  rw [View.canon_unit_zero hz]
  simp only [View.readAt_eq_ld, harg1.read_unread, harg2.read_unread, harg4.read_unread, harg5.read_unread, harg6.read_unread, harg7.read_unread,
    View.ld_unit_zero (S := S5000x64) hz, View.ld_unit_zero (S := S1x64) hz, View.ld_unit_zero (S := S64x64) hz, View.ld_unit_zero (S := S64x9) hz, View.ld_unit_zero (S := S1x9) hz]

/-- At every later grid point the same store leaves the same payload: the carried accumulators do not enter it. -/
theorem piece_B_11 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x9 .f32) (harg6 : arg6.IsWhole) (arg7 : Memref sig .tc .vmem S1x9 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S5000x9 .f32) (harg12 : arg12.IsWhole) (arg13 : Memref sig .tc .vmem S5000x1 .f32) (harg13 : arg13.IsWhole) (arg14 : Memref sig .tc .vmem S256x64 .f32) (harg14 : arg14.IsWhole) (arg15 : Memref sig .tc .vmem S1x256 .f32) (harg15 : arg15.IsWhole) (hc0 : ¬cond3_0 i) (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) (xo13 : Vec F S256x64 .f32) (xo14 : Vec F S1x256 .f32) :
    out3_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo13 xo14 = k3_pay8 x0 x1 x3 x4 x5 x6 := by
  unfold out3_B_11
  rw [View.read_writes_eq_canon _ _ _ (cover3_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo13 xo14)]
  unfold kernelRun3_B
  dsimp only
  sl_unfold_words
  rw [View.canon_unit_zero hz]
  simp only [View.readAt_eq_ld, harg1.read_unread, harg2.read_unread, harg4.read_unread, harg5.read_unread, harg6.read_unread, harg7.read_unread,
    View.ld_unit_zero (S := S5000x64) hz, View.ld_unit_zero (S := S1x64) hz, View.ld_unit_zero (S := S64x64) hz, View.ld_unit_zero (S := S64x9) hz, View.ld_unit_zero (S := S1x9) hz]

/-- The second head's staging buffer at the first grid point: its one covering store's payload. -/
theorem piece_A_12 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x9 .f32) (harg6 : arg6.IsWhole) (arg7 : Memref sig .tc .vmem S1x9 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S5000x9 .f32) (harg12 : arg12.IsWhole) (arg13 : Memref sig .tc .vmem S5000x1 .f32) (harg13 : arg13.IsWhole) (arg14 : Memref sig .tc .vmem S256x64 .f32) (harg14 : arg14.IsWhole) (arg15 : Memref sig .tc .vmem S1x256 .f32) (harg15 : arg15.IsWhole) (hc0 : cond3_0 i) (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) :
    out3_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k3_pay1 (k3_pay9 x0 x1 x7) (k3_pay10 x8) x9 x10 := by
  unfold out3_A_12
  rw [View.read_writes_eq_canon _ _ _ (cover3_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun3_A
  dsimp only
  sl_unfold_words
  rw [View.canon_unit_zero hz]
  simp only [View.readAt_eq_ld, harg1.read_unread, harg2.read_unread, harg8.read_unread, harg9.read_unread, harg10.read_unread, harg11.read_unread,
    View.ld_unit_zero (S := S5000x64) hz, View.ld_unit_zero (S := S1x64) hz, View.ld_unit_zero (S := S64x32) hz, View.ld_unit_zero (S := S1x32) hz, View.ld_unit_zero (S := S32x1) hz, View.ld_unit_zero (S := S1x1) hz]

/-- And at every later grid point. -/
theorem piece_B_12 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x9 .f32) (harg6 : arg6.IsWhole) (arg7 : Memref sig .tc .vmem S1x9 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S5000x9 .f32) (harg12 : arg12.IsWhole) (arg13 : Memref sig .tc .vmem S5000x1 .f32) (harg13 : arg13.IsWhole) (arg14 : Memref sig .tc .vmem S256x64 .f32) (harg14 : arg14.IsWhole) (arg15 : Memref sig .tc .vmem S1x256 .f32) (harg15 : arg15.IsWhole) (hc0 : ¬cond3_0 i) (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) (xo13 : Vec F S256x64 .f32) (xo14 : Vec F S1x256 .f32) :
    out3_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo13 xo14 = k3_pay1 (k3_pay9 x0 x1 x7) (k3_pay10 x8) x9 x10 := by
  unfold out3_B_12
  rw [View.read_writes_eq_canon _ _ _ (cover3_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo13 xo14)]
  unfold kernelRun3_B
  dsimp only
  sl_unfold_words
  rw [View.canon_unit_zero hz]
  simp only [View.readAt_eq_ld, harg1.read_unread, harg2.read_unread, harg8.read_unread, harg9.read_unread, harg10.read_unread, harg11.read_unread,
    View.ld_unit_zero (S := S5000x64) hz, View.ld_unit_zero (S := S1x64) hz, View.ld_unit_zero (S := S64x32) hz, View.ld_unit_zero (S := S1x32) hz, View.ld_unit_zero (S := S32x1) hz, View.ld_unit_zero (S := S1x1) hz]

end Pieces

section Payload

/-! ## The four products of the heads are plain "rows by columns" products -/

theorem lhs_hidA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_hidA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_hidA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_hidA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- The first head's hidden product: [5000 × 64] · [64 × 64]. -/
theorem plain_hidA : PlainDot dot_S5000x64_S64x64_S5000x64_1_0_0_1_n_n :=
  ⟨rfl, fun _ => rfl, lhs_hidA_0, fun i q _ => lhs_hidA_1 i q, fun i q _ => rhs_hidA_0 i q, rhs_hidA_1⟩

theorem lhs_outA_0 (i : S5000x9.Idx) (q : dot_S5000x64_S64x9_S5000x9_1_0_0_1_n_n.contr.Idx) :
    (dot_S5000x64_S64x9_S5000x9_1_0_0_1_n_n.lhsIdx i q 0).val = (i 0).val := by
  unfold DotDims.lhsIdx
  rw [dif_neg (show ¬(0 : Fin S5000x64.rank) ∈ dot_S5000x64_S64x9_S5000x9_1_0_0_1_n_n.lhsBatch by decide), dif_pos (show (0 : Fin S5000x64.rank) ∈ dot_S5000x64_S64x9_S5000x9_1_0_0_1_n_n.lhsNonContracting by decide)]
  rfl
theorem lhs_outA_1 (i : S5000x9.Idx) (q : dot_S5000x64_S64x9_S5000x9_1_0_0_1_n_n.contr.Idx) :
    (dot_S5000x64_S64x9_S5000x9_1_0_0_1_n_n.lhsIdx i q 1).val = (q ⟨0, by decide⟩).val :=
  dot_S5000x64_S64x9_S5000x9_1_0_0_1_n_n.lhsIdx_val_of_single rfl i q
theorem rhs_outA_0 (i : S5000x9.Idx) (q : dot_S5000x64_S64x9_S5000x9_1_0_0_1_n_n.contr.Idx) :
    (dot_S5000x64_S64x9_S5000x9_1_0_0_1_n_n.rhsIdx i q 0).val = (q ⟨0, by decide⟩).val :=
  dot_S5000x64_S64x9_S5000x9_1_0_0_1_n_n.rhsIdx_val_of_single rfl i q
theorem rhs_outA_1 (i : S5000x9.Idx) (q : dot_S5000x64_S64x9_S5000x9_1_0_0_1_n_n.contr.Idx) :
    (dot_S5000x64_S64x9_S5000x9_1_0_0_1_n_n.rhsIdx i q 1).val = (i 1).val := by
  unfold DotDims.rhsIdx
  rw [dif_neg (show ¬(1 : Fin S64x9.rank) ∈ dot_S5000x64_S64x9_S5000x9_1_0_0_1_n_n.rhsBatch by decide), dif_pos (show (1 : Fin S64x9.rank) ∈ dot_S5000x64_S64x9_S5000x9_1_0_0_1_n_n.rhsNonContracting by decide)]
  rfl
/-- The first head's output product: [5000 × 64] · [64 × 9]. -/
theorem plain_outA : PlainDot dot_S5000x64_S64x9_S5000x9_1_0_0_1_n_n :=
  ⟨rfl, fun _ => rfl, lhs_outA_0, fun i q _ => lhs_outA_1 i q, fun i q _ => rhs_outA_0 i q, rhs_outA_1⟩

theorem lhs_hidB_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_hidB_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_hidB_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_hidB_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl
/-- The second head's hidden product: [5000 × 64] · [64 × 32]. -/
theorem plain_hidB : PlainDot dot_S5000x64_S64x32_S5000x32_1_0_0_1_n_n :=
  ⟨rfl, fun _ => rfl, lhs_hidB_0, fun i q _ => lhs_hidB_1 i q, fun i q _ => rhs_hidB_0 i q, rhs_hidB_1⟩

theorem lhs_outB_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs_outB_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_outB_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_outB_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl
/-- The second head's output product: [5000 × 32] · [32 × 1]. -/
theorem plain_outB : PlainDot dot_S5000x32_S32x1_S5000x1_1_0_0_1_n_n :=
  ⟨rfl, fun _ => rfl, lhs_outB_0, fun i q _ => lhs_outB_1 i q, fun i q _ => rhs_outB_0 i q, rhs_outB_1⟩

/-! ## An affine layer and a rectified affine layer, as the body spells them -/

/-- A [1 × m] row broadcast down n rows reads, at (p, q), the row's entry q. -/
theorem rowBroadcast_at {n m : Nat} (b : (⟨2, ![1, m]⟩ : Shape).Idx → EReal)
    (hs : (⟨2, ![1, m]⟩ : Shape).ShapeCasts ⟨2, ![1, m]⟩) (hb : (⟨2, ![1, m]⟩ : Shape).Broadcasts ⟨2, ![n, m]⟩) (p : Fin n) (q : Fin m) :
    broadcastTo ⟨2, ![n, m]⟩ (shapeCast ⟨2, ![1, m]⟩ b hs) hb (ix2 p q) = b (ix2 (0 : Fin 1) q) := by
  rw [shapeCast_self]
  refine broadcastTo_apply b hb (ix2 p q) (ix2 (0 : Fin 1) q) fun a => ?_
  match a with
  | ⟨0, _⟩ => rfl
  | ⟨1, _⟩ =>
    show q.val = if m = 1 then 0 else q.val
    have hq := q.isLt
    split_ifs <;> omega

/-- A product into a zero accumulator plus a broadcast bias row is, entry by entry, the row-by-column sum plus the bias at
    the column. -/
theorem affine_eq {n k m : Nat} {d : DotDims ⟨2, ![n, k]⟩ ⟨2, ![k, m]⟩ ⟨2, ![n, m]⟩} (hd : PlainDot d) {φ₁ φ₂ : FTy}
    (a : FVec Ideal ⟨2, ![n, k]⟩ φ₁) (w : FVec Ideal ⟨2, ![k, m]⟩ φ₂) (b : FVec Ideal ⟨2, ![1, m]⟩ .f32)
    (hs : (⟨2, ![1, m]⟩ : Shape).ShapeCasts ⟨2, ![1, m]⟩) (hb : (⟨2, ![1, m]⟩ : Shape).Broadcasts ⟨2, ![n, m]⟩) :
    addf (matmul d none a w (constant ⟨2, ![n, m]⟩ .f32 0x00000000#32)) (broadcastTo ⟨2, ![n, m]⟩ (shapeCast ⟨2, ![1, m]⟩ b hs) hb)
      = linF (fun i => a i) (fun i => w i) (fun q => b (ix2 (0 : Fin 1) q)) := by
  funext i
  obtain ⟨p, q, rfl⟩ : ∃ (p : Fin n) (q : Fin m), i = ix2 p q := ⟨i 0, i 1, eq_ix2 i⟩
  exact congrArg₂ (· + ·) (matmul_zero_at hd none a w (ix2 p q)) (rowBroadcast_at b hs hb p q)

/-- The same followed by a maximum against the zero scalar (and a change of format, the identity on the extended reals)
    is the rectified unit. -/
theorem rectified_eq {n k m : Nat} {d : DotDims ⟨2, ![n, k]⟩ ⟨2, ![k, m]⟩ ⟨2, ![n, m]⟩} (hd : PlainDot d) {φ₁ φ₂ : FTy}
    (a : FVec Ideal ⟨2, ![n, k]⟩ φ₁) (w : FVec Ideal ⟨2, ![k, m]⟩ φ₂) (b : FVec Ideal ⟨2, ![1, m]⟩ .f32)
    (hs : (⟨2, ![1, m]⟩ : Shape).ShapeCasts ⟨2, ![1, m]⟩) (hb : (⟨2, ![1, m]⟩ : Shape).Broadcasts ⟨2, ![n, m]⟩) :
    maximumf (addf (matmul d none a w (constant ⟨2, ![n, m]⟩ .f32 0x00000000#32)) (broadcastTo ⟨2, ![n, m]⟩ (shapeCast ⟨2, ![1, m]⟩ b hs) hb))
        (broadcast ⟨2, ![n, m]⟩ (Scalar.ofBits (F := Ideal) .f32 0x00000000#32))
      = hidF (fun i => a i) (fun i => w i) (fun q => b (ix2 (0 : Fin 1) q)) := by
  rw [affine_eq hd a w b hs hb]
  funext i
  exact congrArg (max _) Ideal.ofBits_zero_f32

end Payload

section HeadValue

/-- The embedding block: every row of the aggregated block plus the last convolution's bias. -/
theorem pay7_eq (x0 : Vec Ideal S5000x64 .f32) (x1 : Vec Ideal S1x64 .f32) :
    (fun i => k3_pay7 (F := Ideal) x0 x1 i) = embF (fun i => x0 i) (fun k => x1 (ix2 (0 : Fin 1) k)) := by
  funext i
  obtain ⟨p, q, rfl⟩ : ∃ (p : Fin 5000) (q : Fin 64), i = ix2 p q := ⟨i 0, i 1, eq_ix2 i⟩
  unfold k3_pay7
  exact congrArg₂ (· + ·) (congrFun (shapeCast_self x0 shapeCasts_S5000x64_S5000x64) (ix2 p q))
    (rowBroadcast_at x1 shapeCasts_S1x64_S1x64 broadcasts_S1x64_S5000x64 p q)

/-- THE FIRST HEAD ON A BLOCK OF ROWS: the body's payload for the [5000 × 9] store is the head of the block's embedding. -/
theorem pay8_eq (x0 : Vec Ideal S5000x64 .f32) (x1 : Vec Ideal S1x64 .f32) (x3 : Vec Ideal S64x64 .f32) (x4 : Vec Ideal S1x64 .f32)
    (x5 : Vec Ideal S64x9 .f32) (x6 : Vec Ideal S1x9 .f32) :
    k3_pay8 (F := Ideal) x0 x1 x3 x4 x5 x6
      = headF (embF (fun i => x0 i) (fun k => x1 (ix2 (0 : Fin 1) k))) (fun i => x3 i) (fun k => x4 (ix2 (0 : Fin 1) k))
          (fun i => x5 i) (fun k => x6 (ix2 (0 : Fin 1) k)) := by
  unfold k3_pay8
  refine (affine_eq plain_outA _ _ x6 shapeCasts_S1x9_S1x9 broadcasts_S1x9_S5000x9).trans ?_
  refine congrArg (fun h : Mat 5000 64 => linF h (fun i => x5 i) (fun q => x6 (ix2 (0 : Fin 1) q))) ?_
  refine (rectified_eq plain_hidA (k3_pay7 x0 x1) (truncf .bf16 x3 bitsLt_bf16_f32) x4 shapeCasts_S1x64_S1x64 broadcasts_S1x64_S5000x64).trans ?_
  exact congrArg (fun e : Mat 5000 64 => hidF e (fun i => x3 i) (fun q => x4 (ix2 (0 : Fin 1) q))) (pay7_eq x0 x1)

/-- THE SECOND HEAD ON A BLOCK OF ROWS: the payload for the [5000 × 1] store, its hidden product computed before it. -/
theorem pay1_eq (x0 : Vec Ideal S5000x64 .f32) (x1 : Vec Ideal S1x64 .f32) (x7 : Vec Ideal S64x32 .f32) (x8 : Vec Ideal S1x32 .f32)
    (x9 : Vec Ideal S32x1 .f32) (x10 : Vec Ideal S1x1 .f32) :
    k3_pay1 (F := Ideal) (k3_pay9 x0 x1 x7) (k3_pay10 x8) x9 x10
      = headF (embF (fun i => x0 i) (fun k => x1 (ix2 (0 : Fin 1) k))) (fun i => x7 i) (fun k => x8 (ix2 (0 : Fin 1) k))
          (fun i => x9 i) (fun k => x10 (ix2 (0 : Fin 1) k)) := by
  unfold k3_pay1 k3_pay9 k3_pay10
  refine (affine_eq plain_outB _ _ x10 shapeCasts_S1x1_S1x1 broadcasts_S1x1_S5000x1).trans ?_
  refine congrArg (fun h : Mat 5000 32 => linF h (fun i => x9 i) (fun q => x10 (ix2 (0 : Fin 1) q))) ?_
  refine (rectified_eq plain_hidB (k3_pay7 x0 x1) (truncf .bf16 x7 bitsLt_bf16_f32) x8 shapeCasts_S1x32_S1x32 broadcasts_S1x32_S5000x32).trans ?_
  exact congrArg (fun e : Mat 5000 64 => hidF e (fun i => x7 i) (fun q => x8 (ix2 (0 : Fin 1) q))) (pay7_eq x0 x1)

/-- A head's row depends on the same row of the table only: the head of a block of rows is that block of the head. -/
theorem headF_rows {n N k h o : Nat} (A : Mat N k) (x : Mat n k) (b3 : Fin k → EReal) (wa : Mat k h) (ba : Fin h → EReal)
    (wb : Mat h o) (bb : Fin o → EReal) (ρ : Fin n → Fin N) (hx : ∀ r q, x (ix2 r q) = A (ix2 (ρ r) q)) (r : Fin n) (j : Fin o) :
    headF (embF x b3) wa ba wb bb (ix2 r j) = headF (embF A b3) wa ba wb bb (ix2 (ρ r) j) := by
  show rowDot (hidF (embF x b3) wa ba) wb r j + bb j = rowDot (hidF (embF A b3) wa ba) wb (ρ r) j + bb j
  refine congrArg (· + bb j) (Finset.sum_congr rfl fun u _ => congrArg (· * wb (ix2 u j)) ?_)
  show max (rowDot (embF x b3) wa r u + ba u) 0 = max (rowDot (embF A b3) wa (ρ r) u + ba u) 0
  refine congrArg (fun s => max (s + ba u) 0) (Finset.sum_congr rfl fun q _ => congrArg (· * wa (ix2 q u)) ?_)
  show x (ix2 r q) + b3 q = A (ix2 (ρ r) q) + b3 q
  rw [hx]

/-- The first head's payload of a point's blocks, entry by entry, is the head over the whole table at the block's rows:
    the row block is read off the table, the weights and biases are their whole arrays. -/
theorem head11_block_at (A : Mat 100000 64) (B3 : Mat 1 64) (Wa : Mat 64 64) (Ba : Mat 1 64) (Wb : Mat 64 9) (Bb : Mat 1 9)
    (x0 : Vec Ideal S5000x64 .f32) (x1 : Vec Ideal S1x64 .f32) (x3 : Vec Ideal S64x64 .f32) (x4 : Vec Ideal S1x64 .f32)
    (x5 : Vec Ideal S64x9 .f32) (x6 : Vec Ideal S1x9 .f32) (ρ : Fin 5000 → Fin 100000)
    (h0 : ∀ r q, x0 (ix2 r q) = A (ix2 (ρ r) q)) (h1 : x1 = B3) (h3 : x3 = Wa) (h4 : x4 = Ba) (h5 : x5 = Wb) (h6 : x6 = Bb)
    (r : Fin 5000) (j : Fin 9) :
    k3_pay8 (F := Ideal) x0 x1 x3 x4 x5 x6 (ix2 r j)
      = headF (embF A (fun k => B3 (ix2 (0 : Fin 1) k))) Wa (fun k => Ba (ix2 (0 : Fin 1) k)) Wb (fun k => Bb (ix2 (0 : Fin 1) k)) (ix2 (ρ r) j) := by
  subst h1 h3 h4 h5 h6
  rw [pay8_eq]
  exact headF_rows A (fun i => x0 i) _ _ _ _ _ ρ h0 r j

/-- The second head's. -/
theorem head12_block_at (A : Mat 100000 64) (B3 : Mat 1 64) (Wa : Mat 64 32) (Ba : Mat 1 32) (Wb : Mat 32 1) (Bb : Mat 1 1)
    (x0 : Vec Ideal S5000x64 .f32) (x1 : Vec Ideal S1x64 .f32) (x7 : Vec Ideal S64x32 .f32) (x8 : Vec Ideal S1x32 .f32)
    (x9 : Vec Ideal S32x1 .f32) (x10 : Vec Ideal S1x1 .f32) (ρ : Fin 5000 → Fin 100000)
    (h0 : ∀ r q, x0 (ix2 r q) = A (ix2 (ρ r) q)) (h1 : x1 = B3) (h7 : x7 = Wa) (h8 : x8 = Ba) (h9 : x9 = Wb) (h10 : x10 = Bb)
    (r : Fin 5000) (j : Fin 1) :
    k3_pay1 (F := Ideal) (k3_pay9 x0 x1 x7) (k3_pay10 x8) x9 x10 (ix2 r j)
      = headF (embF A (fun k => B3 (ix2 (0 : Fin 1) k))) Wa (fun k => Ba (ix2 (0 : Fin 1) k)) Wb (fun k => Bb (ix2 (0 : Fin 1) k)) (ix2 (ρ r) j) := by
  subst h1 h7 h8 h9 h10
  rw [pay1_eq]
  exact headF_rows A (fun i => x0 i) _ _ _ _ _ ρ h0 r j

end HeadValue

section Array
variable (V : (c : Dev nD) → (b : Ref sig .tc) → Buf (Elt Ideal) ((c : Thread nD τ).loc b))

/-! ## The windows' blocks, read off their arrays -/

/-- The printed index maps, decided over the grid: the row-tiled windows (the aggregated table, the two heads' results)
    take block (t, 0) at point t; every weight and bias window takes its whole array at every point. -/
theorem idx_facts : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0)
    ∧ (win3_12.index t (0 : Fin 2) = t.val ∧ win3_12.index t (1 : Fin 2) = 0) :=
  (by decide +kernel : ∀ t : Fin grid3.N, _)

/-- Row r of the block at point t is row 5000·t + r of the table. -/
def rowOf (t : Fin cfg3.N) (r : Fin 5000) : Fin 100000 :=
  ⟨5000 * t.val + r.val, by have ht : t.val < 20 := lt_of_lt_of_eq t.isLt N_3; have hr := r.isLt; omega⟩

/-- Window 0's block at point t: rows 5000·t … 5000·t + 4999 of the aggregated table. -/
theorem blk0_at (c : Dev nD) (t : Fin cfg3.N) (r : Fin 5000) (q : Fin 64) :
    (iblk3 V c 0 t : Vec Ideal S5000x64 .f32) (ix2 r q) = V c main_v74 (ix2 (rowOf t r) q) := by
  obtain ⟨⟨e0, e1⟩, -⟩ := idx_facts t
  unfold iblk3
  rw [View.read_apply]
  show V c main_v74 _ = V c main_v74 _
  congr 1
  funext a
  apply Fin.ext
  match a with
  | ⟨0, _⟩ => show win3_0.index t (0 : Fin 2) * 5000 + 1 * r.val = 5000 * t.val + r.val; rw [e0]; omega
  | ⟨1, _⟩ => show win3_0.index t (1 : Fin 2) * 64 + 1 * q.val = q.val; rw [e1]; omega

/-- Window 1's block at every point is its whole array. -/
theorem blk1_eq (c : Dev nD) (t : Fin cfg3.N) : (iblk3 V c 1 t : Vec Ideal S1x64 .f32) = V c main_v75 := by
  obtain ⟨f0, f1, f3, f4, f5, f6, f7, f8, f9, f10, f11, f12⟩ := idx_facts t
  refine funext fun (u : S1x64.Idx) => ?_
  unfold iblk3
  rw [View.read_apply]
  show V c main_v75 _ = V c main_v75 u
  congr 1
  funext a
  apply Fin.ext
  match a with
  | ⟨0, _⟩ => show win3_1.index t (0 : Fin 2) * 1 + 1 * (u 0).val = (u 0).val; rw [f1.1]; omega
  | ⟨1, _⟩ => show win3_1.index t (1 : Fin 2) * 64 + 1 * (u 1).val = (u 1).val; rw [f1.2]; omega

/-- Window 3's block at every point is its whole array. -/
theorem blk3_eq (c : Dev nD) (t : Fin cfg3.N) : (iblk3 V c 3 t : Vec Ideal S64x64 .f32) = V c main_arg15 := by
  obtain ⟨f0, f1, f3, f4, f5, f6, f7, f8, f9, f10, f11, f12⟩ := idx_facts t
  refine funext fun (u : S64x64.Idx) => ?_
  unfold iblk3
  rw [View.read_apply]
  show V c main_arg15 _ = V c main_arg15 u
  congr 1
  funext a
  apply Fin.ext
  match a with
  | ⟨0, _⟩ => show win3_3.index t (0 : Fin 2) * 64 + 1 * (u 0).val = (u 0).val; rw [f3.1]; omega
  | ⟨1, _⟩ => show win3_3.index t (1 : Fin 2) * 64 + 1 * (u 1).val = (u 1).val; rw [f3.2]; omega

/-- Window 4's block at every point is its whole array. -/
theorem blk4_eq (c : Dev nD) (t : Fin cfg3.N) : (iblk3 V c 4 t : Vec Ideal S1x64 .f32) = V c main_v76 := by
  obtain ⟨f0, f1, f3, f4, f5, f6, f7, f8, f9, f10, f11, f12⟩ := idx_facts t
  refine funext fun (u : S1x64.Idx) => ?_
  unfold iblk3
  rw [View.read_apply]
  show V c main_v76 _ = V c main_v76 u
  congr 1
  funext a
  apply Fin.ext
  match a with
  | ⟨0, _⟩ => show win3_4.index t (0 : Fin 2) * 1 + 1 * (u 0).val = (u 0).val; rw [f4.1]; omega
  | ⟨1, _⟩ => show win3_4.index t (1 : Fin 2) * 64 + 1 * (u 1).val = (u 1).val; rw [f4.2]; omega

/-- Window 5's block at every point is its whole array. -/
theorem blk5_eq (c : Dev nD) (t : Fin cfg3.N) : (iblk3 V c 5 t : Vec Ideal S64x9 .f32) = V c main_arg17 := by
  obtain ⟨f0, f1, f3, f4, f5, f6, f7, f8, f9, f10, f11, f12⟩ := idx_facts t
  refine funext fun (u : S64x9.Idx) => ?_
  unfold iblk3
  rw [View.read_apply]
  show V c main_arg17 _ = V c main_arg17 u
  congr 1
  funext a
  apply Fin.ext
  match a with
  | ⟨0, _⟩ => show win3_5.index t (0 : Fin 2) * 64 + 1 * (u 0).val = (u 0).val; rw [f5.1]; omega
  | ⟨1, _⟩ => show win3_5.index t (1 : Fin 2) * 9 + 1 * (u 1).val = (u 1).val; rw [f5.2]; omega

/-- Window 6's block at every point is its whole array. -/
theorem blk6_eq (c : Dev nD) (t : Fin cfg3.N) : (iblk3 V c 6 t : Vec Ideal S1x9 .f32) = V c main_v77 := by
  obtain ⟨f0, f1, f3, f4, f5, f6, f7, f8, f9, f10, f11, f12⟩ := idx_facts t
  refine funext fun (u : S1x9.Idx) => ?_
  unfold iblk3
  rw [View.read_apply]
  show V c main_v77 _ = V c main_v77 u
  congr 1
  funext a
  apply Fin.ext
  match a with
  | ⟨0, _⟩ => show win3_6.index t (0 : Fin 2) * 1 + 1 * (u 0).val = (u 0).val; rw [f6.1]; omega
  | ⟨1, _⟩ => show win3_6.index t (1 : Fin 2) * 9 + 1 * (u 1).val = (u 1).val; rw [f6.2]; omega

/-- Window 7's block at every point is its whole array. -/
theorem blk7_eq (c : Dev nD) (t : Fin cfg3.N) : (iblk3 V c 7 t : Vec Ideal S64x32 .f32) = V c main_arg19 := by
  obtain ⟨f0, f1, f3, f4, f5, f6, f7, f8, f9, f10, f11, f12⟩ := idx_facts t
  refine funext fun (u : S64x32.Idx) => ?_
  unfold iblk3
  rw [View.read_apply]
  show V c main_arg19 _ = V c main_arg19 u
  congr 1
  funext a
  apply Fin.ext
  match a with
  | ⟨0, _⟩ => show win3_7.index t (0 : Fin 2) * 64 + 1 * (u 0).val = (u 0).val; rw [f7.1]; omega
  | ⟨1, _⟩ => show win3_7.index t (1 : Fin 2) * 32 + 1 * (u 1).val = (u 1).val; rw [f7.2]; omega

/-- Window 8's block at every point is its whole array. -/
theorem blk8_eq (c : Dev nD) (t : Fin cfg3.N) : (iblk3 V c 8 t : Vec Ideal S1x32 .f32) = V c main_v78 := by
  obtain ⟨f0, f1, f3, f4, f5, f6, f7, f8, f9, f10, f11, f12⟩ := idx_facts t
  refine funext fun (u : S1x32.Idx) => ?_
  unfold iblk3
  rw [View.read_apply]
  show V c main_v78 _ = V c main_v78 u
  congr 1
  funext a
  apply Fin.ext
  match a with
  | ⟨0, _⟩ => show win3_8.index t (0 : Fin 2) * 1 + 1 * (u 0).val = (u 0).val; rw [f8.1]; omega
  | ⟨1, _⟩ => show win3_8.index t (1 : Fin 2) * 32 + 1 * (u 1).val = (u 1).val; rw [f8.2]; omega

/-- Window 9's block at every point is its whole array. -/
theorem blk9_eq (c : Dev nD) (t : Fin cfg3.N) : (iblk3 V c 9 t : Vec Ideal S32x1 .f32) = V c main_arg21 := by
  obtain ⟨f0, f1, f3, f4, f5, f6, f7, f8, f9, f10, f11, f12⟩ := idx_facts t
  refine funext fun (u : S32x1.Idx) => ?_
  unfold iblk3
  rw [View.read_apply]
  show V c main_arg21 _ = V c main_arg21 u
  congr 1
  funext a
  apply Fin.ext
  match a with
  | ⟨0, _⟩ => show win3_9.index t (0 : Fin 2) * 32 + 1 * (u 0).val = (u 0).val; rw [f9.1]; omega
  | ⟨1, _⟩ => show win3_9.index t (1 : Fin 2) * 1 + 1 * (u 1).val = (u 1).val; rw [f9.2]; omega

/-- Window 10's block at every point is its whole array. -/
theorem blk10_eq (c : Dev nD) (t : Fin cfg3.N) : (iblk3 V c 10 t : Vec Ideal S1x1 .f32) = V c main_v79 := by
  obtain ⟨f0, f1, f3, f4, f5, f6, f7, f8, f9, f10, f11, f12⟩ := idx_facts t
  refine funext fun (u : S1x1.Idx) => ?_
  unfold iblk3
  rw [View.read_apply]
  show V c main_v79 _ = V c main_v79 u
  congr 1
  funext a
  apply Fin.ext
  match a with
  | ⟨0, _⟩ => show win3_10.index t (0 : Fin 2) * 1 + 1 * (u 0).val = (u 0).val; rw [f10.1]; omega
  | ⟨1, _⟩ => show win3_10.index t (1 : Fin 2) * 1 + 1 * (u 1).val = (u 1).val; rw [f10.2]; omega

/-! ## What the two heads' staging buffers hold after a point: the same payload in both control cases -/

/-- After every point the first head's staging buffer holds the head's payload of that point's blocks (the reset of the
    pooled accumulators at the first point does not touch it). -/
theorem outs11_eq (c : Dev nD) (t : Fin cfg3.N) :
    (outsAt3 (F := Ideal) V c t.val t.isLt).1
      = k3_pay8 (F := Ideal) (iblk3 V c 0 t) (iblk3 V c 1 t) (iblk3 V c 3 t) (iblk3 V c 4 t) (iblk3 V c 5 t) (iblk3 V c 6 t) := by
  by_cases h0 : t.val % 20 = 0
  · rw [outsAt3_A V c t h0]
    dsimp only
    exact piece_A_11 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  · rw [outsAt3_B V c t h0]
    dsimp only
    exact piece_B_11 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (outsAt3 V c (t.val - 1) (Nat.lt_of_le_of_lt (Nat.sub_le _ _) t.isLt)).2.2.1 (outsAt3 V c (t.val - 1) (Nat.lt_of_le_of_lt (Nat.sub_le _ _) t.isLt)).2.2.2

/-- And the second head's staging buffer its own. -/
theorem outs12_eq (c : Dev nD) (t : Fin cfg3.N) :
    (outsAt3 (F := Ideal) V c t.val t.isLt).2.1
      = k3_pay1 (F := Ideal) (k3_pay9 (iblk3 V c 0 t) (iblk3 V c 1 t) (iblk3 V c 7 t)) (k3_pay10 (iblk3 V c 8 t)) (iblk3 V c 9 t) (iblk3 V c 10 t) := by
  by_cases h0 : t.val % 20 = 0
  · rw [outsAt3_A V c t h0]
    dsimp only
    exact piece_A_12 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  · rw [outsAt3_B V c t h0]
    dsimp only
    exact piece_B_12 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (outsAt3 V c (t.val - 1) (Nat.lt_of_le_of_lt (Nat.sub_le _ _) t.isLt)).2.2.1 (outsAt3 V c (t.val - 1) (Nat.lt_of_le_of_lt (Nat.sub_le _ _) t.isLt)).2.2.2

/-! ## From blocks to the arrays -/

/-- The first head over the whole node table. -/
abbrev moveArr (c : Dev nD) : Mat 100000 9 :=
  headF (embF (V c main_v74) (fun k => V c main_v75 (ix2 (0 : Fin 1) k))) (V c main_arg15) (fun k => V c main_v76 (ix2 (0 : Fin 1) k))
    (V c main_arg17) (fun k => V c main_v77 (ix2 (0 : Fin 1) k))

/-- The second head over the whole node table. -/
abbrev blockArr (c : Dev nD) : Mat 100000 1 :=
  headF (embF (V c main_v74) (fun k => V c main_v75 (ix2 (0 : Fin 1) k))) (V c main_arg19) (fun k => V c main_v78 (ix2 (0 : Fin 1) k))
    (V c main_arg21) (fun k => V c main_v79 (ix2 (0 : Fin 1) k))

/-- WHAT POINT t WRITES BACK for the first head is block t (rows 5000·t … 5000·t + 4999) of the head over the whole table. -/
theorem flushed11_eq (c : Dev nD) (t : Fin cfg3.N) :
    (dat3 (F := Ideal) V c).flushed 11 t = ((cfg3.win 11).blk t).view.read (Elt Ideal) (moveArr V c) := by
  obtain ⟨f0, f1, f3, f4, f5, f6, f7, f8, f9, f10, f11, f12⟩ := idx_facts t
  show (cfg3.win 11).cut (grid3.coords t) ((dat3 (F := Ideal) V c).after 11 t) = _
  rw [after3_11, outs11_eq V c t]
  refine funext fun (y : S5000x9.Idx) => ?_
  obtain ⟨r, j, rfl⟩ : ∃ (r : Fin 5000) (j : Fin 9), y = ix2 r j := ⟨y 0, y 1, eq_ix2 y⟩
  refine (head11_block_at (V c main_v74) (V c main_v75) (V c main_arg15) (V c main_v76) (V c main_arg17) (V c main_v77)
    (iblk3 V c 0 t) (iblk3 V c 1 t) (iblk3 V c 3 t) (iblk3 V c 4 t) (iblk3 V c 5 t) (iblk3 V c 6 t) (rowOf t)
    (blk0_at V c t) (blk1_eq V c t) (blk3_eq V c t) (blk4_eq V c t) (blk5_eq V c t) (blk6_eq V c t) r j).trans ?_
  show moveArr V c (ix2 (rowOf t r) j) = moveArr V c (((cfg3.win 11).blk t).view.emb (ix2 r j))
  refine congrArg (moveArr V c) (funext fun a => Fin.ext ?_)
  match a with
  | ⟨0, _⟩ => show 5000 * t.val + r.val = win3_11.index t (0 : Fin 2) * 5000 + 1 * r.val; rw [f11.1]; omega
  | ⟨1, _⟩ => show j.val = win3_11.index t (1 : Fin 2) * 9 + 1 * j.val; rw [f11.2]; omega

/-- And for the second head. -/
theorem flushed12_eq (c : Dev nD) (t : Fin cfg3.N) :
    (dat3 (F := Ideal) V c).flushed 12 t = ((cfg3.win 12).blk t).view.read (Elt Ideal) (blockArr V c) := by
  obtain ⟨f0, f1, f3, f4, f5, f6, f7, f8, f9, f10, f11, f12⟩ := idx_facts t
  show (cfg3.win 12).cut (grid3.coords t) ((dat3 (F := Ideal) V c).after 12 t) = _
  rw [after3_12, outs12_eq V c t]
  refine funext fun (y : S5000x1.Idx) => ?_
  obtain ⟨r, j, rfl⟩ : ∃ (r : Fin 5000) (j : Fin 1), y = ix2 r j := ⟨y 0, y 1, eq_ix2 y⟩
  refine (head12_block_at (V c main_v74) (V c main_v75) (V c main_arg19) (V c main_v78) (V c main_arg21) (V c main_v79)
    (iblk3 V c 0 t) (iblk3 V c 1 t) (iblk3 V c 7 t) (iblk3 V c 8 t) (iblk3 V c 9 t) (iblk3 V c 10 t) (rowOf t)
    (blk0_at V c t) (blk1_eq V c t) (blk7_eq V c t) (blk8_eq V c t) (blk9_eq V c t) (blk10_eq V c t) r j).trans ?_
  show blockArr V c (ix2 (rowOf t r) j) = blockArr V c (((cfg3.win 12).blk t).view.emb (ix2 r j))
  refine congrArg (blockArr V c) (funext fun a => Fin.ext ?_)
  match a with
  | ⟨0, _⟩ => show 5000 * t.val + r.val = win3_12.index t (0 : Fin 2) * 5000 + 1 * r.val; rw [f12.1]; omega
  | ⟨1, _⟩ => show j.val = win3_12.index t (1 : Fin 2) * 1 + 1 * j.val; rw [f12.2]; omega

/-- An index of the first head's array is in point t's block iff each coordinate is in the block's range on its axis. -/
theorem mem_blk11 (t : Fin cfg3.N) (i : S100000x9.Idx) :
    i ∈ ((cfg3.win 11).blk t).view.set ↔ ∀ a : Fin 2, win3_11.index t a * S5000x9.size a ≤ (i a).val ∧ (i a).val < win3_11.index t a * S5000x9.size a + S5000x9.size a := by
  show i ∈ ((View.whole main_v80_0).slice (win3_11.rect t)).set ↔ _
  rw [View.set_slice_whole, Rect.mem_set_unit]
  exact Iff.rfl

theorem mem_blk12 (t : Fin cfg3.N) (i : S100000x1.Idx) :
    i ∈ ((cfg3.win 12).blk t).view.set ↔ ∀ a : Fin 2, win3_12.index t a * S5000x1.size a ≤ (i a).val ∧ (i a).val < win3_12.index t a * S5000x1.size a + S5000x1.size a := by
  show i ∈ ((View.whole main_v80_1).slice (win3_12.rect t)).set ↔ _
  rw [View.set_slice_whole, Rect.mem_set_unit]
  exact Iff.rfl

/-- Row i of the first head's array is written back by point i / 5000. -/
theorem cover11 (i : S100000x9.Idx) : ∃ t : Fin cfg3.N, (cfg3.win 11).flush t = true ∧ i ∈ ((cfg3.win 11).blk t).view.set := by
  have hi0 : (i 0).val < 100000 := (i 0).isLt
  have hi1 : (i 1).val < 9 := (i 1).isLt
  have hN : cfg3.N = 20 := N_3
  have hlt : (i 0).val / 5000 < cfg3.N := by rw [hN]; omega
  obtain ⟨f0, f1, f3, f4, f5, f6, f7, f8, f9, f10, f11, f12⟩ := idx_facts ⟨(i 0).val / 5000, hlt⟩
  refine ⟨⟨(i 0).val / 5000, hlt⟩, flush3_11 _, ?_⟩
  rw [mem_blk11]
  intro a
  match a with
  | ⟨0, _⟩ =>
    show win3_11.index ⟨(i 0).val / 5000, hlt⟩ (0 : Fin 2) * 5000 ≤ (i 0).val ∧ (i 0).val < win3_11.index ⟨(i 0).val / 5000, hlt⟩ (0 : Fin 2) * 5000 + 5000
    rw [f11.1]; show (i 0).val / 5000 * 5000 ≤ (i 0).val ∧ (i 0).val < (i 0).val / 5000 * 5000 + 5000; omega
  | ⟨1, _⟩ =>
    show win3_11.index ⟨(i 0).val / 5000, hlt⟩ (1 : Fin 2) * 9 ≤ (i 1).val ∧ (i 1).val < win3_11.index ⟨(i 0).val / 5000, hlt⟩ (1 : Fin 2) * 9 + 9
    rw [f11.2]; omega

/-- And of the second head's. -/
theorem cover12 (i : S100000x1.Idx) : ∃ t : Fin cfg3.N, (cfg3.win 12).flush t = true ∧ i ∈ ((cfg3.win 12).blk t).view.set := by
  have hi0 : (i 0).val < 100000 := (i 0).isLt
  have hi1 : (i 1).val < 1 := (i 1).isLt
  have hN : cfg3.N = 20 := N_3
  have hlt : (i 0).val / 5000 < cfg3.N := by rw [hN]; omega
  obtain ⟨f0, f1, f3, f4, f5, f6, f7, f8, f9, f10, f11, f12⟩ := idx_facts ⟨(i 0).val / 5000, hlt⟩
  refine ⟨⟨(i 0).val / 5000, hlt⟩, flush3_12 _, ?_⟩
  rw [mem_blk12]
  intro a
  match a with
  | ⟨0, _⟩ =>
    show win3_12.index ⟨(i 0).val / 5000, hlt⟩ (0 : Fin 2) * 5000 ≤ (i 0).val ∧ (i 0).val < win3_12.index ⟨(i 0).val / 5000, hlt⟩ (0 : Fin 2) * 5000 + 5000
    rw [f12.1]; show (i 0).val / 5000 * 5000 ≤ (i 0).val ∧ (i 0).val < (i 0).val / 5000 * 5000 + 5000; omega
  | ⟨1, _⟩ =>
    show win3_12.index ⟨(i 0).val / 5000, hlt⟩ (1 : Fin 2) * 1 ≤ (i 1).val ∧ (i 1).val < win3_12.index ⟨(i 0).val / 5000, hlt⟩ (1 : Fin 2) * 1 + 1
    rw [f12.2]; omega

/-- THE FIRST HEAD'S ARRAY after the region: the head over the whole node table (every row is covered, each by the point
    that holds it, and each point writes its rows of that one function). -/
theorem arr3_move (c : Dev nD) : (dat3 (F := Ideal) V c).arrAt 11 cfg3.N
    = headF (embF (V c main_v74) (fun k => V c main_v75 (ix2 (0 : Fin 1) k))) (V c main_arg15) (fun k => V c main_v76 (ix2 (0 : Fin 1) k))
        (V c main_arg17) (fun k => V c main_v77 (ix2 (0 : Fin 1) k)) :=
  (dat3 (F := Ideal) V c).arrAt_eq_of_cover 11 (moveArr V c) (fun t _ => flushed11_eq V c t) (cover11)

/-- THE SECOND HEAD'S ARRAY after the region. -/
theorem arr3_block (c : Dev nD) : (dat3 (F := Ideal) V c).arrAt 12 cfg3.N
    = headF (embF (V c main_v74) (fun k => V c main_v75 (ix2 (0 : Fin 1) k))) (V c main_arg19) (fun k => V c main_v78 (ix2 (0 : Fin 1) k))
        (V c main_arg21) (fun k => V c main_v79 (ix2 (0 : Fin 1) k)) :=
  (dat3 (F := Ideal) V c).arrAt_eq_of_cover 12 (blockArr V c) (fun t _ => flushed12_eq V c t) (cover12)

end Array

end Cert.KernelIdeal.Reg3Heads
end
-- ==== Proof.KReg3Pool.lean ====
/- The pooled sums and counts the last pallas_call accumulates over its twenty row tiles. -/
import proofs.«405259_j86088324481462_1_alg».proof.Proof.Gen.KernelIdeal.Frame
import proofs.«405259_j86088324481462_1_alg».proof.Proof.Spec
import proofs.«405259_j86088324481462_1_alg».proof.Proof.PoolMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Reg3Pool
open Cert.KernelIdeal Cert.KernelIdeal.Gen

theorem hz : (![0, 0] : Fin 2 → Nat) = fun _ => 0 := funext fun a => by fin_cases a <;> rfl

section Pieces
variable {F : FTy → Type} [FloatOps F]

/-- Past the first tile the body leaves, in the sums' buffer holding `xo13`, the update of `xo13` by the tile's partial product. -/
theorem out_B_13 (c : Dev nD) (i : grid3.Coords) (a1 : Memref sig .tc .vmem S5000x64 .f32) (h1 : a1.IsWhole) (a2 : Memref sig .tc .vmem S1x64 .f32) (h2 : a2.IsWhole) (a3 : Memref sig .tc .vmem S5000x1 .i32) (h3 : a3.IsWhole) (a4 : Memref sig .tc .vmem S64x64 .f32) (h4 : a4.IsWhole) (a5 : Memref sig .tc .vmem S1x64 .f32) (h5 : a5.IsWhole) (a6 : Memref sig .tc .vmem S64x9 .f32) (h6 : a6.IsWhole) (a7 : Memref sig .tc .vmem S1x9 .f32) (h7 : a7.IsWhole) (a8 : Memref sig .tc .vmem S64x32 .f32) (h8 : a8.IsWhole) (a9 : Memref sig .tc .vmem S1x32 .f32) (h9 : a9.IsWhole) (a10 : Memref sig .tc .vmem S32x1 .f32) (h10 : a10.IsWhole) (a11 : Memref sig .tc .vmem S1x1 .f32) (h11 : a11.IsWhole) (a12 : Memref sig .tc .vmem S5000x9 .f32) (h12 : a12.IsWhole) (a13 : Memref sig .tc .vmem S5000x1 .f32) (h13 : a13.IsWhole) (a14 : Memref sig .tc .vmem S256x64 .f32) (h14 : a14.IsWhole) (a15 : Memref sig .tc .vmem S1x256 .f32) (h15 : a15.IsWhole) (hc : ¬cond3_0 i)
    (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) (xo13 : Vec F S256x64 .f32) (xo14 : Vec F S1x256 .f32) :
    out3_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xo13 xo14 = k3_pay3 (k3_pay7 x0 x1) x2 xo13 := by
  unfold out3_B_13
  rw [View.read_writes_eq_canon _ _ _ (cover3_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xo13 xo14)]
  unfold kernelRun3_B
  dsimp only
  sl_unfold_words
  rw [View.canon_unit_zero hz]
  simp only [View.readAt_eq_ld, h1.read_unread, h2.read_unread, h3.read_unread, h14.read_unread,
    View.ld_unit_zero (S := S5000x64) hz, View.ld_unit_zero (S := S1x64) hz, View.ld_unit_zero (S := S5000x1) hz,
    View.ld_unit_zero (S := S256x64) hz]

/-- Past the first tile the body leaves, in the counts' buffer holding `xo14`, the update of `xo14` by the tile's partial counts. -/
theorem out_B_14 (c : Dev nD) (i : grid3.Coords) (a1 : Memref sig .tc .vmem S5000x64 .f32) (h1 : a1.IsWhole) (a2 : Memref sig .tc .vmem S1x64 .f32) (h2 : a2.IsWhole) (a3 : Memref sig .tc .vmem S5000x1 .i32) (h3 : a3.IsWhole) (a4 : Memref sig .tc .vmem S64x64 .f32) (h4 : a4.IsWhole) (a5 : Memref sig .tc .vmem S1x64 .f32) (h5 : a5.IsWhole) (a6 : Memref sig .tc .vmem S64x9 .f32) (h6 : a6.IsWhole) (a7 : Memref sig .tc .vmem S1x9 .f32) (h7 : a7.IsWhole) (a8 : Memref sig .tc .vmem S64x32 .f32) (h8 : a8.IsWhole) (a9 : Memref sig .tc .vmem S1x32 .f32) (h9 : a9.IsWhole) (a10 : Memref sig .tc .vmem S32x1 .f32) (h10 : a10.IsWhole) (a11 : Memref sig .tc .vmem S1x1 .f32) (h11 : a11.IsWhole) (a12 : Memref sig .tc .vmem S5000x9 .f32) (h12 : a12.IsWhole) (a13 : Memref sig .tc .vmem S5000x1 .f32) (h13 : a13.IsWhole) (a14 : Memref sig .tc .vmem S256x64 .f32) (h14 : a14.IsWhole) (a15 : Memref sig .tc .vmem S1x256 .f32) (h15 : a15.IsWhole) (hc : ¬cond3_0 i)
    (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) (xo13 : Vec F S256x64 .f32) (xo14 : Vec F S1x256 .f32) :
    out3_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xo13 xo14 = k3_pay4 x2 xo14 := by
  unfold out3_B_14
  rw [View.read_writes_eq_canon _ _ _ (cover3_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xo13 xo14)]
  unfold kernelRun3_B
  dsimp only
  sl_unfold_words
  rw [View.canon_unit_zero hz]
  simp only [View.readAt_eq_ld, h3.read_unread, h15.read_unread,
    View.ld_unit_zero (S := S5000x1) hz, View.ld_unit_zero (S := S1x256) hz]

/-- At the first tile the body stores the zero block in the sums' buffer, reads it back and leaves its update by the tile's partial product. -/
theorem out_A_13 (c : Dev nD) (i : grid3.Coords) (a1 : Memref sig .tc .vmem S5000x64 .f32) (h1 : a1.IsWhole) (a2 : Memref sig .tc .vmem S1x64 .f32) (h2 : a2.IsWhole) (a3 : Memref sig .tc .vmem S5000x1 .i32) (h3 : a3.IsWhole) (a4 : Memref sig .tc .vmem S64x64 .f32) (h4 : a4.IsWhole) (a5 : Memref sig .tc .vmem S1x64 .f32) (h5 : a5.IsWhole) (a6 : Memref sig .tc .vmem S64x9 .f32) (h6 : a6.IsWhole) (a7 : Memref sig .tc .vmem S1x9 .f32) (h7 : a7.IsWhole) (a8 : Memref sig .tc .vmem S64x32 .f32) (h8 : a8.IsWhole) (a9 : Memref sig .tc .vmem S1x32 .f32) (h9 : a9.IsWhole) (a10 : Memref sig .tc .vmem S32x1 .f32) (h10 : a10.IsWhole) (a11 : Memref sig .tc .vmem S1x1 .f32) (h11 : a11.IsWhole) (a12 : Memref sig .tc .vmem S5000x9 .f32) (h12 : a12.IsWhole) (a13 : Memref sig .tc .vmem S5000x1 .f32) (h13 : a13.IsWhole) (a14 : Memref sig .tc .vmem S256x64 .f32) (h14 : a14.IsWhole) (a15 : Memref sig .tc .vmem S1x256 .f32) (h15 : a15.IsWhole) (hc : cond3_0 i)
    (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) :
    out3_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k3_pay3 (k3_pay7 x0 x1) x2 (k3_pay5 (F := F)) := by
  unfold out3_A_13
  rw [View.read_writes_eq_canon _ _ _ (cover3_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun3_A
  dsimp only
  sl_unfold_words
  rw [View.canon_cons_unit_zero (S := S256x64) hz, View.readCov_unit_zero (S := S256x64) _ hz]
  simp only [View.readAt_eq_ld, h1.read_unread, h2.read_unread, h3.read_unread,
    View.ld_unit_zero (S := S5000x64) hz, View.ld_unit_zero (S := S1x64) hz, View.ld_unit_zero (S := S5000x1) hz]

/-- At the first tile the body stores the zero block in the counts' buffer, reads it back and leaves its update by the tile's partial counts. -/
theorem out_A_14 (c : Dev nD) (i : grid3.Coords) (a1 : Memref sig .tc .vmem S5000x64 .f32) (h1 : a1.IsWhole) (a2 : Memref sig .tc .vmem S1x64 .f32) (h2 : a2.IsWhole) (a3 : Memref sig .tc .vmem S5000x1 .i32) (h3 : a3.IsWhole) (a4 : Memref sig .tc .vmem S64x64 .f32) (h4 : a4.IsWhole) (a5 : Memref sig .tc .vmem S1x64 .f32) (h5 : a5.IsWhole) (a6 : Memref sig .tc .vmem S64x9 .f32) (h6 : a6.IsWhole) (a7 : Memref sig .tc .vmem S1x9 .f32) (h7 : a7.IsWhole) (a8 : Memref sig .tc .vmem S64x32 .f32) (h8 : a8.IsWhole) (a9 : Memref sig .tc .vmem S1x32 .f32) (h9 : a9.IsWhole) (a10 : Memref sig .tc .vmem S32x1 .f32) (h10 : a10.IsWhole) (a11 : Memref sig .tc .vmem S1x1 .f32) (h11 : a11.IsWhole) (a12 : Memref sig .tc .vmem S5000x9 .f32) (h12 : a12.IsWhole) (a13 : Memref sig .tc .vmem S5000x1 .f32) (h13 : a13.IsWhole) (a14 : Memref sig .tc .vmem S256x64 .f32) (h14 : a14.IsWhole) (a15 : Memref sig .tc .vmem S1x256 .f32) (h15 : a15.IsWhole) (hc : cond3_0 i)
    (x0 : Vec F S5000x64 .f32) (x1 : Vec F S1x64 .f32) (x2 : Vec F S5000x1 .i32) (x3 : Vec F S64x64 .f32) (x4 : Vec F S1x64 .f32) (x5 : Vec F S64x9 .f32) (x6 : Vec F S1x9 .f32) (x7 : Vec F S64x32 .f32) (x8 : Vec F S1x32 .f32) (x9 : Vec F S32x1 .f32) (x10 : Vec F S1x1 .f32) :
    out3_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k3_pay4 x2 (k3_pay6 (F := F)) := by
  unfold out3_A_14
  rw [View.read_writes_eq_canon _ _ _ (cover3_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun3_A
  dsimp only
  sl_unfold_words
  rw [View.canon_cons_unit_zero (S := S1x256) hz, View.readCov_unit_zero (S := S1x256) _ hz]
  simp only [View.readAt_eq_ld, h3.read_unread, View.ld_unit_zero (S := S5000x1) hz]

end Pieces

/-! ## Words: a graph number below 256 against a node's graph number -/

/-- A graph number below 256, written as a 32-bit word, reads back signed as itself. -/
theorem toInt_ofNat_graph (g : Fin 256) : (BitVec.ofNat 32 g.val).toInt = (g.val : ℤ) := by
  have hg := g.isLt
  rw [BitVec.toInt_eq_toNat_cond, BitVec.toNat_ofNat]
  have h1 : g.val % 2 ^ 32 = g.val := Nat.mod_eq_of_lt (by omega)
  rw [h1, if_pos (by omega)]

/-- The equality comparison's bit is set exactly when the words are equal. -/
theorem cmpi_eq_one_iff (a b : BitVec 32) : IntOp.cmpi .eq a b = 1#1 ↔ a = b := by
  show BitVec.ofBool (a == b) = 1#1 ↔ a = b
  by_cases h : a = b
  · subst h
    rw [show (a == a) = true from beq_self_eq_true a]
    exact ⟨fun _ => rfl, fun _ => rfl⟩
  · rw [show (a == b) = false from beq_eq_false_iff_ne.mpr h]
    exact ⟨fun e => absurd e (by decide), fun e => absurd e h⟩

/-- The one-hot entry as the body spells it: the comparison's bit, widened, converted. -/
theorem onehot_word (x : BitVec 32) (g : Fin 256) :
    (FloatOps.sitofp (F := Ideal) .f32 ((IntOp.cmpi .eq x (BitVec.ofNat 32 g.val)).setWidth 32) : EReal) = hot x g := by
  unfold hot
  by_cases h : x.toInt = (g.val : ℤ)
  · have hx : x = BitVec.ofNat 32 g.val := BitVec.eq_of_toInt_eq (h.trans (toInt_ofNat_graph g).symm)
    have hb : IntOp.cmpi .eq x (BitVec.ofNat 32 g.val) = 1#1 := (cmpi_eq_one_iff _ _).mpr hx
    rw [hb, if_pos h]
    show (((((1#1 : BitVec 1).setWidth 32).toInt : ℤ) : ℝ) : EReal) = 1
    rw [show ((1#1 : BitVec 1).setWidth 32).toInt = 1 from by decide]
    norm_num
  · have hx : ¬ x = BitVec.ofNat 32 g.val := fun e => h (by rw [e]; exact toInt_ofNat_graph g)
    have hb : IntOp.cmpi .eq x (BitVec.ofNat 32 g.val) = 0#1 :=
      eq_zero_of_ne_one (fun e => hx ((cmpi_eq_one_iff _ _).mp e))
    rw [hb, if_neg h]
    show (((((0#1 : BitVec 1).setWidth 32).toInt : ℤ) : ℝ) : EReal) = 0
    rw [show ((0#1 : BitVec 1).setWidth 32).toInt = 0 from by decide]
    norm_num

/-! ## Layout: a column broadcast over many columns -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payloads at an index, on the extended reals -/

/-- The one-hot block at (r, g): one where row r's graph number is g. -/
theorem pay2_at (b : Vec Ideal S5000x1 .i32) (r : Fin 5000) (g : Fin 256) :
    k3_pay2 (F := Ideal) b (ix2 r g) = hot (b (ix2 r (0 : Fin 1))) g := by
  unfold k3_pay2
  show FloatOps.sitofp (F := Ideal) .f32 ((IntOp.cmpi .eq
      (broadcastTo S5000x256 (shapeCast S5000x1 b shapeCasts_S5000x1_S5000x1) broadcasts_S5000x1_S5000x256 (ix2 r g))
      (iota .tc S5000x256 32 [1] iota_S5000x256_d1_w32 (ix2 r g))).setWidth 32) = _
  have e1 : broadcastTo S5000x256 (shapeCast S5000x1 b shapeCasts_S5000x1_S5000x1) broadcasts_S5000x1_S5000x256 (ix2 r g)
      = b (ix2 r (0 : Fin 1)) :=
    (broadcastTo_a1_ab_apply (shapeCast S5000x1 b shapeCasts_S5000x1_S5000x1) broadcasts_S5000x1_S5000x256 r g).trans
      (congrFun (shapeCast_self b shapeCasts_S5000x1_S5000x1) _)
  have e2 : iota .tc S5000x256 32 [1] iota_S5000x256_d1_w32 (ix2 r g) = BitVec.ofNat 32 g.val :=
    iota_single_apply .tc S5000x256 32 1 iota_S5000x256_d1_w32 (ix2 r g)
  rw [e1, e2]
  exact onehot_word _ g

/-- The embedding block at (r, k): the aggregated row plus the bias. -/
theorem pay7_at (x0 : Vec Ideal S5000x64 .f32) (x1 : Vec Ideal S1x64 .f32) (r : Fin 5000) (k : Fin 64) :
    k3_pay7 (F := Ideal) x0 x1 (ix2 r k) = x0 (ix2 r k) + x1 (ix2 (0 : Fin 1) k) := by
  unfold k3_pay7
  show shapeCast S5000x64 x0 shapeCasts_S5000x64_S5000x64 (ix2 r k)
      + broadcastTo S5000x64 (shapeCast S1x64 x1 shapeCasts_S1x64_S1x64) broadcasts_S1x64_S5000x64 (ix2 r k) = _
  have e1 : shapeCast S5000x64 x0 shapeCasts_S5000x64_S5000x64 (ix2 r k) = x0 (ix2 r k) :=
    congrFun (shapeCast_self x0 shapeCasts_S5000x64_S5000x64) _
  have e2 : broadcastTo S5000x64 (shapeCast S1x64 x1 shapeCasts_S1x64_S1x64) broadcasts_S1x64_S5000x64 (ix2 r k)
      = x1 (ix2 (0 : Fin 1) k) :=
    (broadcastTo_1b_ab_apply (shapeCast S1x64 x1 shapeCasts_S1x64_S1x64) broadcasts_S1x64_S5000x64 r k).trans
      (congrFun (shapeCast_self x1 shapeCasts_S1x64_S1x64) _)
  rw [e1, e2]

/-! ## The partial product: axis 0 of both operands contracted -/

theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The updated sums at (g, k): the accumulator there plus, over the tile's rows, the one-hot entry times the row's
    embedding. -/
theorem pay3_at (v9 : FVec Ideal S5000x64 .bf16) (b : Vec Ideal S5000x1 .i32) (acc : Vec Ideal S256x64 .f32)
    (g : Fin 256) (k : Fin 64) :
    k3_pay3 (F := Ideal) v9 b acc (ix2 g k)
      = acc (ix2 g k) + ∑ r : Fin 5000, k3_pay2 (F := Ideal) b (ix2 r g) * v9 (ix2 r k) := by
  unfold k3_pay3
  show shapeCast S256x64 acc shapeCasts_S256x64_S256x64 (ix2 g k)
      + FloatOps.matmul dot_S5000x256_S5000x64_S256x64_0_0_1_1_n_n none (truncf .bf16 (k3_pay2 (F := Ideal) b) bitsLt_bf16_f32) v9
          (constant S256x64 .f32 0x00000000#32) (ix2 g k) = _
  have e1 : shapeCast S256x64 acc shapeCasts_S256x64_S256x64 (ix2 g k) = acc (ix2 g k) :=
    congrFun (shapeCast_self acc shapeCasts_S256x64_S256x64) _
  rw [e1, Ideal.matmul_constant_zero_apply, ← Equiv.sum_comp (contrEquiv1 dot_S5000x256_S5000x64_S256x64_0_0_1_1_n_n 5000 rfl rfl).symm]
  refine congrArg (acc (ix2 g k) + ·) (Finset.sum_congr rfl fun κ _ => ?_)
  have hk := contrEquiv1_symm_val dot_S5000x256_S5000x64_S256x64_0_0_1_1_n_n 5000 rfl rfl κ
  have el : dot_S5000x256_S5000x64_S256x64_0_0_1_1_n_n.lhsIdx (ix2 g k) ((contrEquiv1 dot_S5000x256_S5000x64_S256x64_0_0_1_1_n_n 5000 rfl rfl).symm κ) = ix2 κ g := funext fun a => Fin.ext (by
    match a with
    | ⟨0, _⟩ => exact (lhs_pool_0 _ _).trans hk
    | ⟨1, _⟩ => exact lhs_pool_1 _ _)
  have er : dot_S5000x256_S5000x64_S256x64_0_0_1_1_n_n.rhsIdx (ix2 g k) ((contrEquiv1 dot_S5000x256_S5000x64_S256x64_0_0_1_1_n_n 5000 rfl rfl).symm κ) = ix2 κ k := funext fun a => Fin.ext (by
    match a with
    | ⟨0, _⟩ => exact (rhs_pool_0 _ _).trans hk
    | ⟨1, _⟩ => exact rhs_pool_1 _ _)
  rw [el, er]
  rfl

/-- The updated counts at g: the accumulator there plus the tile's one-hot column summed over its rows. -/
theorem pay4_at (b : Vec Ideal S5000x1 .i32) (acc : Vec Ideal S1x256 .f32) (u : Fin 1) (g : Fin 256) :
    k3_pay4 (F := Ideal) b acc (ix2 u g) = acc (ix2 u g) + ∑ r : Fin 5000, k3_pay2 (F := Ideal) b (ix2 r g) := by
  unfold k3_pay4
  show shapeCast S1x256 acc shapeCasts_S1x256_S1x256 (ix2 u g)
      + shapeCast S1x256 (multiReduction (F := Ideal) .add [0] S256 (k3_pay2 (F := Ideal) b) 0x00000000#32
          reduces_S5000x256_S256 (.inl rfl) rfl) shapeCasts_S256_S1x256 (ix2 u g) = _
  have e1 : shapeCast S1x256 acc shapeCasts_S1x256_S1x256 (ix2 u g) = acc (ix2 u g) :=
    congrFun (shapeCast_self acc shapeCasts_S1x256_S1x256) _
  have e2 := shapeCast_a_1a_apply (multiReduction (F := Ideal) .add [0] S256 (k3_pay2 (F := Ideal) b) 0x00000000#32
      reduces_S5000x256_S256 (.inl rfl) rfl) shapeCasts_S256_S1x256 u g
  have e3 : multiReduction (F := Ideal) .add [0] S256 (k3_pay2 (F := Ideal) b) 0x00000000#32
      reduces_S5000x256_S256 (.inl rfl) rfl (ix1 g) = ∑ r : Fin 5000, k3_pay2 (F := Ideal) b (ix2 r g) :=
    (Ideal.multiReduction_add_single (k3_pay2 (F := Ideal) b) 0x00000000#32 reduces_S5000x256_S256 (.inl rfl) rfl (ix1 g)).trans
      (Finset.sum_congr rfl fun r _ => congrArg (k3_pay2 (F := Ideal) b) (funext fun a => Fin.ext (by
        match a with
        | ⟨0, _⟩ => rfl
        | ⟨1, _⟩ => rfl)))
  rw [e1, e2, e3]

/-- The zero block of the sums reads zero. -/
theorem pay5_at (i : S256x64.Idx) : k3_pay5 (F := Ideal) i = 0 := by
  show Ideal.ofBits .f32 0x00000000#32 = 0
  exact Ideal.ofBits_zero_f32

/-- The zero block of the counts reads zero. -/
theorem pay6_at (i : S1x256.Idx) : k3_pay6 (F := Ideal) i = 0 := by
  show Ideal.ofBits .f32 0x00000000#32 = 0
  exact Ideal.ofBits_zero_f32

/-! ## One tile's update over its three blocks -/

/-- The updated sums at (g, k): the accumulator plus, over the tile's rows, one-hot times embedding. -/
theorem step_sum (x0 : Vec Ideal S5000x64 .f32) (x1 : Vec Ideal S1x64 .f32) (x2 : Vec Ideal S5000x1 .i32)
    (acc : Vec Ideal S256x64 .f32) (g : Fin 256) (k : Fin 64) :
    k3_pay3 (F := Ideal) (k3_pay7 (F := Ideal) x0 x1) x2 acc (ix2 g k)
      = acc (ix2 g k) + ∑ r : Fin 5000, hot (x2 (ix2 r (0 : Fin 1))) g * (x0 (ix2 r k) + x1 (ix2 (0 : Fin 1) k)) := by
  refine (pay3_at (k3_pay7 (F := Ideal) x0 x1) x2 acc g k).trans ?_
  refine congrArg (acc (ix2 g k) + ·) (Finset.sum_congr rfl fun r _ => ?_)
  rw [pay2_at x2 r g, pay7_at x0 x1 r k]

/-- The updated counts at g: the accumulator plus the tile's one-hot column summed. -/
theorem step_cnt (x2 : Vec Ideal S5000x1 .i32) (acc : Vec Ideal S1x256 .f32) (u : Fin 1) (g : Fin 256) :
    k3_pay4 (F := Ideal) x2 acc (ix2 u g) = acc (ix2 u g) + ∑ r : Fin 5000, hot (x2 (ix2 r (0 : Fin 1))) g := by
  refine (pay4_at x2 acc u g).trans ?_
  exact congrArg (acc (ix2 u g) + ·) (Finset.sum_congr rfl fun r _ => pay2_at x2 r g)

/-! ## The region's blocks and arrays -/

variable (V : (c : Dev nD) → (b : Ref sig .tc) → Buf (Elt Ideal) ((c : Thread nD τ).loc b))

/-- A node's graph number as the region finds it. -/
abbrev batchV (c : Dev nD) : Fin 100000 → BitVec 32 := fun n => V c main_v30 (ix2 n (0 : Fin 1))
/-- The final embedding as the region finds it: the last aggregation plus the bias. -/
abbrev embV (c : Dev nD) : Mat 100000 64 := embF (V c main_v74) (fun k => V c main_v75 (ix2 (0 : Fin 1) k))

/-- Tile t's block of the aggregation, -/
abbrev aBlk (c : Dev nD) (t : Fin cfg3.N) : Vec Ideal S5000x64 .f32 := iblk3 V c 0 t
/-- the bias row, -/
abbrev bBlk (c : Dev nD) (t : Fin cfg3.N) : Vec Ideal S1x64 .f32 := iblk3 V c 1 t
/-- and tile t's block of the graph numbers. -/
abbrev gBlk (c : Dev nD) (t : Fin cfg3.N) : Vec Ideal S5000x1 .i32 := iblk3 V c 2 t

/-- A point of the grid as a tile number. -/
abbrev tile (t : Fin cfg3.N) : Fin 20 := Fin.cast N_3 t

/-- The index maps over the grid: the row-tiled windows sit at block (t, 0), the bias at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of tile t's aggregation block is node 5000 t + r's row. -/
theorem aBlk_at (c : Dev nD) (t : Fin cfg3.N) (r : Fin 5000) (k : Fin 64) :
    aBlk V c t (ix2 r k) = V c main_v74 (ix2 (nodeOf (tile t) r) k) := by
  obtain ⟨e0, e1, -⟩ := idx_facts t
  show iblk3 V c 0 t (ix2 r k) = _
  unfold iblk3
  rw [View.read_apply]
  show V c main_v74 _ = V c main_v74 _
  refine congrArg (V c main_v74) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 64 + 1 * k.val = k.val; rw [e1]; omega

/-- The bias block is the bias row. -/
theorem bBlk_at (c : Dev nD) (t : Fin cfg3.N) (k : Fin 64) :
    bBlk V c t (ix2 (0 : Fin 1) k) = V c main_v75 (ix2 (0 : Fin 1) k) := by
  obtain ⟨-, -, e0, e1, -⟩ := idx_facts t
  show iblk3 V c 1 t (ix2 (0 : Fin 1) k) = _
  unfold iblk3
  rw [View.read_apply]
  show V c main_v75 _ = V c main_v75 _
  refine congrArg (V c main_v75) (funext fun a => Fin.ext ?_)
  match a with
  | ⟨0, _⟩ => show win3_1.index t (0 : Fin 2) * 1 + 1 * 0 = 0; rw [e0]
  | ⟨1, _⟩ => show win3_1.index t (1 : Fin 2) * 64 + 1 * k.val = k.val; rw [e1]; omega

/-- Row r of tile t's block of graph numbers is node 5000 t + r's. -/
theorem gBlk_at (c : Dev nD) (t : Fin cfg3.N) (r : Fin 5000) :
    gBlk V c t (ix2 r (0 : Fin 1)) = V c main_v30 (ix2 (nodeOf (tile t) r) (0 : Fin 1)) := by
  obtain ⟨-, -, -, -, e0, e1⟩ := idx_facts t
  show iblk3 V c 2 t (ix2 r (0 : Fin 1)) = _
  unfold iblk3
  rw [View.read_apply]
  show V c main_v30 _ = V c main_v30 _
  refine congrArg (V c main_v30) (funext fun a => Fin.ext ?_)
  match a with
  | ⟨0, _⟩ => show win3_2.index t (0 : Fin 2) * 5000 + 1 * r.val = 5000 * t.val + r.val; rw [e0]; omega
  | ⟨1, _⟩ => show win3_2.index t (1 : Fin 2) * 1 + 1 * 0 = 0; rw [e1]

/-! ## The tiles' partial sums and counts -/

/-- Tile t's partial pooled sum at (g, k). -/
abbrev partSum (c : Dev nD) (g : Fin 256) (k : Fin 64) : Fin 20 → EReal :=
  fun t => ∑ r : Fin 5000, hot (batchV V c (nodeOf t r)) g * embV V c (ix2 (nodeOf t r) k)
/-- Tile t's partial count at g. -/
abbrev partCnt (c : Dev nD) (g : Fin 256) : Fin 20 → EReal :=
  fun t => ∑ r : Fin 5000, hot (batchV V c (nodeOf t r)) g

/-- Over tile t's blocks the one-hot product sums to the tile's partial pooled sum. -/
theorem blk_sum (c : Dev nD) (t : Fin cfg3.N) (g : Fin 256) (k : Fin 64) :
    ∑ r : Fin 5000, hot (gBlk V c t (ix2 r (0 : Fin 1))) g * (aBlk V c t (ix2 r k) + bBlk V c t (ix2 (0 : Fin 1) k))
      = partSum V c g k (tile t) :=
  Finset.sum_congr rfl fun r _ => by rw [gBlk_at V c t r, aBlk_at V c t r k, bBlk_at V c t k]; rfl

/-- Over tile t's block the one-hot column sums to the tile's partial count. -/
theorem blk_cnt (c : Dev nD) (t : Fin cfg3.N) (g : Fin 256) :
    ∑ r : Fin 5000, hot (gBlk V c t (ix2 r (0 : Fin 1))) g = partCnt V c g (tile t) :=
  Finset.sum_congr rfl fun r _ => by rw [gBlk_at V c t r]

/-! ## The accumulators after each tile -/

/-- After tile n the sums' buffer holds, at (g, k), zero plus the partial sums of tiles 0 to n in turn. -/
theorem sums_inv (c : Dev nD) : ∀ (n : ℕ) (h : n < cfg3.N) (g : Fin 256) (k : Fin 64),
    (outsAt3 V c n h).2.2.1 (ix2 g k) = tileAcc 0 (partSum V c g k) n (lt_of_lt_of_eq h N_3)
  | 0, h, g, k => by
    rw [outsAt3_A V c ⟨0, h⟩ rfl]
    dsimp only
    refine (congrFun (out_A_13 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) (ms3_8 ⟨0, h⟩) (hs3_8 ⟨0, h⟩) (ms3_9 ⟨0, h⟩) (hs3_9 ⟨0, h⟩) (ms3_10 ⟨0, h⟩) (hs3_10 ⟨0, h⟩) (ms3_11 ⟨0, h⟩) (hs3_11 ⟨0, h⟩) (ms3_12 ⟨0, h⟩) (hs3_12 ⟨0, h⟩) (ms3_13 ⟨0, h⟩) (hs3_13 ⟨0, h⟩) (ms3_14 ⟨0, h⟩) (hs3_14 ⟨0, h⟩)
      ((hcond3_0 ⟨0, h⟩).mpr rfl) (aBlk V c ⟨0, h⟩) (bBlk V c ⟨0, h⟩) (gBlk V c ⟨0, h⟩) (iblk3 V c 3 ⟨0, h⟩) (iblk3 V c 4 ⟨0, h⟩) (iblk3 V c 5 ⟨0, h⟩) (iblk3 V c 6 ⟨0, h⟩) (iblk3 V c 7 ⟨0, h⟩) (iblk3 V c 8 ⟨0, h⟩) (iblk3 V c 9 ⟨0, h⟩) (iblk3 V c 10 ⟨0, h⟩)) (ix2 g k)).trans ?_
    refine (step_sum (aBlk V c ⟨0, h⟩) (bBlk V c ⟨0, h⟩) (gBlk V c ⟨0, h⟩) (k3_pay5 (F := Ideal)) g k).trans ?_
    rw [pay5_at, blk_sum V c ⟨0, h⟩ g k]
    rfl
  | n + 1, h, g, k => by
    have h20 : n + 1 < 20 := lt_of_lt_of_eq h N_3
    have hB : ¬(⟨n + 1, h⟩ : Fin cfg3.N).val % 20 = 0 := by dsimp only; omega
    rw [outsAt3_B V c ⟨n + 1, h⟩ hB]
    dsimp only
    refine (congrFun (out_B_13 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (ms3_8 ⟨n + 1, h⟩) (hs3_8 ⟨n + 1, h⟩) (ms3_9 ⟨n + 1, h⟩) (hs3_9 ⟨n + 1, h⟩) (ms3_10 ⟨n + 1, h⟩) (hs3_10 ⟨n + 1, h⟩) (ms3_11 ⟨n + 1, h⟩) (hs3_11 ⟨n + 1, h⟩) (ms3_12 ⟨n + 1, h⟩) (hs3_12 ⟨n + 1, h⟩) (ms3_13 ⟨n + 1, h⟩) (hs3_13 ⟨n + 1, h⟩) (ms3_14 ⟨n + 1, h⟩) (hs3_14 ⟨n + 1, h⟩)
      (fun hh => hB ((hcond3_0 ⟨n + 1, h⟩).mp hh)) (aBlk V c ⟨n + 1, h⟩) (bBlk V c ⟨n + 1, h⟩) (gBlk V c ⟨n + 1, h⟩) (iblk3 V c 3 ⟨n + 1, h⟩) (iblk3 V c 4 ⟨n + 1, h⟩) (iblk3 V c 5 ⟨n + 1, h⟩) (iblk3 V c 6 ⟨n + 1, h⟩) (iblk3 V c 7 ⟨n + 1, h⟩) (iblk3 V c 8 ⟨n + 1, h⟩) (iblk3 V c 9 ⟨n + 1, h⟩) (iblk3 V c 10 ⟨n + 1, h⟩)
      (outsAt3 V c n (Nat.lt_of_succ_lt h)).2.2.1 (outsAt3 V c n (Nat.lt_of_succ_lt h)).2.2.2) (ix2 g k)).trans ?_
    refine (step_sum (aBlk V c ⟨n + 1, h⟩) (bBlk V c ⟨n + 1, h⟩) (gBlk V c ⟨n + 1, h⟩)
      (outsAt3 V c n (Nat.lt_of_succ_lt h)).2.2.1 g k).trans ?_
    rw [sums_inv c n (Nat.lt_of_succ_lt h) g k, blk_sum V c ⟨n + 1, h⟩ g k]
    rfl

/-- After tile n the counts' buffer holds, at g, zero plus the partial counts of tiles 0 to n in turn. -/
theorem cnts_inv (c : Dev nD) : ∀ (n : ℕ) (h : n < cfg3.N) (u : Fin 1) (g : Fin 256),
    (outsAt3 V c n h).2.2.2 (ix2 u g) = tileAcc 0 (partCnt V c g) n (lt_of_lt_of_eq h N_3)
  | 0, h, u, g => by
    rw [outsAt3_A V c ⟨0, h⟩ rfl]
    dsimp only
    refine (congrFun (out_A_14 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) (ms3_8 ⟨0, h⟩) (hs3_8 ⟨0, h⟩) (ms3_9 ⟨0, h⟩) (hs3_9 ⟨0, h⟩) (ms3_10 ⟨0, h⟩) (hs3_10 ⟨0, h⟩) (ms3_11 ⟨0, h⟩) (hs3_11 ⟨0, h⟩) (ms3_12 ⟨0, h⟩) (hs3_12 ⟨0, h⟩) (ms3_13 ⟨0, h⟩) (hs3_13 ⟨0, h⟩) (ms3_14 ⟨0, h⟩) (hs3_14 ⟨0, h⟩)
      ((hcond3_0 ⟨0, h⟩).mpr rfl) (aBlk V c ⟨0, h⟩) (bBlk V c ⟨0, h⟩) (gBlk V c ⟨0, h⟩) (iblk3 V c 3 ⟨0, h⟩) (iblk3 V c 4 ⟨0, h⟩) (iblk3 V c 5 ⟨0, h⟩) (iblk3 V c 6 ⟨0, h⟩) (iblk3 V c 7 ⟨0, h⟩) (iblk3 V c 8 ⟨0, h⟩) (iblk3 V c 9 ⟨0, h⟩) (iblk3 V c 10 ⟨0, h⟩)) (ix2 u g)).trans ?_
    refine (step_cnt (gBlk V c ⟨0, h⟩) (k3_pay6 (F := Ideal)) u g).trans ?_
    rw [pay6_at, blk_cnt V c ⟨0, h⟩ g]
    rfl
  | n + 1, h, u, g => by
    have h20 : n + 1 < 20 := lt_of_lt_of_eq h N_3
    have hB : ¬(⟨n + 1, h⟩ : Fin cfg3.N).val % 20 = 0 := by dsimp only; omega
    rw [outsAt3_B V c ⟨n + 1, h⟩ hB]
    dsimp only
    refine (congrFun (out_B_14 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (ms3_8 ⟨n + 1, h⟩) (hs3_8 ⟨n + 1, h⟩) (ms3_9 ⟨n + 1, h⟩) (hs3_9 ⟨n + 1, h⟩) (ms3_10 ⟨n + 1, h⟩) (hs3_10 ⟨n + 1, h⟩) (ms3_11 ⟨n + 1, h⟩) (hs3_11 ⟨n + 1, h⟩) (ms3_12 ⟨n + 1, h⟩) (hs3_12 ⟨n + 1, h⟩) (ms3_13 ⟨n + 1, h⟩) (hs3_13 ⟨n + 1, h⟩) (ms3_14 ⟨n + 1, h⟩) (hs3_14 ⟨n + 1, h⟩)
      (fun hh => hB ((hcond3_0 ⟨n + 1, h⟩).mp hh)) (aBlk V c ⟨n + 1, h⟩) (bBlk V c ⟨n + 1, h⟩) (gBlk V c ⟨n + 1, h⟩) (iblk3 V c 3 ⟨n + 1, h⟩) (iblk3 V c 4 ⟨n + 1, h⟩) (iblk3 V c 5 ⟨n + 1, h⟩) (iblk3 V c 6 ⟨n + 1, h⟩) (iblk3 V c 7 ⟨n + 1, h⟩) (iblk3 V c 8 ⟨n + 1, h⟩) (iblk3 V c 9 ⟨n + 1, h⟩) (iblk3 V c 10 ⟨n + 1, h⟩)
      (outsAt3 V c n (Nat.lt_of_succ_lt h)).2.2.1 (outsAt3 V c n (Nat.lt_of_succ_lt h)).2.2.2) (ix2 u g)).trans ?_
    refine (step_cnt (gBlk V c ⟨n + 1, h⟩) (outsAt3 V c n (Nat.lt_of_succ_lt h)).2.2.2 u g).trans ?_
    rw [cnts_inv c n (Nat.lt_of_succ_lt h) u g, blk_cnt V c ⟨n + 1, h⟩ g]
    rfl

/-! ## The one write-back, after the last tile -/

/-- The last point of the grid. -/
abbrev tLast : Fin cfg3.N := ⟨19, by decide⟩

/-- After the last tile the sums' buffer holds the pooled sums. -/
theorem sums_last (c : Dev nD) : (outsAt3 V c tLast.val tLast.isLt).2.2.1 = poolSumF (batchV V c) (embV V c) := by
  funext i
  obtain ⟨g, k, rfl⟩ : ∃ (g : Fin 256) (k : Fin 64), i = ix2 g k := ⟨i 0, i 1, eq_ix2 i⟩
  refine (sums_inv V c 19 tLast.isLt g k).trans ?_
  refine (tileAcc_last 0 (partSum V c g k)).trans ?_
  exact pool_sum_eq (batchV V c) (embV V c) (ix2 g k)

/-- After the last tile the counts' buffer holds the pooled counts. -/
theorem cnts_last (c : Dev nD) :
    (outsAt3 V c tLast.val tLast.isLt).2.2.2 = fun i : S1x256.Idx => poolCntF (batchV V c) (i 1) := by
  funext i
  obtain ⟨u, g, rfl⟩ : ∃ (u : Fin 1) (g : Fin 256), i = ix2 u g := ⟨i 0, i 1, eq_ix2 i⟩
  refine (cnts_inv V c 19 tLast.isLt u g).trans ?_
  refine (tileAcc_last 0 (partCnt V c g)).trans ?_
  exact pool_cnt_eq (batchV V c) g

/-- The sums' one write-back, at the last point, writes the pooled sums: block (0, 0) of the array is the array. -/
theorem flushed_sums (c : Dev nD) (t : Fin cfg3.N) (hf : (cfg3.win 13).flush t = true) :
    (dat3 (F := Ideal) V c).flushed 13 t
      = ((cfg3.win 13).blk t).view.read (Elt Ideal) (poolSumF (batchV V c) (embV V c)) := by
  have hN : cfg3.N = 20 := N_3
  have h19 : t.val = 19 := by have := (flush3_13 t).mp hf; have := t.isLt; omega
  obtain rfl : t = tLast := Fin.ext h19
  show (cfg3.win 13).cut (grid3.coords tLast) ((dat3 (F := Ideal) V c).after 13 tLast) = _
  rw [after3_13, sums_last]
  have hz' : (fun a => win3_13.index tLast a * main_v80_2.ty.shape.size a) = fun _ => 0 :=
    funext fun a => by fin_cases a <;> decide
  exact (Memref.read_access_unit_zero (Elt Ideal) main_v80_2 hz' (fun a => by rw [congrFun hz' a]; simp)
    (poolSumF (batchV V c) (embV V c))).symm

/-- The counts' one write-back, at the last point, writes the pooled counts. -/
theorem flushed_cnts (c : Dev nD) (t : Fin cfg3.N) (hf : (cfg3.win 14).flush t = true) :
    (dat3 (F := Ideal) V c).flushed 14 t
      = ((cfg3.win 14).blk t).view.read (Elt Ideal) (fun i : S1x256.Idx => poolCntF (batchV V c) (i 1)) := by
  have hN : cfg3.N = 20 := N_3
  have h19 : t.val = 19 := by have := (flush3_14 t).mp hf; have := t.isLt; omega
  obtain rfl : t = tLast := Fin.ext h19
  show (cfg3.win 14).cut (grid3.coords tLast) ((dat3 (F := Ideal) V c).after 14 tLast) = _
  rw [after3_14, cnts_last]
  have hz' : (fun a => win3_14.index tLast a * main_v80_3.ty.shape.size a) = fun _ => 0 :=
    funext fun a => by fin_cases a <;> decide
  exact (Memref.read_access_unit_zero (Elt Ideal) main_v80_3 hz' (fun a => by rw [congrFun hz' a]; simp)
    (fun i : S1x256.Idx => poolCntF (batchV V c) (i 1))).symm

/-! ## The result arrays -/

theorem arr3_sums (c : Dev nD) : (dat3 (F := Ideal) V c).arrAt 13 cfg3.N
    = poolSumF (fun n => V c main_v30 (ix2 n (0 : Fin 1))) (embF (V c main_v74) (fun k => V c main_v75 (ix2 (0 : Fin 1) k))) :=
  (dat3 (F := Ideal) V c).arrAt_eq_of_cover 13 (poolSumF (batchV V c) (embV V c)) (flushed_sums V c) fun i =>
    ⟨tLast, (flush3_13 tLast).mpr rfl, by
      show i ∈ ((View.whole main_v80_2).slice (win3_13.rect tLast)).set
      rw [View.set_slice_whole, Rect.mem_set_unit]
      intro a
      have h0 : (i 0 : Nat) < 256 := (i 0).isLt
      have h1 : (i 1 : Nat) < 64 := (i 1).isLt
      match a with
      | ⟨0, _⟩ =>
        show win3_13.index tLast 0 * win3_13.size 0 ≤ (i 0 : Nat)
          ∧ (i 0 : Nat) < win3_13.index tLast 0 * win3_13.size 0 + win3_13.xsize (grid3.coords tLast) 0
        rw [show win3_13.index tLast 0 * win3_13.size 0 = 0 from by decide +kernel,
          show win3_13.xsize (grid3.coords tLast) 0 = 256 from by decide +kernel]
        omega
      | ⟨1, _⟩ =>
        show win3_13.index tLast 1 * win3_13.size 1 ≤ (i 1 : Nat)
          ∧ (i 1 : Nat) < win3_13.index tLast 1 * win3_13.size 1 + win3_13.xsize (grid3.coords tLast) 1
        rw [show win3_13.index tLast 1 * win3_13.size 1 = 0 from by decide +kernel,
          show win3_13.xsize (grid3.coords tLast) 1 = 64 from by decide +kernel]
        omega⟩

theorem arr3_cnts (c : Dev nD) : (dat3 (F := Ideal) V c).arrAt 14 cfg3.N
    = fun i => poolCntF (fun n => V c main_v30 (ix2 n (0 : Fin 1))) (i 1) :=
  (dat3 (F := Ideal) V c).arrAt_eq_of_cover 14 (fun i : S1x256.Idx => poolCntF (batchV V c) (i 1)) (flushed_cnts V c) fun i =>
    ⟨tLast, (flush3_14 tLast).mpr rfl, by
      show i ∈ ((View.whole main_v80_3).slice (win3_14.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win3_14.index tLast 0 * win3_14.size 0 ≤ (i 0 : Nat)
          ∧ (i 0 : Nat) < win3_14.index tLast 0 * win3_14.size 0 + win3_14.xsize (grid3.coords tLast) 0
        rw [show win3_14.index tLast 0 * win3_14.size 0 = 0 from by decide +kernel,
          show win3_14.xsize (grid3.coords tLast) 0 = 1 from by decide +kernel]
        omega
      | ⟨1, _⟩ =>
        show win3_14.index tLast 1 * win3_14.size 1 ≤ (i 1 : Nat)
          ∧ (i 1 : Nat) < win3_14.index tLast 1 * win3_14.size 1 + win3_14.xsize (grid3.coords tLast) 1
        rw [show win3_14.index tLast 1 * win3_14.size 1 = 0 from by decide +kernel,
          show win3_14.xsize (grid3.coords tLast) 1 = 256 from by decide +kernel]
        omega⟩

end Cert.KernelIdeal.Reg3Pool

end
-- ==== Proof.KHost.lean ====
/- The host stretches of the kernel's program, read through the fold of buffer contents: what each pallas_call
   finds in its operands, and what the last stretch leaves in the result buffers. -/
import proofs.«405259_j86088324481462_1_alg».proof.Proof.Gen.KernelIdeal.Frame
import proofs.«405259_j86088324481462_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.Host
open Cert.KernelIdeal Cert.KernelIdeal.Gen

variable (m : (ℓ : Loc nD τ sig) → Buf (Elt Ideal) ℓ) (ρ : Dev nD → PrngReg) (c : Dev nD)

/-- Message sources, destinations and weights of the launched edge list. -/
abbrev sI : IVec S3300000 32 := srcIdx (m ((c : Thread nD τ).loc main_arg1))
abbrev dI : IVec S3300000 32 := dstIdx (m ((c : Thread nD τ).loc main_arg1))
abbrev nI : FVec Ideal S3300000 .f32 := normOf (F := Ideal) (sI m c) (dI m c)

/-! ### What each host stretch writes, and what it therefore keeps -/

local macro "writes_sub_tac" : tactic => `(tactic| (
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

/-- The references the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ ((hostOps0_W).map (Proc.devRef (τ := τ) .tc)).toFinset := by
  writes_sub_tac

/-- The references the operations of `hostOps0_1` write. -/
abbrev hostOps0_1_W : List (Ref sig .tc) := [main_call0_v0, main_call0_v1, main_v14]
theorem hostOps0_1_writes : (hostOps0_1 : List (HloOp τ sig (Elt Ideal))).Forall fun op => op.writes ⊆ ((hostOps0_1_W).map (Proc.devRef (τ := τ) .tc)).toFinset := by
  writes_sub_tac

/-- The references the operations of `hostOps0_2` write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem hostOps0_2_writes : (hostOps0_2 : List (HloOp τ sig (Elt Ideal))).Forall fun op => op.writes ⊆ ((hostOps0_2_W).map (Proc.devRef (τ := τ) .tc)).toFinset := by
  writes_sub_tac

/-- The references the operations of `hostOps1` write. -/
abbrev hostOps1_W : List (Ref sig .tc) := [main_c_6, main_v32, main_v33, main_c_7, main_v34, main_v35, main_v36, main_v37, main_v38, main_v39, main_v40, main_v41, main_cst_8, main_v42, main_v43, main_v44, main_v45]
theorem hostOps1_writes : (hostOps1 : List (HloOp τ sig (Elt Ideal))).Forall fun op => op.writes ⊆ ((hostOps1_W).map (Proc.devRef (τ := τ) .tc)).toFinset := by
  writes_sub_tac

/-- The references the operations of `hostOps2` write. -/
abbrev hostOps2_W : List (Ref sig .tc) := [main_c_9, main_v47, main_v48, main_c_10, main_v49, main_v50, main_v51, main_v52, main_v53, main_v54, main_v55, main_v56, main_cst_11, main_v57, main_v58, main_v59, main_v60]
theorem hostOps2_writes : (hostOps2 : List (HloOp τ sig (Elt Ideal))).Forall fun op => op.writes ⊆ ((hostOps2_W).map (Proc.devRef (τ := τ) .tc)).toFinset := by
  writes_sub_tac

/-- The references the operations of `hostOps3` write. -/
abbrev hostOps3_W : List (Ref sig .tc) := [main_c_12, main_v62, main_v63, main_c_13, main_v64, main_v65, main_v66, main_v67, main_v68, main_v69, main_v70, main_v71, main_cst_14, main_v72, main_v73, main_v74, main_v75, main_v76, main_v77, main_v78, main_v79]
theorem hostOps3_writes : (hostOps3 : List (HloOp τ sig (Elt Ideal))).Forall fun op => op.writes ⊆ ((hostOps3_W).map (Proc.devRef (τ := τ) .tc)).toFinset := by
  writes_sub_tac

/-- The references the operations of `hostOps4` write. -/
abbrev hostOps4_W : List (Ref sig .tc) := [main_v81, main_cst_15, main_v82, main_v83, main_v84, main_v85, main_v86, main_v87, main_v88, main_v89, main_v90]
theorem hostOps4_writes : (hostOps4 : List (HloOp τ sig (Elt Ideal))).Forall fun op => op.writes ⊆ ((hostOps4_W).map (Proc.devRef (τ := τ) .tc)).toFinset := by
  writes_sub_tac

/-- The references the operations of `hostOps4_1` write. -/
abbrev hostOps4_1_W : List (Ref sig .tc) := [main_call1_cst, main_call1_v0, main_v91]
theorem hostOps4_1_writes : (hostOps4_1 : List (HloOp τ sig (Elt Ideal))).Forall fun op => op.writes ⊆ ((hostOps4_1_W).map (Proc.devRef (τ := τ) .tc)).toFinset := by
  writes_sub_tac

/-- The references the operations of `hostOps4_2` write. -/
abbrev hostOps4_2_W : List (Ref sig .tc) := [main_v92, main_v93, main_v94, main_v95]
theorem hostOps4_2_writes : (hostOps4_2 : List (HloOp τ sig (Elt Ideal))).Forall fun op => op.writes ⊆ ((hostOps4_2_W).map (Proc.devRef (τ := τ) .tc)).toFinset := by
  writes_sub_tac

/-- The references the operations of `hostOps4_3` write. -/
abbrev hostOps4_3_W : List (Ref sig .tc) := [main_call2_cst, main_call2_v0, main_v96]
theorem hostOps4_3_writes : (hostOps4_3 : List (HloOp τ sig (Elt Ideal))).Forall fun op => op.writes ⊆ ((hostOps4_3_W).map (Proc.devRef (τ := τ) .tc)).toFinset := by
  writes_sub_tac

/-- The references the operations of `hostOps4_4` write. -/
abbrev hostOps4_4_W : List (Ref sig .tc) := [main_v97, main_v98, main_v99, main_v100]
theorem hostOps4_4_writes : (hostOps4_4 : List (HloOp τ sig (Elt Ideal))).Forall fun op => op.writes ⊆ ((hostOps4_4_W).map (Proc.devRef (τ := τ) .tc)).toFinset := by
  writes_sub_tac

/-! A reference a stretch does not write holds after it what it held before. -/
theorem W1_of (r : Ref sig .tc) (h : r ∉ hostOps0_W) : W1 m ρ c (Proc.devRef .tc r) = W0 m ρ c (Proc.devRef .tc r) :=
  StableHlo.after_of_writes_sub hostOps0 _ hostOps0_writes h
theorem W2_of (r : Ref sig .tc) (h : r ∉ hostOps0_1_W) : W2 m ρ c (Proc.devRef .tc r) = W1 m ρ c (Proc.devRef .tc r) :=
  StableHlo.after_of_writes_sub hostOps0_1 _ hostOps0_1_writes h
theorem W3_of (r : Ref sig .tc) (h : r ∉ hostOps0_2_W) : W3 m ρ c (Proc.devRef .tc r) = W2 m ρ c (Proc.devRef .tc r) :=
  StableHlo.after_of_writes_sub hostOps0_2 _ hostOps0_2_writes h
theorem W5_of (r : Ref sig .tc) (h : r ∉ hostOps1_W) : W5 m ρ c (Proc.devRef .tc r) = W4 m ρ c (Proc.devRef .tc r) :=
  StableHlo.after_of_writes_sub hostOps1 _ hostOps1_writes h
theorem W7_of (r : Ref sig .tc) (h : r ∉ hostOps2_W) : W7 m ρ c (Proc.devRef .tc r) = W6 m ρ c (Proc.devRef .tc r) :=
  StableHlo.after_of_writes_sub hostOps2 _ hostOps2_writes h
theorem W9_of (r : Ref sig .tc) (h : r ∉ hostOps3_W) : W9 m ρ c (Proc.devRef .tc r) = W8 m ρ c (Proc.devRef .tc r) :=
  StableHlo.after_of_writes_sub hostOps3 _ hostOps3_writes h
theorem W11_of (r : Ref sig .tc) (h : r ∉ hostOps4_W) : W11 m ρ c (Proc.devRef .tc r) = W10 m ρ c (Proc.devRef .tc r) :=
  StableHlo.after_of_writes_sub hostOps4 _ hostOps4_writes h
theorem W12_of (r : Ref sig .tc) (h : r ∉ hostOps4_1_W) : W12 m ρ c (Proc.devRef .tc r) = W11 m ρ c (Proc.devRef .tc r) :=
  StableHlo.after_of_writes_sub hostOps4_1 _ hostOps4_1_writes h
theorem W13_of (r : Ref sig .tc) (h : r ∉ hostOps4_2_W) : W13 m ρ c (Proc.devRef .tc r) = W12 m ρ c (Proc.devRef .tc r) :=
  StableHlo.after_of_writes_sub hostOps4_2 _ hostOps4_2_writes h
theorem W14_of (r : Ref sig .tc) (h : r ∉ hostOps4_3_W) : W14 m ρ c (Proc.devRef .tc r) = W13 m ρ c (Proc.devRef .tc r) :=
  StableHlo.after_of_writes_sub hostOps4_3 _ hostOps4_3_writes h
theorem W15_of (r : Ref sig .tc) (h : r ∉ hostOps4_4_W) : W15 m ρ c (Proc.devRef .tc r) = W14 m ρ c (Proc.devRef .tc r) :=
  StableHlo.after_of_writes_sub hostOps4_4 _ hostOps4_4_writes h

/-! ### The stretches' results, over arbitrary contents at the stretch's entry -/

/-- The residual step of the stretch computation inside an operand list: each operation's result at its own result
    buffer is its function's value, at any other reference what was there. -/
local macro "after_rw" : tactic => `(tactic| repeat (first
  | rw [StableHlo.nullary_result] | rw [StableHlo.unary_result] | rw [StableHlo.binary_result] | rw [StableHlo.ternary_result]
  | rw [StableHlo.reshape_result]
  | (rw [StableHlo.nullary_result_ne]; rotate_left; decide)
  | (rw [StableHlo.unary_result_ne]; rotate_left; decide)
  | (rw [StableHlo.binary_result_ne]; rotate_left; decide)
  | (rw [StableHlo.ternary_result_ne]; rotate_left; decide)
  | (rw [StableHlo.reshape_result_ne]; rotate_left; decide)))

/-- The number of messages arriving at each node. -/
def degOf (d : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 d)
    (broadcastInDim S3300000 ![] bcast_S_S3300000 (constant (F := Ideal) S_ .f32 0x3F800000#32))

section Stretch
variable (Wp : Valuation τ sig (Elt Ideal))

theorem st0_src : StableHlo.after hostOps0 Wp (Proc.devRef .tc main_v5) = srcIdx (Wp (Proc.devRef .tc main_arg1)) := by
  after_results; rfl
theorem st0_dst : StableHlo.after hostOps0 Wp (Proc.devRef .tc main_v6) = dstIdx (Wp (Proc.devRef .tc main_arg1)) := by
  after_results; rfl
theorem st0_pos : StableHlo.after hostOps0 Wp (Proc.devRef .tc main_v12)
    = cmpf .ogt (degOf (dstIdx (Wp (Proc.devRef .tc main_arg1))))
        (broadcastInDim S100000 ![] bcast_S_S100000 (constant (F := Ideal) S_ .f32 0x00000000#32)) := by
  after_results_simp; after_rw; rfl
theorem st0_rs : StableHlo.after hostOps0 Wp (Proc.devRef .tc main_v13)
    = Host.rsqrt (F := Ideal) (degOf (dstIdx (Wp (Proc.devRef .tc main_arg1)))) := by
  after_results_simp; after_rw; rfl
theorem st0_zero : StableHlo.after hostOps0 Wp (Proc.devRef .tc main_cst_2) = constant (F := Ideal) S_ .f32 0x00000000#32 := by
  after_results_simp

theorem st01_dinv : StableHlo.after hostOps0_1 Wp (Proc.devRef .tc main_v14)
    = select (Wp (Proc.devRef .tc main_v12)) (Wp (Proc.devRef .tc main_v13))
        (broadcastInDim S100000 ![] bcast_S_S100000 (id (Wp (Proc.devRef .tc main_cst_2)))) := by
  after_results_simp; rfl

theorem st02_norm : StableHlo.after hostOps0_2 Wp (Proc.devRef .tc main_v29)
    = (mulf (F := Ideal) (Host.gather gather_S100000_S3300000x1_S3300000_n_0_n_n_0_1_1 (Wp (Proc.devRef .tc main_v14)) (wrapCol (Wp (Proc.devRef .tc main_v5))))
        (Host.gather gather_S100000_S3300000x1_S3300000_n_0_n_n_0_1_1 (Wp (Proc.devRef .tc main_v14)) (wrapCol (Wp (Proc.devRef .tc main_v6)))) : FVec Ideal S3300000 .f32) := by
  after_results_simp; rfl
theorem st02_batch : StableHlo.after hostOps0_2 Wp (Proc.devRef .tc main_v30)
    = shapeCast S100000x1 (Wp (Proc.devRef .tc main_arg2)) shapeCasts_S100000_S100000x1 := by
  after_results_simp; rfl

end Stretch

section Stretch
variable (Wp : Valuation τ sig (Elt Ideal))

theorem st1_agg : StableHlo.after hostOps1 Wp (Proc.devRef .tc main_v44)
    = aggOf (F := Ideal) (Wp (Proc.devRef .tc main_v5)) (Wp (Proc.devRef .tc main_v6)) (Wp (Proc.devRef .tc main_v29)) (Wp (Proc.devRef .tc main_v31)) := by
  after_results_simp; rfl
theorem st1_b : StableHlo.after hostOps1 Wp (Proc.devRef .tc main_v45)
    = shapeCast S1x64 (Wp (Proc.devRef .tc main_arg4)) shapeCasts_S64_S1x64 := by
  after_results_simp; rfl

theorem st2_agg : StableHlo.after hostOps2 Wp (Proc.devRef .tc main_v59)
    = aggOf (F := Ideal) (Wp (Proc.devRef .tc main_v5)) (Wp (Proc.devRef .tc main_v6)) (Wp (Proc.devRef .tc main_v29)) (Wp (Proc.devRef .tc main_v46)) := by
  after_results_simp; rfl
theorem st2_b : StableHlo.after hostOps2 Wp (Proc.devRef .tc main_v60)
    = shapeCast S1x64 (Wp (Proc.devRef .tc main_arg6)) shapeCasts_S64_S1x64 := by
  after_results_simp; rfl

theorem st3_agg : StableHlo.after hostOps3 Wp (Proc.devRef .tc main_v74)
    = aggOf (F := Ideal) (Wp (Proc.devRef .tc main_v5)) (Wp (Proc.devRef .tc main_v6)) (Wp (Proc.devRef .tc main_v29)) (Wp (Proc.devRef .tc main_v61)) := by
  after_results_simp; rfl
theorem st3_b : StableHlo.after hostOps3 Wp (Proc.devRef .tc main_v75)
    = shapeCast S1x64 (Wp (Proc.devRef .tc main_arg8)) shapeCasts_S64_S1x64 := by
  after_results_simp; rfl

theorem st3_bm1 : StableHlo.after hostOps3 Wp (Proc.devRef .tc main_v76)
    = shapeCast S1x64 (Wp (Proc.devRef .tc main_arg16)) shapeCasts_S64_S1x64 := by
  after_results_simp; rfl
theorem st3_bm2 : StableHlo.after hostOps3 Wp (Proc.devRef .tc main_v77)
    = shapeCast S1x9 (Wp (Proc.devRef .tc main_arg18)) shapeCasts_S9_S1x9 := by
  after_results_simp; rfl
theorem st3_bp1 : StableHlo.after hostOps3 Wp (Proc.devRef .tc main_v78)
    = shapeCast S1x32 (Wp (Proc.devRef .tc main_arg20)) shapeCasts_S32_S1x32 := by
  after_results_simp; rfl
theorem st3_bp2 : StableHlo.after hostOps3 Wp (Proc.devRef .tc main_v79)
    = shapeCast S1x1 (Wp (Proc.devRef .tc main_arg22)) shapeCasts_S1_S1x1 := by
  after_results_simp; rfl

set_option maxHeartbeats 1000000 in
/-- The five closing stretches together: the per-graph head over the pooled sums and counts. -/
theorem st4_tail : StableHlo.after hostOps4_4 (StableHlo.after hostOps4_3 (StableHlo.after hostOps4_2 (StableHlo.after hostOps4_1
      (StableHlo.after hostOps4 Wp)))) (Proc.devRef .tc main_v100)
    = tailOf (F := Ideal) (Wp (Proc.devRef .tc main_v80_2)) (shapeCast S256 (Wp (Proc.devRef .tc main_v80_3)) shapeCasts_S1x256_S256)
        (Wp (Proc.devRef .tc main_arg9)) (Wp (Proc.devRef .tc main_arg10)) (Wp (Proc.devRef .tc main_arg11))
        (Wp (Proc.devRef .tc main_arg12)) (Wp (Proc.devRef .tc main_arg13)) (Wp (Proc.devRef .tc main_arg14)) := by
  after_results_simp
  rfl

end Stretch

/-! ### Walking a buffer back through the fold -/

/-- A buffer the first two stretches do not write holds after them what was launched. -/
theorem up2 (r : Ref sig .tc) (h0 : r ∉ hostOps0_W := by decide) (h1 : r ∉ hostOps0_1_W := by decide) :
    W2 m ρ c (Proc.devRef .tc r) = m ((c : Thread nD τ).loc r) :=
  (W2_of m ρ c r h1).trans ((W1_of m ρ c r h0).trans rfl)

/-- A buffer none of the first three stretches writes holds at region 0's entry what was launched. -/
theorem up3 (r : Ref sig .tc) (h0 : r ∉ hostOps0_W := by decide) (h1 : r ∉ hostOps0_1_W := by decide)
    (h2 : r ∉ hostOps0_2_W := by decide) : W3 m ρ c (Proc.devRef .tc r) = m ((c : Thread nD τ).loc r) :=
  (W3_of m ρ c r h2).trans (up2 m ρ c r h0 h1)

/-! A buffer that is no array of the regions passed and that the stretches passed do not write holds at a later
    boundary what it held at region 0's entry. -/
theorem dn4 (r : Ref sig .tc) (hr0 : ∀ w, Pipeline.arrRef spec0 w ≠ r := by decide) :
    W4 m ρ c (Proc.devRef .tc r) = W3 m ρ c (Proc.devRef .tc r) := W4_of_ne m ρ c r hr0
theorem dn5 (r : Ref sig .tc) (hr0 : ∀ w, Pipeline.arrRef spec0 w ≠ r := by decide) (h1 : r ∉ hostOps1_W := by decide) :
    W5 m ρ c (Proc.devRef .tc r) = W3 m ρ c (Proc.devRef .tc r) := (W5_of m ρ c r h1).trans (dn4 m ρ c r hr0)
theorem dn6 (r : Ref sig .tc) (hr0 : ∀ w, Pipeline.arrRef spec0 w ≠ r := by decide) (h1 : r ∉ hostOps1_W := by decide)
    (hr1 : ∀ w, Pipeline.arrRef spec1 w ≠ r := by decide) :
    W6 m ρ c (Proc.devRef .tc r) = W3 m ρ c (Proc.devRef .tc r) := (W6_of_ne m ρ c r hr1).trans (dn5 m ρ c r hr0 h1)
theorem dn7 (r : Ref sig .tc) (hr0 : ∀ w, Pipeline.arrRef spec0 w ≠ r := by decide) (h1 : r ∉ hostOps1_W := by decide)
    (hr1 : ∀ w, Pipeline.arrRef spec1 w ≠ r := by decide) (h2 : r ∉ hostOps2_W := by decide) :
    W7 m ρ c (Proc.devRef .tc r) = W3 m ρ c (Proc.devRef .tc r) := (W7_of m ρ c r h2).trans (dn6 m ρ c r hr0 h1 hr1)
theorem dn8 (r : Ref sig .tc) (hr0 : ∀ w, Pipeline.arrRef spec0 w ≠ r := by decide) (h1 : r ∉ hostOps1_W := by decide)
    (hr1 : ∀ w, Pipeline.arrRef spec1 w ≠ r := by decide) (h2 : r ∉ hostOps2_W := by decide)
    (hr2 : ∀ w, Pipeline.arrRef spec2 w ≠ r := by decide) :
    W8 m ρ c (Proc.devRef .tc r) = W3 m ρ c (Proc.devRef .tc r) := (W8_of_ne m ρ c r hr2).trans (dn7 m ρ c r hr0 h1 hr1 h2)
theorem dn9 (r : Ref sig .tc) (hr0 : ∀ w, Pipeline.arrRef spec0 w ≠ r := by decide) (h1 : r ∉ hostOps1_W := by decide)
    (hr1 : ∀ w, Pipeline.arrRef spec1 w ≠ r := by decide) (h2 : r ∉ hostOps2_W := by decide)
    (hr2 : ∀ w, Pipeline.arrRef spec2 w ≠ r := by decide) (h3 : r ∉ hostOps3_W := by decide) :
    W9 m ρ c (Proc.devRef .tc r) = W3 m ρ c (Proc.devRef .tc r) := (W9_of m ρ c r h3).trans (dn8 m ρ c r hr0 h1 hr1 h2 hr2)
theorem dn10 (r : Ref sig .tc) (hr0 : ∀ w, Pipeline.arrRef spec0 w ≠ r := by decide) (h1 : r ∉ hostOps1_W := by decide)
    (hr1 : ∀ w, Pipeline.arrRef spec1 w ≠ r := by decide) (h2 : r ∉ hostOps2_W := by decide)
    (hr2 : ∀ w, Pipeline.arrRef spec2 w ≠ r := by decide) (h3 : r ∉ hostOps3_W := by decide)
    (hr3 : ∀ w, Pipeline.arrRef spec3 w ≠ r := by decide) :
    W10 m ρ c (Proc.devRef .tc r) = W3 m ρ c (Proc.devRef .tc r) := (W10_of_ne m ρ c r hr3).trans (dn9 m ρ c r hr0 h1 hr1 h2 hr2 h3)

/-- A buffer the five closing stretches do not write ends as region 3 left it. -/
theorem tl (r : Ref sig .tc) (h4 : r ∉ hostOps4_W := by decide) (h41 : r ∉ hostOps4_1_W := by decide)
    (h42 : r ∉ hostOps4_2_W := by decide) (h43 : r ∉ hostOps4_3_W := by decide) (h44 : r ∉ hostOps4_4_W := by decide) :
    W15 m ρ c (Proc.devRef .tc r) = W10 m ρ c (Proc.devRef .tc r) :=
  (W15_of m ρ c r h44).trans ((W14_of m ρ c r h43).trans ((W13_of m ρ c r h42).trans ((W12_of m ρ c r h41).trans (W11_of m ρ c r h4))))

/-! ### The edge list and the message weights at region 0's entry -/

theorem E2_src : W2 m ρ c (Proc.devRef .tc main_v5) = sI m c :=
  (W2_of m ρ c main_v5 (by decide)).trans (st0_src (W0 m ρ c))
theorem E2_dst : W2 m ρ c (Proc.devRef .tc main_v6) = dI m c :=
  (W2_of m ρ c main_v6 (by decide)).trans (st0_dst (W0 m ρ c))
theorem E3_src : W3 m ρ c (Proc.devRef .tc main_v5) = sI m c :=
  (W3_of m ρ c main_v5 (by decide)).trans (E2_src m ρ c)
theorem E3_dst : W3 m ρ c (Proc.devRef .tc main_v6) = dI m c :=
  (W3_of m ρ c main_v6 (by decide)).trans (E2_dst m ρ c)

/-- After the second stretch the inverse square roots of the destination counts are in place. -/
theorem E2_dinv : W2 m ρ c (Proc.devRef .tc main_v14) = dinvOf (F := Ideal) (dI m c) := by
  refine (st01_dinv (W1 m ρ c)).trans ?_
  rw [show W1 m ρ c (Proc.devRef .tc main_v12) = _ from st0_pos (W0 m ρ c),
    show W1 m ρ c (Proc.devRef .tc main_v13) = _ from st0_rs (W0 m ρ c),
    show W1 m ρ c (Proc.devRef .tc main_cst_2) = _ from st0_zero (W0 m ρ c)]
  rfl

theorem E3_nrm : W3 m ρ c (Proc.devRef .tc main_v29) = nI m c := by
  refine (st02_norm (W2 m ρ c)).trans ?_
  rw [E2_dinv m ρ c, E2_src m ρ c, E2_dst m ρ c]
  rfl

/-! ### Region 0's operands -/
theorem in0_x : V3 m ρ c main_arg0 = m ((c : Thread nD τ).loc main_arg0) := up3 m ρ c main_arg0
theorem in0_w : V3 m ρ c main_arg3 = m ((c : Thread nD τ).loc main_arg3) := up3 m ρ c main_arg3

/-! ### Region 1's operands -/
theorem in1_a : V5 m ρ c main_v44 = aggOf (F := Ideal) (sI m c) (dI m c) (nI m c) (V4 m ρ c main_v31) := by
  refine (st1_agg (W4 m ρ c)).trans ?_
  rw [(dn4 m ρ c main_v5).trans (E3_src m ρ c), (dn4 m ρ c main_v6).trans (E3_dst m ρ c),
    (dn4 m ρ c main_v29).trans (E3_nrm m ρ c)]
theorem in1_b : V5 m ρ c main_v45 = shapeCast S1x64 (m ((c : Thread nD τ).loc main_arg4)) shapeCasts_S64_S1x64 := by
  refine (st1_b (W4 m ρ c)).trans ?_
  rw [(dn4 m ρ c main_arg4).trans (up3 m ρ c main_arg4)]
theorem in1_w : V5 m ρ c main_arg5 = m ((c : Thread nD τ).loc main_arg5) :=
  (dn5 m ρ c main_arg5).trans (up3 m ρ c main_arg5)

/-! ### Region 2's operands -/
theorem in2_a : V7 m ρ c main_v59 = aggOf (F := Ideal) (sI m c) (dI m c) (nI m c) (V6 m ρ c main_v46) := by
  refine (st2_agg (W6 m ρ c)).trans ?_
  rw [(dn6 m ρ c main_v5).trans (E3_src m ρ c), (dn6 m ρ c main_v6).trans (E3_dst m ρ c),
    (dn6 m ρ c main_v29).trans (E3_nrm m ρ c)]
theorem in2_b : V7 m ρ c main_v60 = shapeCast S1x64 (m ((c : Thread nD τ).loc main_arg6)) shapeCasts_S64_S1x64 := by
  refine (st2_b (W6 m ρ c)).trans ?_
  rw [(dn6 m ρ c main_arg6).trans (up3 m ρ c main_arg6)]
theorem in2_w : V7 m ρ c main_arg7 = m ((c : Thread nD τ).loc main_arg7) :=
  (dn7 m ρ c main_arg7).trans (up3 m ρ c main_arg7)

/-! ### Region 3's operands -/
theorem in3_a : V9 m ρ c main_v74 = aggOf (F := Ideal) (sI m c) (dI m c) (nI m c) (V8 m ρ c main_v61) := by
  refine (st3_agg (W8 m ρ c)).trans ?_
  rw [(dn8 m ρ c main_v5).trans (E3_src m ρ c), (dn8 m ρ c main_v6).trans (E3_dst m ρ c),
    (dn8 m ρ c main_v29).trans (E3_nrm m ρ c)]
theorem in3_b : V9 m ρ c main_v75 = shapeCast S1x64 (m ((c : Thread nD τ).loc main_arg8)) shapeCasts_S64_S1x64 := by
  refine (st3_b (W8 m ρ c)).trans ?_
  rw [(dn8 m ρ c main_arg8).trans (up3 m ρ c main_arg8)]
theorem in3_batch : V9 m ρ c main_v30 = shapeCast S100000x1 (m ((c : Thread nD τ).loc main_arg2)) shapeCasts_S100000_S100000x1 := by
  refine (dn9 m ρ c main_v30).trans ((st02_batch (W2 m ρ c)).trans ?_)
  rw [up2 m ρ c main_arg2]
theorem in3_wm1 : V9 m ρ c main_arg15 = m ((c : Thread nD τ).loc main_arg15) :=
  (dn9 m ρ c main_arg15).trans (up3 m ρ c main_arg15)
theorem in3_bm1 : V9 m ρ c main_v76 = shapeCast S1x64 (m ((c : Thread nD τ).loc main_arg16)) shapeCasts_S64_S1x64 := by
  refine (st3_bm1 (W8 m ρ c)).trans ?_
  rw [(dn8 m ρ c main_arg16).trans (up3 m ρ c main_arg16)]
theorem in3_wm2 : V9 m ρ c main_arg17 = m ((c : Thread nD τ).loc main_arg17) :=
  (dn9 m ρ c main_arg17).trans (up3 m ρ c main_arg17)
theorem in3_bm2 : V9 m ρ c main_v77 = shapeCast S1x9 (m ((c : Thread nD τ).loc main_arg18)) shapeCasts_S9_S1x9 := by
  refine (st3_bm2 (W8 m ρ c)).trans ?_
  rw [(dn8 m ρ c main_arg18).trans (up3 m ρ c main_arg18)]
theorem in3_wp1 : V9 m ρ c main_arg19 = m ((c : Thread nD τ).loc main_arg19) :=
  (dn9 m ρ c main_arg19).trans (up3 m ρ c main_arg19)
theorem in3_bp1 : V9 m ρ c main_v78 = shapeCast S1x32 (m ((c : Thread nD τ).loc main_arg20)) shapeCasts_S32_S1x32 := by
  refine (st3_bp1 (W8 m ρ c)).trans ?_
  rw [(dn8 m ρ c main_arg20).trans (up3 m ρ c main_arg20)]
theorem in3_wp2 : V9 m ρ c main_arg21 = m ((c : Thread nD τ).loc main_arg21) :=
  (dn9 m ρ c main_arg21).trans (up3 m ρ c main_arg21)
theorem in3_bp2 : V9 m ρ c main_v79 = shapeCast S1x1 (m ((c : Thread nD τ).loc main_arg22)) shapeCasts_S1_S1x1 := by
  refine (st3_bp2 (W8 m ρ c)).trans ?_
  rw [(dn8 m ρ c main_arg22).trans (up3 m ρ c main_arg22)]

/-! ### The results after the last stretch -/
theorem out_move : W15 m ρ c (Proc.devRef .tc main_v80_0) = V10 m ρ c main_v80_0 := tl m ρ c main_v80_0
theorem out_block : W15 m ρ c (Proc.devRef .tc main_v80_1) = V10 m ρ c main_v80_1 := tl m ρ c main_v80_1
theorem out_heur : W15 m ρ c (Proc.devRef .tc main_v100)
    = tailOf (F := Ideal) (V10 m ρ c main_v80_2) (shapeCast S256 (V10 m ρ c main_v80_3) shapeCasts_S1x256_S256)
        (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (st4_tail (W10 m ρ c)).trans ?_
  rw [(dn10 m ρ c main_arg9).trans (up3 m ρ c main_arg9), (dn10 m ρ c main_arg10).trans (up3 m ρ c main_arg10),
    (dn10 m ρ c main_arg11).trans (up3 m ρ c main_arg11), (dn10 m ρ c main_arg12).trans (up3 m ρ c main_arg12),
    (dn10 m ρ c main_arg13).trans (up3 m ρ c main_arg13), (dn10 m ρ c main_arg14).trans (up3 m ρ c main_arg14)]

end Cert.KernelIdeal.Host

end
-- ==== Proof.KVal.lean ====
/- The kernel's three results as the network's functions of the arguments: the regions' result arrays and the host
   stretches between them, composed along the program. -/
import proofs.«405259_j86088324481462_1_alg».proof.Proof.Gen.KernelIdeal.Frame
import proofs.«405259_j86088324481462_1_alg».proof.Proof.Spec
import proofs.«405259_j86088324481462_1_alg».proof.Proof.KReg0
import proofs.«405259_j86088324481462_1_alg».proof.Proof.KReg1
import proofs.«405259_j86088324481462_1_alg».proof.Proof.KReg2
import proofs.«405259_j86088324481462_1_alg».proof.Proof.KReg3Heads
import proofs.«405259_j86088324481462_1_alg».proof.Proof.KReg3Pool
import proofs.«405259_j86088324481462_1_alg».proof.Proof.KHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.SageSpec
open Cert.Gnn

namespace Cert.KernelIdeal.KVal
open Cert.KernelIdeal Cert.KernelIdeal.Gen Cert.KernelIdeal.Host

variable (m : (ℓ : Loc nD τ sig) → Buf (Elt Ideal) ℓ) (ρ : Dev nD → PrngReg) (c : Dev nD)

/-- A rank-1 array viewed as a one-row matrix is read, in that row, by its one coordinate. -/
theorem row_eq {n : Nat} (b : (⟨1, ![n]⟩ : Shape).Idx → EReal) (h : (⟨1, ![n]⟩ : Shape).ShapeCasts ⟨2, ![1, n]⟩) :
    (fun k : Fin n => shapeCast ⟨2, ![1, n]⟩ b h (ix2 (0 : Fin 1) k)) = vec b :=
  funext fun k => shapeCast_a_1a_apply b h 0 k

/-- A rank-1 array viewed as a one-column matrix is read, in that column, by its one coordinate. -/
theorem col_eq {n : Nat} {α : Type} (b : (⟨1, ![n]⟩ : Shape).Idx → α) (h : (⟨1, ![n]⟩ : Shape).ShapeCasts ⟨2, ![n, 1]⟩) :
    (fun k : Fin n => shapeCast ⟨2, ![n, 1]⟩ b h (ix2 k (0 : Fin 1))) = fun k => b (ix1 k) :=
  funext fun k => shapeCast_apply b h _ _ (by
    rw [Shape.rowMajor_val_two, Shape.rowMajor_val_one]
    show k.val = k.val * 1 + 0
    omega)

/-- The first call's result array: the projected features. -/
theorem p1 : V4 m ρ c main_v31 = projF (m ((c : Thread nD τ).loc main_arg0)) (m ((c : Thread nD τ).loc main_arg3)) := by
  have h : V4 m ρ c main_v31 = (dat0 (V3 m ρ) c).arrAt 2 cfg0.N := (hF0 m ρ c 2).symm
  rw [h, Reg0.arr0, in0_x, in0_w]

/-- The second call's result array: the second layer's product. -/
theorem p2 : V6 m ρ c main_v46
    = layerF (aggOf (F := Ideal) (sI m c) (dI m c) (nI m c) (projF (m ((c : Thread nD τ).loc main_arg0)) (m ((c : Thread nD τ).loc main_arg3)))) (vec (m ((c : Thread nD τ).loc main_arg4))) (m ((c : Thread nD τ).loc main_arg5)) := by
  have h : V6 m ρ c main_v46 = (dat1 (V5 m ρ) c).arrAt 3 cfg1.N := (hF1 m ρ c 3).symm
  rw [h, Reg1.arr1, in1_a, in1_b, in1_w, p1, row_eq]

/-- The third call's result array: the third layer's product. -/
theorem p3 : V8 m ρ c main_v61
    = layerF (aggOf (F := Ideal) (sI m c) (dI m c) (nI m c)
        (layerF (aggOf (F := Ideal) (sI m c) (dI m c) (nI m c) (projF (m ((c : Thread nD τ).loc main_arg0)) (m ((c : Thread nD τ).loc main_arg3)))) (vec (m ((c : Thread nD τ).loc main_arg4))) (m ((c : Thread nD τ).loc main_arg5))))
        (vec (m ((c : Thread nD τ).loc main_arg6))) (m ((c : Thread nD τ).loc main_arg7)) := by
  have h : V8 m ρ c main_v61 = (dat2 (V7 m ρ) c).arrAt 3 cfg2.N := (hF2 m ρ c 3).symm
  rw [h, Reg2.arr2, in2_a, in2_b, in2_w, p2, row_eq]

/-- The embedding the last call computes from its operands is the network's. -/
theorem emb_eq : embF (V9 m ρ c main_v74) (fun k => V9 m ρ c main_v75 (ix2 (0 : Fin 1) k)) = (embOf (m ((c : Thread nD τ).loc main_arg0)) (m ((c : Thread nD τ).loc main_arg1)) (m ((c : Thread nD τ).loc main_arg3)) (vec (m ((c : Thread nD τ).loc main_arg4))) (m ((c : Thread nD τ).loc main_arg5)) (vec (m ((c : Thread nD τ).loc main_arg6))) (m ((c : Thread nD τ).loc main_arg7)) (vec (m ((c : Thread nD τ).loc main_arg8)))) := by
  rw [in3_a, in3_b, p3, row_eq]
  rfl

theorem k_move : W15 m ρ c (Proc.devRef .tc main_v80_0)
    = headF (embOf (m ((c : Thread nD τ).loc main_arg0)) (m ((c : Thread nD τ).loc main_arg1)) (m ((c : Thread nD τ).loc main_arg3)) (vec (m ((c : Thread nD τ).loc main_arg4))) (m ((c : Thread nD τ).loc main_arg5)) (vec (m ((c : Thread nD τ).loc main_arg6))) (m ((c : Thread nD τ).loc main_arg7)) (vec (m ((c : Thread nD τ).loc main_arg8)))) (m ((c : Thread nD τ).loc main_arg15)) (vec (m ((c : Thread nD τ).loc main_arg16))) (m ((c : Thread nD τ).loc main_arg17)) (vec (m ((c : Thread nD τ).loc main_arg18))) := by
  have h : V10 m ρ c main_v80_0 = (dat3 (V9 m ρ) c).arrAt 11 cfg3.N := (hF3 m ρ c 11).symm
  rw [out_move, h, Reg3Heads.arr3_move, emb_eq, in3_wm1, in3_bm1, in3_wm2, in3_bm2, row_eq, row_eq]

theorem k_block : W15 m ρ c (Proc.devRef .tc main_v80_1)
    = headF (embOf (m ((c : Thread nD τ).loc main_arg0)) (m ((c : Thread nD τ).loc main_arg1)) (m ((c : Thread nD τ).loc main_arg3)) (vec (m ((c : Thread nD τ).loc main_arg4))) (m ((c : Thread nD τ).loc main_arg5)) (vec (m ((c : Thread nD τ).loc main_arg6))) (m ((c : Thread nD τ).loc main_arg7)) (vec (m ((c : Thread nD τ).loc main_arg8)))) (m ((c : Thread nD τ).loc main_arg19)) (vec (m ((c : Thread nD τ).loc main_arg20))) (m ((c : Thread nD τ).loc main_arg21)) (vec (m ((c : Thread nD τ).loc main_arg22))) := by
  have h : V10 m ρ c main_v80_1 = (dat3 (V9 m ρ) c).arrAt 12 cfg3.N := (hF3 m ρ c 12).symm
  rw [out_block, h, Reg3Heads.arr3_block, emb_eq, in3_wp1, in3_bp1, in3_wp2, in3_bp2, row_eq, row_eq]

theorem k_heur : W15 m ρ c (Proc.devRef .tc main_v100)
    = heurOf (embOf (m ((c : Thread nD τ).loc main_arg0)) (m ((c : Thread nD τ).loc main_arg1)) (m ((c : Thread nD τ).loc main_arg3)) (vec (m ((c : Thread nD τ).loc main_arg4))) (m ((c : Thread nD τ).loc main_arg5)) (vec (m ((c : Thread nD τ).loc main_arg6))) (m ((c : Thread nD τ).loc main_arg7)) (vec (m ((c : Thread nD τ).loc main_arg8)))) (fun n => (m ((c : Thread nD τ).loc main_arg2)) (ix1 n)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h2 : V10 m ρ c main_v80_2 = (dat3 (V9 m ρ) c).arrAt 13 cfg3.N := (hF3 m ρ c 13).symm
  have h3 : V10 m ρ c main_v80_3 = (dat3 (V9 m ρ) c).arrAt 14 cfg3.N := (hF3 m ρ c 14).symm
  rw [out_heur, h2, h3, Reg3Pool.arr3_sums, Reg3Pool.arr3_cnts, emb_eq, in3_batch, col_eq]
  unfold heurOf
  refine congrArg (fun cn => tailOf (F := Ideal) _ cn _ _ _ _ _ _) ?_
  funext i
  obtain ⟨g, rfl⟩ : ∃ g : Fin 256, i = ix1 g := ⟨i 0, eq_ix1 i⟩
  exact shapeCast_1a_a_apply _ _ g

end Cert.KernelIdeal.KVal

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.LibVecScatter.lean ====
/-
  A VECTOR SCATTER-ADDED AT INTEGER POSITIONS, READ AT AN INDEX.

  For a vector of shape [N], E integer positions (an [E, 1] array of words) and E updates (shape [E]): the scatter
  with an add body (no window axis, inserted axis 0, scatter axis 0, index vector on axis 1) has, at the exact
  (extended-real) instance, at position n the operand's element plus the sum, over the updates e whose position
  idx[e, 0], read as a signed integer and NOT clamped, is exactly n, of upd[e]; an update whose position lies outside
  [0, N) contributes nowhere (scatterAdd_vec_apply). With every update equal to one this counts the positions equal
  to n (scatterAdd_vec_const).
-/
import Idealize.ShloMosaic.Lib.ValueIdx
import Idealize.ShloMosaic.PureOps.Contract

noncomputable section

open scoped BigOperators

namespace Cert.LibRows

open Idealize.ShloMosaic Idealize.ShloMosaic.ValueIdx

section VecScatter

/-- The vector scatter's dimension numbers for an operand [N], scatter indices [E, 1] and updates [E]; their
    conditions are decided on literal shapes. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at the position idx[e, 0], read signed. -/
theorem vecScatter_start (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e)
      ⟨List.idxOf (0 : Fin 1) (vecScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The only operand axis is an inserted axis: the window coordinate there is 0. -/
theorem vecScatter_window (e : Fin E) : (vecScatter N E wf).window (ix1 e) (0 : Fin 1) = 0 := by
  unfold ScatterDims.window
  rw [dif_neg (show (0 : Fin 1) ∉ (vecScatter N E wf).sKept from by
    simp [ScatterDims.sKept, Shape.kept, List.mem_filter, List.mem_finRange])]

/-- WHERE AN UPDATE LANDS: update e goes to operand position n exactly when its position idx[e, 0], read signed,
    is n. (A position outside [0, N) is no n : Fin N: that update lands nowhere.) -/
theorem vecScatter_resultIdx?_eq_some (idx : IVec ⟨2, ![E, 1]⟩ w) (e : Fin E) (n : Fin N) :
    (vecScatter N E wf).resultIdx? (ix1 e) idx = some (ix1 n)
      ↔ (idx (ix2 e (0 : Fin 1))).toInt = (n.val : ℤ) := by
  have hs := vecScatter_start wf idx e
  have hw := vecScatter_window wf e
  constructor
  · intro h
    unfold ScatterDims.resultIdx? at h
    split at h
    · rename_i hall
      have h' := Option.some.inj h
      have e0 : ((vecScatter N E wf).start (ix1 e) idx (0 : Fin 1)
          + ((vecScatter N E wf).window (ix1 e) (0 : Fin 1) : ℤ)).toNat = n.val :=
        congrArg (fun f => (f (0 : Fin 1)).val) h'
      have b0 := (hall (0 : Fin 1)).1
      rw [hs, hw] at e0 b0
      omega
    · exact absurd h (by simp)
  · intro hn
    unfold ScatterDims.resultIdx?
    have hall : ∀ a, 0 ≤ (vecScatter N E wf).start (ix1 e) idx a + ((vecScatter N E wf).window (ix1 e) a : ℤ)
        ∧ (vecScatter N E wf).start (ix1 e) idx a + ((vecScatter N E wf).window (ix1 e) a : ℤ)
          < (((⟨1, ![N]⟩ : Shape).size a : ℕ) : ℤ) := by
      intro a
      match a with
      | ⟨0, _⟩ =>
        show 0 ≤ (vecScatter N E wf).start (ix1 e) idx (0 : Fin 1)
            + ((vecScatter N E wf).window (ix1 e) (0 : Fin 1) : ℤ)
          ∧ (vecScatter N E wf).start (ix1 e) idx (0 : Fin 1)
            + ((vecScatter N E wf).window (ix1 e) (0 : Fin 1) : ℤ) < ((N : ℕ) : ℤ)
        rw [hs, hw, hn]; have := n.isLt; omega
    rw [dif_pos hall]
    congr 1
    funext a
    refine Fin.ext ?_
    match a with
    | ⟨0, _⟩ =>
      show ((vecScatter N E wf).start (ix1 e) idx (0 : Fin 1)
          + ((vecScatter N E wf).window (ix1 e) (0 : Fin 1) : ℤ)).toNat = n.val
      rw [hs, hw, hn]; omega

/-- THE VECTOR SCATTER-ADD AT n, exact instance: the operand's element plus the sum of upd[e] over the updates e
    whose position idx[e, 0], read signed and not clamped, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  -- the updates that land at n are the e with idx[e, 0] = n: re-index the sum by e
  refine Finset.sum_nbij' (fun u : (⟨1, ![E]⟩ : Shape).Idx => (u 0 : Fin E)) (fun e : Fin E => ix1 e) ?_ ?_ ?_ ?_ ?_
  · intro u hu
    obtain ⟨e, rfl⟩ : ∃ e : Fin E, u = ix1 e := ⟨u 0, eq_ix1 u⟩
    exact Finset.mem_filter.mpr ⟨Finset.mem_univ _,
      (vecScatter_resultIdx?_eq_some wf idx e n).mp (Finset.mem_filter.mp hu).2⟩
  · intro e he
    exact Finset.mem_filter.mpr ⟨Finset.mem_univ _,
      (vecScatter_resultIdx?_eq_some wf idx e n).mpr (Finset.mem_filter.mp he).2⟩
  · intro u _
    exact (eq_ix1 u).symm
  · intro e _
    rfl
  · intro u _
    exact congrArg upd (eq_ix1 u)

/-- The same of the host operation at the exact instance, for any float format. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  exact scatterAdd_vec_apply wf x idx upd n

end VecScatter

end Cert.LibRows

end
-- ==== Proof.RefVal.lean ====
/- The reference's three results, read as the network's functions of the arguments. -/
import proofs.«405259_j86088324481462_1_alg».proof.Proof.RefRun
import proofs.«405259_j86088324481462_1_alg».proof.Proof.RefRead
import proofs.«405259_j86088324481462_1_alg».proof.Proof.Gen.KernelIdeal
import proofs.«405259_j86088324481462_1_alg».proof.Proof.Spec
import proofs.«405259_j86088324481462_1_alg».proof.Proof.LibRowGatherScatter
import proofs.«405259_j86088324481462_1_alg».proof.Proof.LibVecScatter
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.SageSpec
open Cert.Gnn

namespace Cert.ReferenceIdeal.RefValue

open Cert.ReferenceIdeal Cert.ReferenceIdeal.Gen Cert.ReferenceIdeal.ValueP

open Cert.ReferenceIdeal.ReadP

/-- The f32 word 0x3F800000 is the extended real one. -/
theorem one_f32 : Ideal.ofBits .f32 0x3F800000#32 = 1 := by
  simp [Ideal.ofBits, Ideal.ieee, -EReal.coe_mul]; norm_num

/-- A row scatter-add of a node table into a zero table, the row of node n chosen by its graph number: the pooled sums. -/
theorem pool_rows_eq
    (wf : ScatterDims.WF ⟨2, ![256, 64]⟩ ⟨2, ![100000, 1]⟩ ⟨2, ![100000, 64]⟩ [1] [0] [0] 1)
    (h0 : (⟨0, ![]⟩ : Shape).BroadcastsInDim ⟨2, ![256, 64]⟩ (![] : Fin 0 → Fin 2))
    (h1 : (⟨1, ![100000]⟩ : Shape).BroadcastsInDim ⟨2, ![100000, 1]⟩ (![0] : Fin 1 → Fin 2))
    (x2 : IVec ⟨1, ![100000]⟩ 32) (e : FVec Ideal ⟨2, ![100000, 64]⟩ .f32) :
    Host.scatterAdd (F := Ideal) (Cert.LibRows.rowScatter 256 100000 64 wf)
      (broadcastInDim ⟨2, ![256, 64]⟩ ![] h0 (constant (F := Ideal) ⟨0, ![]⟩ .f32 0x00000000#32))
      (broadcastInDim ⟨2, ![100000, 1]⟩ ![0] h1 x2) e
    = poolSumF (fun n => x2 (ix1 n)) e := by
  funext i
  obtain ⟨g, j, rfl⟩ : ∃ (g : Fin 256) (j : Fin 64), i = ix2 g j := ⟨i 0, i 1, eq_ix2 i⟩
  rw [Cert.LibRows.host_scatterAdd_rows_apply wf]
  have hz : broadcastInDim ⟨2, ![256, 64]⟩ ![] h0 (constant (F := Ideal) ⟨0, ![]⟩ .f32 0x00000000#32) (ix2 g j) = 0 :=
    (broadcastInDim_apply _ h0 _ (ix2 g j) ix0 (fun a => a.elim0)).trans Ideal.ofBits_zero_f32
  have hi : ∀ e' : Fin 100000, broadcastInDim ⟨2, ![100000, 1]⟩ ![0] h1 x2 (ix2 e' (0 : Fin 1)) = x2 (ix1 e') := fun e' =>
    broadcastInDim_apply _ h1 x2 _ (ix1 e') (fun a => match a with
      | ⟨0, _⟩ => by show e'.val = if (100000 : Nat) = 1 then 0 else e'.val; rw [if_neg (by decide)])
  rw [hz]
  simp only [hi]
  rfl

/-- A scatter-add of ones into a zero vector, the position of node n its graph number: the pooled counts. -/
theorem pool_ones_eq
    (wf : ScatterDims.WF ⟨1, ![256]⟩ ⟨2, ![100000, 1]⟩ ⟨1, ![100000]⟩ [] [0] [0] 1)
    (h0 : (⟨0, ![]⟩ : Shape).BroadcastsInDim ⟨1, ![256]⟩ (![] : Fin 0 → Fin 1))
    (h1 : (⟨1, ![100000]⟩ : Shape).BroadcastsInDim ⟨2, ![100000, 1]⟩ (![0] : Fin 1 → Fin 2))
    (hu : (⟨0, ![]⟩ : Shape).BroadcastsInDim ⟨1, ![100000]⟩ (![] : Fin 0 → Fin 1))
    (x2 : IVec ⟨1, ![100000]⟩ 32) :
    Host.scatterAdd (F := Ideal) (Cert.LibRows.vecScatter 256 100000 wf)
      (broadcastInDim ⟨1, ![256]⟩ ![] h0 (constant (F := Ideal) ⟨0, ![]⟩ .f32 0x00000000#32))
      (broadcastInDim ⟨2, ![100000, 1]⟩ ![0] h1 x2)
      (broadcastInDim ⟨1, ![100000]⟩ ![] hu (constant (F := Ideal) ⟨0, ![]⟩ .f32 0x3F800000#32))
    = fun i => poolCntF (fun n => x2 (ix1 n)) (i 0) := by
  funext i
  obtain ⟨g, rfl⟩ : ∃ g : Fin 256, i = ix1 g := ⟨i 0, eq_ix1 i⟩
  rw [Cert.LibRows.host_scatterAdd_vec_apply wf]
  have hz : broadcastInDim ⟨1, ![256]⟩ ![] h0 (constant (F := Ideal) ⟨0, ![]⟩ .f32 0x00000000#32) (ix1 g) = 0 :=
    (broadcastInDim_apply _ h0 _ (ix1 g) ix0 (fun a => a.elim0)).trans Ideal.ofBits_zero_f32
  have hone : ∀ e' : Fin 100000,
      broadcastInDim ⟨1, ![100000]⟩ ![] hu (constant (F := Ideal) ⟨0, ![]⟩ .f32 0x3F800000#32) (ix1 e') = 1 := fun e' =>
    (broadcastInDim_apply _ hu _ (ix1 e') ix0 (fun a => a.elim0)).trans one_f32
  have hi : ∀ e' : Fin 100000, broadcastInDim ⟨2, ![100000, 1]⟩ ![0] h1 x2 (ix2 e' (0 : Fin 1)) = x2 (ix1 e') := fun e' =>
    broadcastInDim_apply _ h1 x2 _ (ix1 e') (fun a => match a with
      | ⟨0, _⟩ => by show e'.val = if (100000 : Nat) = 1 then 0 else e'.val; rw [if_neg (by decide)])
  rw [hz]
  simp only [hi, hone]
  rfl

/-! ## Broadcast constants and biases, read at an index -/

section Reads
variable {α : Type}

/-- A scalar broadcast to every position reads the scalar. -/
theorem splat_apply {s : Shape} (h : (⟨0, ![]⟩ : Shape).BroadcastsInDim s (![] : Fin 0 → Fin s.rank))
    (x : (⟨0, ![]⟩ : Shape).Idx → α) (i : s.Idx) : broadcastInDim s ![] h x i = x ix0 :=
  broadcastInDim_apply _ h x i ix0 (fun a => a.elim0)

/-- A zero word broadcast to every position is the extended real zero. -/
theorem zeros_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (splat_apply h _ i).trans Ideal.ofBits_zero_f32

/-- A vector of length k laid along the columns of an [n, k] array (through a [1, k] row) reads, at (p, q), its entry q. -/
theorem biasRows_apply {n k : Nat}
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (b : (⟨1, ![k]⟩ : Shape).Idx → α) (i : (⟨2, ![n, k]⟩ : Shape).Idx) :
    broadcastInDim ⟨2, ![n, k]⟩ ![0, 1] h2 (broadcastInDim ⟨2, ![1, k]⟩ ![1] h1 b) i = b (ix1 (i 1)) := by
  have hq : (i 1).val < k := (i 1).isLt
  refine (broadcastInDim_apply _ h2 _ i (ix2 (0 : Fin 1) (i 1)) (fun a => ?_)).trans
    (broadcastInDim_apply _ h1 b _ (ix1 (i 1)) (fun a => ?_))
  · match a with
    | ⟨0, _⟩ => show (0 : Nat) = if (1 : Nat) = 1 then 0 else (i 0).val; rw [if_pos rfl]
    | ⟨1, _⟩ =>
      show (i 1).val = if k = 1 then 0 else (i 1).val
      by_cases hk : k = 1
      · rw [if_pos hk]; omega
      · rw [if_neg hk]
  · match a with
    | ⟨0, _⟩ =>
      show (i 1).val = if k = 1 then 0 else (i 1).val
      by_cases hk : k = 1
      · rw [if_pos hk]; omega
      · rw [if_neg hk]

end Reads

/-! ## The dense stages -/

section Dense
variable {n k m : Nat}

/-- Bias, rectifier and the next product, as the operations spell them, are the layer's entries. -/
theorem layer_eq {d : DotDims ⟨2, ![n, k]⟩ ⟨2, ![k, m]⟩ ⟨2, ![n, m]⟩} (hd : PlainDot d)
    (h0 : (⟨0, ![]⟩ : Shape).BroadcastsInDim ⟨2, ![n, k]⟩ (![] : Fin 0 → Fin 2))
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (a : FVec Ideal ⟨2, ![n, k]⟩ .f32) (b : FVec Ideal ⟨1, ![k]⟩ .f32) (w : FVec Ideal ⟨2, ![k, m]⟩ .f32) :
    Host.dotGeneral (F := Ideal) d none
      (maximumf (addf a (broadcastInDim ⟨2, ![n, k]⟩ ![0, 1] h2 (broadcastInDim ⟨2, ![1, k]⟩ ![1] h1 b)))
        (broadcastInDim ⟨2, ![n, k]⟩ ![] h0 (constant (F := Ideal) ⟨0, ![]⟩ .f32 0x00000000#32))) w
      = layerF a (vec b) w := by
  funext i
  refine (dotGeneral_at hd none _ w i).trans ?_
  unfold layerF
  refine congrArg (fun f => rowDot f w (i 0) (i 1)) (funext fun u => ?_)
  rw [maximumf_apply, addf_apply, zeros_apply, biasRows_apply]

/-- The last layer's bias, as the operations spell it. -/
theorem emb_eq
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (a : FVec Ideal ⟨2, ![n, k]⟩ .f32) (b : FVec Ideal ⟨1, ![k]⟩ .f32) :
    addf a (broadcastInDim ⟨2, ![n, k]⟩ ![0, 1] h2 (broadcastInDim ⟨2, ![1, k]⟩ ![1] h1 b)) = embF a (vec b) := by
  funext u
  unfold embF
  rw [addf_apply, biasRows_apply]

/-- A head, as the operations spell it: product, bias, rectifier, product, bias. -/
theorem head_eq {h o : Nat} {d1 : DotDims ⟨2, ![n, k]⟩ ⟨2, ![k, h]⟩ ⟨2, ![n, h]⟩}
    {d2 : DotDims ⟨2, ![n, h]⟩ ⟨2, ![h, o]⟩ ⟨2, ![n, o]⟩} (hd1 : PlainDot d1) (hd2 : PlainDot d2)
    (h0 : (⟨0, ![]⟩ : Shape).BroadcastsInDim ⟨2, ![n, h]⟩ (![] : Fin 0 → Fin 2))
    (h1 : (⟨1, ![h]⟩ : Shape).BroadcastsInDim ⟨2, ![1, h]⟩ (![1] : Fin 1 → Fin 2))
    (h2 : (⟨2, ![1, h]⟩ : Shape).BroadcastsInDim ⟨2, ![n, h]⟩ (![0, 1] : Fin 2 → Fin 2))
    (g1 : (⟨1, ![o]⟩ : Shape).BroadcastsInDim ⟨2, ![1, o]⟩ (![1] : Fin 1 → Fin 2))
    (g2 : (⟨2, ![1, o]⟩ : Shape).BroadcastsInDim ⟨2, ![n, o]⟩ (![0, 1] : Fin 2 → Fin 2))
    (e : FVec Ideal ⟨2, ![n, k]⟩ .f32) (wa : FVec Ideal ⟨2, ![k, h]⟩ .f32) (ba : FVec Ideal ⟨1, ![h]⟩ .f32)
    (wb : FVec Ideal ⟨2, ![h, o]⟩ .f32) (bb : FVec Ideal ⟨1, ![o]⟩ .f32) :
    addf
      (Host.dotGeneral (F := Ideal) d2 none
        (maximumf
          (addf (Host.dotGeneral (F := Ideal) d1 none e wa)
            (broadcastInDim ⟨2, ![n, h]⟩ ![0, 1] h2 (broadcastInDim ⟨2, ![1, h]⟩ ![1] h1 ba)))
          (broadcastInDim ⟨2, ![n, h]⟩ ![] h0 (constant (F := Ideal) ⟨0, ![]⟩ .f32 0x00000000#32))) wb)
      (broadcastInDim ⟨2, ![n, o]⟩ ![0, 1] g2 (broadcastInDim ⟨2, ![1, o]⟩ ![1] g1 bb))
      = headF e wa (vec ba) wb (vec bb) := by
  funext i
  unfold headF
  rw [addf_apply, biasRows_apply]
  refine congrArg (fun z => z + bb (ix1 (i 1))) ?_
  refine (dotGeneral_at hd2 none _ wb i).trans ?_
  refine congrArg (fun f => rowDot f wb (i 0) (i 1)) (funext fun u => ?_)
  unfold hidF
  rw [maximumf_apply, addf_apply, zeros_apply, biasRows_apply, dotGeneral_at hd1 none e wa u]

end Dense

/-! ## The dimension numbers of the reference's products are the plain ones -/

theorem plain_v4 : PlainDot dot_S100000x8_S8x64_S100000x64_1_0_0_1_n_n :=
  ⟨rfl, fun _ => rfl, lhs_main_v4_0, fun i q _ => lhs_main_v4_1 i q, fun i q _ => rhs_main_v4_0 i q, rhs_main_v4_1⟩

theorem plain_v48 : PlainDot dot_S100000x64_S64x64_S100000x64_1_0_0_1_n_n :=
  ⟨rfl, fun _ => rfl, lhs_main_v48_0, fun i q _ => lhs_main_v48_1 i q, fun i q _ => rhs_main_v48_0 i q, rhs_main_v48_1⟩

theorem plain_v166 : PlainDot dot_S100000x64_S64x9_S100000x9_1_0_0_1_n_n :=
  ⟨rfl, fun _ => rfl, lhs_main_v166_0, fun i q _ => lhs_main_v166_1 i q, fun i q _ => rhs_main_v166_0 i q, rhs_main_v166_1⟩

theorem plain_v170 : PlainDot dot_S100000x64_S64x32_S100000x32_1_0_0_1_n_n :=
  ⟨rfl, fun _ => rfl, lhs_main_v170_0, fun i q _ => lhs_main_v170_1 i q, fun i q _ => rhs_main_v170_0 i q, rhs_main_v170_1⟩

theorem plain_v175 : PlainDot dot_S100000x32_S32x1_S100000x1_1_0_0_1_n_n :=
  ⟨rfl, fun _ => rfl, lhs_main_v175_0, fun i q _ => lhs_main_v175_1 i q, fun i q _ => rhs_main_v175_0 i q, rhs_main_v175_1⟩

/-! ## The reference's stages, as functions of the arguments -/

/-- The input projection. -/
theorem v4_eq (x0 : (⟨S100000x8, .f32⟩ : BufTy).Contents (Elt Ideal)) (x3 : (⟨S8x64, .f32⟩ : BufTy).Contents (Elt Ideal)) :
    val_main_v4 (F := Ideal) x0 x3 = projF x0 x3 := by
  funext i
  exact dotGeneral_at plain_v4 none x0 x3 i

/-- The first round of message passing: the same operations on both sides. -/
theorem v43_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) :
    val_main_v43 (F := Ideal) x0 x1 x3 = aggOf (F := Ideal) (srcIdx x1) (dstIdx x1) (normOf (F := Ideal) (srcIdx x1) (dstIdx x1)) (val_main_v4 (F := Ideal) x0 x3) := by
  rfl

/-- The second layer's product, after the first layer's bias and rectifier. -/
theorem v48_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = layerF (val_main_v43 (F := Ideal) x0 x1 x3) (vec x4) x5 :=
  layer_eq plain_v48 _ _ _ _ x4 x5

/-- The second round of message passing: the same operations on both sides. -/
theorem v87_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) :
    val_main_v87 (F := Ideal) x0 x1 x3 x4 x5
      = aggOf (F := Ideal) (srcIdx x1) (dstIdx x1) (normOf (F := Ideal) (srcIdx x1) (dstIdx x1)) (val_main_v48 (F := Ideal) x0 x1 x3 x4 x5) := by
  rfl

/-- The third layer's product, after the second layer's bias and rectifier. -/
theorem v92_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v92 (F := Ideal) x0 x1 x3 x4 x5 x6 x7 = layerF (val_main_v87 (F := Ideal) x0 x1 x3 x4 x5) (vec x6) x7 :=
  layer_eq plain_v48 _ _ _ _ x6 x7

/-- The third round of message passing: the same operations on both sides. -/
theorem v131_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v131 (F := Ideal) x0 x1 x3 x4 x5 x6 x7
      = aggOf (F := Ideal) (srcIdx x1) (dstIdx x1) (normOf (F := Ideal) (srcIdx x1) (dstIdx x1)) (val_main_v92 (F := Ideal) x0 x1 x3 x4 x5 x6 x7) := by
  rfl

/-- The final embedding: the third aggregation plus its bias. -/
theorem v134_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v134 (F := Ideal) x0 x1 x3 x4 x5 x6 x7 x8 = embF (val_main_v131 (F := Ideal) x0 x1 x3 x4 x5 x6 x7) (vec x8) :=
  emb_eq _ _ _ x8

/-- The reference's embedding is the network's. -/
theorem emb_stage (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v134 (F := Ideal) x0 x1 x3 x4 x5 x6 x7 x8 = embOf x0 x1 x3 (vec x4) x5 (vec x6) x7 (vec x8) := by
  unfold embOf
  rw [v134_eq, v131_eq, v92_eq, v87_eq, v48_eq, v43_eq, v4_eq]

/-- The first per-node head over the embedding stage. -/
theorem v169_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x9, .f32⟩ : BufTy).Contents (Elt Ideal)) (x18 : (⟨S9, .f32⟩ : BufTy).Contents (Elt Ideal)) :
    val_main_v169 (F := Ideal) x0 x1 x3 x4 x5 x6 x7 x8 x15 x16 x17 x18
      = headF (val_main_v134 (F := Ideal) x0 x1 x3 x4 x5 x6 x7 x8) x15 (vec x16) x17 (vec x18) :=
  head_eq plain_v48 plain_v166 _ _ _ _ _ _ x15 x16 x17 x18

/-- The second per-node head over the embedding stage. -/
theorem v178_eq (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x19 : (⟨S64x32, .f32⟩ : BufTy).Contents (Elt Ideal)) (x20 : (⟨S32, .f32⟩ : BufTy).Contents (Elt Ideal)) (x21 : (⟨S32x1, .f32⟩ : BufTy).Contents (Elt Ideal)) (x22 : (⟨S1, .f32⟩ : BufTy).Contents (Elt Ideal)) :
    val_main_v178 (F := Ideal) x0 x1 x3 x4 x5 x6 x7 x8 x19 x20 x21 x22
      = headF (val_main_v134 (F := Ideal) x0 x1 x3 x4 x5 x6 x7 x8) x19 (vec x20) x21 (vec x22) :=
  head_eq plain_v170 plain_v175 _ _ _ _ _ _ x19 x20 x21 x22

/-- The pooled sums of the embedding stage. -/
theorem v137_eq (x0 : (⟨S100000x8, .f32⟩ : BufTy).Contents (Elt Ideal)) (x1 : (⟨S2x3200000, .i32⟩ : BufTy).Contents (Elt Ideal)) (x2 : (⟨S100000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v137 (F := Ideal) x0 x1 x2 x3 x4 x5 x6 x7 x8
      = poolSumF (fun n => x2 (ix1 n)) (val_main_v134 (F := Ideal) x0 x1 x3 x4 x5 x6 x7 x8) :=
  pool_rows_eq _ _ _ x2 _

/-- The pooled counts. -/
theorem v141_eq (x2 : (⟨S100000, .i32⟩ : BufTy).Contents (Elt Ideal)) :
    val_main_v141 (F := Ideal) x2 = fun i => poolCntF (fun n => x2 (ix1 n)) (i 0) :=
  pool_ones_eq _ _ _ _ x2

/-- The per-graph head after pooling: the same operations on both sides. -/
theorem v160_eq (x0 : (⟨S100000x8, .f32⟩ : BufTy).Contents (Elt Ideal)) (x1 : (⟨S2x3200000, .i32⟩ : BufTy).Contents (Elt Ideal)) (x2 : (⟨S100000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) :
    val_main_v160 (F := Ideal) x0 x1 x2 x3 x4 x5 x6 x7 x8 x9 x10 x11 x12 x13 x14
      = tailOf (F := Ideal) (val_main_v137 (F := Ideal) x0 x1 x2 x3 x4 x5 x6 x7 x8) (val_main_v141 (F := Ideal) x2)
          x9 x10 x11 x12 x13 x14 := by
  rfl

/-- The reference's per-graph result is the network's. -/
theorem heur_stage (x0 : (⟨S100000x8, .f32⟩ : BufTy).Contents (Elt Ideal)) (x1 : (⟨S2x3200000, .i32⟩ : BufTy).Contents (Elt Ideal)) (x2 : (⟨S100000, .i32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) :
    val_main_v160 (F := Ideal) x0 x1 x2 x3 x4 x5 x6 x7 x8 x9 x10 x11 x12 x13 x14
      = heurOf (embOf x0 x1 x3 (vec x4) x5 (vec x6) x7 (vec x8)) (fun n => x2 (ix1 n)) x9 x10 x11 x12 x13 x14 := by
  unfold heurOf
  rw [v160_eq, v137_eq, v141_eq, emb_stage]

/-! ## The three results -/

variable (m : (ℓ : Loc nD τ sig) → Buf (Elt Ideal) ℓ) (c : Dev nD)

/-- The first per-node head of the reference is the network's. -/
theorem ref_move : res_main_v169 (F := Ideal) m c
    = headF (embOf (m ((c.tc : Thread nD τ).loc main_arg0)) (m ((c.tc : Thread nD τ).loc main_arg1)) (m ((c.tc : Thread nD τ).loc main_arg3)) (vec (m ((c.tc : Thread nD τ).loc main_arg4))) (m ((c.tc : Thread nD τ).loc main_arg5)) (vec (m ((c.tc : Thread nD τ).loc main_arg6))) (m ((c.tc : Thread nD τ).loc main_arg7)) (vec (m ((c.tc : Thread nD τ).loc main_arg8)))) (m ((c.tc : Thread nD τ).loc main_arg15)) (vec (m ((c.tc : Thread nD τ).loc main_arg16))) (m ((c.tc : Thread nD τ).loc main_arg17)) (vec (m ((c.tc : Thread nD τ).loc main_arg18))) := by
  refine (ReadP.val_main_v169_eq m c).trans ((v169_eq _ _ _ _ _ _ _ _ _ _ _ _).trans ?_)
  rw [emb_stage]

/-- The second per-node head of the reference is the network's. -/
theorem ref_block : res_main_v178 (F := Ideal) m c
    = headF (embOf (m ((c.tc : Thread nD τ).loc main_arg0)) (m ((c.tc : Thread nD τ).loc main_arg1)) (m ((c.tc : Thread nD τ).loc main_arg3)) (vec (m ((c.tc : Thread nD τ).loc main_arg4))) (m ((c.tc : Thread nD τ).loc main_arg5)) (vec (m ((c.tc : Thread nD τ).loc main_arg6))) (m ((c.tc : Thread nD τ).loc main_arg7)) (vec (m ((c.tc : Thread nD τ).loc main_arg8)))) (m ((c.tc : Thread nD τ).loc main_arg19)) (vec (m ((c.tc : Thread nD τ).loc main_arg20))) (m ((c.tc : Thread nD τ).loc main_arg21)) (vec (m ((c.tc : Thread nD τ).loc main_arg22))) := by
  refine (ReadP.val_main_v178_eq m c).trans ((v178_eq _ _ _ _ _ _ _ _ _ _ _ _).trans ?_)
  rw [emb_stage]

/-- The per-graph result of the reference is the network's. -/
theorem ref_heur : res_main_v160 (F := Ideal) m c
    = heurOf (embOf (m ((c.tc : Thread nD τ).loc main_arg0)) (m ((c.tc : Thread nD τ).loc main_arg1)) (m ((c.tc : Thread nD τ).loc main_arg3)) (vec (m ((c.tc : Thread nD τ).loc main_arg4))) (m ((c.tc : Thread nD τ).loc main_arg5)) (vec (m ((c.tc : Thread nD τ).loc main_arg6))) (m ((c.tc : Thread nD τ).loc main_arg7)) (vec (m ((c.tc : Thread nD τ).loc main_arg8)))) (fun n => (m ((c.tc : Thread nD τ).loc main_arg2)) (ix1 n)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  exact (ReadP.val_main_v160_eq m c).trans (heur_stage _ _ _ _ _ _ _ _ _ _ _ _ _ _ _)

end Cert.ReferenceIdeal.RefValue

end
-- ==== Proof.lean ====
/- The certificate of a graph network: three graph convolutions (feature product, normalised message passing over an
   edge list with self-loops, bias, rectifier), two per-node heads and a per-graph head over segment means.

   The kernel computes the dense products, the rectifiers and the two per-node heads in four row-tiled calls and
   pools the per-graph sums and counts by a one-hot product accumulated over the row tiles; the message passing between
   the calls, and the per-graph head after the pooled sums, are the reference's own host operations. So the two
   programs agree once (i) each call's result array is the dense layer it stands for, index by index on the extended
   reals — a product into a zero accumulator is the host's product, a change of float format is the identity —,
   (ii) the one-hot product summed over the tiles is the sum over the nodes of each graph (0 · x = 0 and 1 · x = x
   for every extended real, and addition is associative and commutative), which is what a scatter-add by graph number
   leaves, and (iii) the shared host chains are applied to equal tables. Nothing uses the finiteness of the inputs. -/
import proofs.«405259_j86088324481462_1_alg».proof.Defs
import proofs.«405259_j86088324481462_1_alg».proof.Proof.Gen.Kernel
import proofs.«405259_j86088324481462_1_alg».proof.Proof.Gen.Kernel.Skeleton
import proofs.«405259_j86088324481462_1_alg».proof.Proof.Gen.Kernel.Launch
import proofs.«405259_j86088324481462_1_alg».proof.Proof.Gen.Kernel.Points
import proofs.«405259_j86088324481462_1_alg».proof.Proof.Gen.Kernel.Frame
import proofs.«405259_j86088324481462_1_alg».proof.Proof.Gen.KernelIdeal
import proofs.«405259_j86088324481462_1_alg».proof.Proof.Gen.KernelIdeal.Skeleton
import proofs.«405259_j86088324481462_1_alg».proof.Proof.Gen.KernelIdeal.Launch
import proofs.«405259_j86088324481462_1_alg».proof.Proof.Gen.KernelIdeal.Points
import proofs.«405259_j86088324481462_1_alg».proof.Proof.Gen.KernelIdeal.Frame
import proofs.«405259_j86088324481462_1_alg».proof.Proof.Gen.ReferenceIdeal
import proofs.«405259_j86088324481462_1_alg».proof.Proof.RefRun
import proofs.«405259_j86088324481462_1_alg».proof.Proof.Gen.Pre_finite_inputs
import proofs.«405259_j86088324481462_1_alg».proof.Proof.KRun
import proofs.«405259_j86088324481462_1_alg».proof.Proof.KVal
import proofs.«405259_j86088324481462_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The one rewrite of the idealization: widening what was just narrowed is the identity on the extended reals. -/
theorem preserves : Cert.preserves_Kernel_KernelIdeal :=
  IdealRules.truncf_extf.statement Cert.KernelIdeal.S5000x256 .f32 .bf16

/-- Both programs end with the network's three results of arguments that agree. -/
theorem algebraic : Cert.algebraic_KernelIdeal_ReferenceIdeal := by
  intro m ρ m' ρ' _ hagree
  refine ⟨fun c => Cert.KernelIdeal.Gen.W15 m ρ c (Proc.devRef .tc Cert.KernelIdeal.main_v100),
    fun c => Cert.KernelIdeal.Gen.W15 m ρ c (Proc.devRef .tc Cert.KernelIdeal.main_v80_0),
    fun c => Cert.KernelIdeal.Gen.W15 m ρ c (Proc.devRef .tc Cert.KernelIdeal.main_v80_1),
    Cert.KernelIdeal.Gen.run_results (F := Ideal) m ρ, ?_⟩
  refine (θ_run Cert.ReferenceIdeal.defs _ _).mono (fun _ h c => ?_) (Cert.ReferenceIdeal.ValueP.run (F := Ideal) m' ρ')
  obtain ⟨h0, h1, h2, hargs⟩ := h c
  obtain ⟨a0, a1, a2, a3, a4, a5, a6, a7, a8, a9, a10, a11, a12, a13, a14, a15, a16, a17, a18, a19, a20, a21, a22⟩ := hagree c
  refine ⟨h0.trans ?_, h1.trans ?_, h2.trans ?_, hargs⟩
  · rw [Cert.ReferenceIdeal.RefValue.ref_heur, a0, a1, a2, a3, a4, a5, a6, a7, a8, a9, a10, a11, a12, a13, a14]
    exact (Cert.KernelIdeal.KVal.k_heur m ρ c).symm
  · rw [Cert.ReferenceIdeal.RefValue.ref_move, a0, a1, a3, a4, a5, a6, a7, a8, a15, a16, a17, a18]
    exact (Cert.KernelIdeal.KVal.k_move m ρ c).symm
  · rw [Cert.ReferenceIdeal.RefValue.ref_block, a0, a1, a3, a4, a5, a6, a7, a8, a19, a20, a21, a22]
    exact (Cert.KernelIdeal.KVal.k_block m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
